-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32768 : Shape := ⟨2, ![2048, 32768]⟩
abbrev S1024x4096 : Shape := ⟨2, ![1024, 4096]⟩
abbrev S32768 : Shape := ⟨1, ![32768]⟩
abbrev S4096 : Shape := ⟨1, ![4096]⟩
abbrev S_ : Shape := ⟨0, ![]⟩

class Facts : Prop where
  bcast_S_S2048x32768 : S_.BroadcastsInDim S2048x32768 (![] : Fin 0 → Fin S2048x32768.rank)
  reducesTo_S2048x32768_S_d0_1 : S2048x32768.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S32768 : S_.BroadcastsInDim S32768 (![] : Fin 0 → Fin S32768.rank)
  reducesTo_S32768_S_d0 : S32768.ReducesTo [0] S_

variable [Facts]

def comparator_i32_d0 : BitVec 32 → BitVec 32 → BitVec 1 :=
  fun l r =>
    let v19 := IntOp.cmpi .slt l r
    v19
def fn_part1 {F : FTy → Type} [FloatOps F] (main_v13 : IVec S_ 1) (main_v16 : IVec S32768 1) (main_c_4 : IVec S_ 1) : IVec S_ 1 :=
  let main_v17 : IVec S_ 1 := (fun x v => Host.reduce IntOp.andi x v reducesTo_S32768_S_d0 h_S_) main_v16 main_c_4
  let main_v18 : IVec S_ 1 := andi main_v13 main_v17
  main_v18

def fn {F : FTy → Type} [FloatOps F] (main_arg0 : FVec F S2048x32768 .f32) (main_arg1 : FVec F S1024x4096 .f32) (main_arg2 : FVec F S32768 .f32) (main_arg3 : IVec S32768 32) (main_arg4 : IVec S32768 32) (main_arg5 : IVec S4096 32) : IVec S_ 1 :=
  let main_v0 : FVec F S2048x32768 .f32 := Host.absf main_arg0
  let main_cst : FVec F S_ .f32 := constant S_ .f32 0x7F800000#32
  let main_v1 : FVec F S2048x32768 .f32 := broadcastInDim S2048x32768 ![] bcast_S_S2048x32768 main_cst
  let main_v2 : IVec S2048x32768 1 := cmpf .olt main_v0 main_v1
  let main_c : IVec S_ 1 := constantI S_ 1 1#1
  let main_v3 : IVec S_ 1 := (fun x v => Host.reduce IntOp.andi x v reducesTo_S2048x32768_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S32768 .f32 := Host.absf main_arg2
  let main_cst_2 : FVec F S_ .f32 := constant S_ .f32 0x7F800000#32
  let main_v10 : FVec F S32768 .f32 := broadcastInDim S32768 ![] bcast_S_S32768 main_cst_2
  let main_v11 : IVec S32768 1 := cmpf .olt main_v9 main_v10
  let main_c_3 : IVec S_ 1 := constantI S_ 1 1#1
  let main_v12 : IVec S_ 1 := (fun x v => Host.reduce IntOp.andi x v reducesTo_S32768_S_d0 h_S_) main_v11 main_c_3
  let main_v13 : IVec S_ 1 := andi main_v8 main_v12
  let main_v14 : IVec S32768 32 := (fun x => Host.sort S32768 0 comparator_i32_d0 x) main_arg3
  let main_v15 : IVec S32768 32 := iotaInDim S32768 32 0
  let main_v16 : IVec S32768 1 := cmpi .eq main_v14 main_v15
  let main_c_4 : IVec S_ 1 := constantI S_ 1 1#1
  fn_part1 (F := F) main_v13 main_v16 main_c_4
-- ==== Kernel.lean ====
abbrev S2048x32768 : Shape := ⟨2, ![2048, 32768]⟩
abbrev S1024x4096 : Shape := ⟨2, ![1024, 4096]⟩
abbrev S32768 : Shape := ⟨1, ![32768]⟩
abbrev S4096 : Shape := ⟨1, ![4096]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S1x32768 : Shape := ⟨2, ![1, 32768]⟩
abbrev S1x4096 : Shape := ⟨2, ![1, 4096]⟩
abbrev S2048x4096 : Shape := ⟨2, ![2048, 4096]⟩
abbrev S512x1024 : Shape := ⟨2, ![512, 1024]⟩
abbrev S1x1024 : Shape := ⟨2, ![1, 1024]⟩
abbrev S1024x1 : Shape := ⟨2, ![1024, 1]⟩
abbrev S1024x1024 : Shape := ⟨2, ![1024, 1024]⟩
abbrev S4096x1024 : Shape := ⟨2, ![4096, 1024]⟩
abbrev S2048x1024 : Shape := ⟨2, ![2048, 1024]⟩
abbrev S512x4096 : Shape := ⟨2, ![512, 4096]⟩

abbrev nBuf : Space → Nat
  | .hbm => 60
  | .vmem => 18
  | .smem => 0
  | _ => 0

abbrev bufTy : (tb : Table) → Fin (tcTables nBuf tb) → BufTy
  | .hbm, ⟨0, _⟩ => ⟨S2048x32768, .f32⟩
  | .hbm, ⟨1, _⟩ => ⟨S1024x4096, .f32⟩
  | .hbm, ⟨2, _⟩ => ⟨S32768, .f32⟩
  | .hbm, ⟨3, _⟩ => ⟨S32768, .i32⟩
  | .hbm, ⟨4, _⟩ => ⟨S32768, .i32⟩
  | .hbm, ⟨5, _⟩ => ⟨S4096, .i32⟩
  | .hbm, ⟨6, _⟩ => ⟨S32768, .i32⟩
  | .hbm, ⟨7, _⟩ => ⟨S32768, .i32⟩
  | .hbm, ⟨8, _⟩ => ⟨S32768, .i32⟩
  | .hbm, ⟨9, _⟩ => ⟨S_, .i32⟩
  | .hbm, ⟨10, _⟩ => ⟨S32768, .i32⟩
  | .hbm, ⟨11, _⟩ => ⟨S32768, .i1⟩
  | .hbm, ⟨12, _⟩ => ⟨S_, .i32⟩
  | .hbm, ⟨13, _⟩ => ⟨S32768, .i32⟩
  | .hbm, ⟨14, _⟩ => ⟨S32768, .i32⟩
  | .hbm, ⟨15, _⟩ => ⟨S32768, .i32⟩
  | .hbm, ⟨16, _⟩ => ⟨S32768x1, .i32⟩
  | .hbm, ⟨17, _⟩ => ⟨S1, .i32⟩
  | .hbm, ⟨18, _⟩ => ⟨S_, .i32⟩
  | .hbm, ⟨19, _⟩ => ⟨S32768x1, .i32⟩
  | .hbm, ⟨20, _⟩ => ⟨S32768x1, .i1⟩
  | .hbm, ⟨21, _⟩ => ⟨S1x1, .i32⟩
  | .hbm, ⟨22, _⟩ => ⟨S32768x1, .i32⟩
  | .hbm, ⟨23, _⟩ => ⟨S32768x1, .i1⟩
  | .hbm, ⟨24, _⟩ => ⟨S32768x1, .i1⟩
  | .hbm, ⟨25, _⟩ => ⟨S_, .i1⟩
  | .hbm, ⟨26, _⟩ => ⟨S32768, .i1⟩
  | .hbm, ⟨27, _⟩ => ⟨S32768, .i32⟩
  | .hbm, ⟨28, _⟩ => ⟨S_, .i32⟩
  | .hbm, ⟨29, _⟩ => ⟨S32768, .i32⟩
  | .hbm, ⟨30, _⟩ => ⟨S32768, .i32⟩
  | .hbm, ⟨31, _⟩ => ⟨S_, .i32⟩
  | .hbm, ⟨32, _⟩ => ⟨S32768, .i32⟩
  | .hbm, ⟨33, _⟩ => ⟨S32768, .i1⟩
  | .hbm, ⟨34, _⟩ => ⟨S_, .i32⟩
  | .hbm, ⟨35, _⟩ => ⟨S32768, .i32⟩
  | .hbm, ⟨36, _⟩ => ⟨S32768, .i32⟩
  | .hbm, ⟨37, _⟩ => ⟨S32768, .i32⟩
  | .hbm, ⟨38, _⟩ => ⟨S32768x1, .i32⟩
  | .hbm, ⟨39, _⟩ => ⟨S1, .i32⟩
  | .hbm, ⟨40, _⟩ => ⟨S_, .i32⟩
  | .hbm, ⟨41, _⟩ => ⟨S32768x1, .i32⟩
  | .hbm, ⟨42, _⟩ => ⟨S32768x1, .i1⟩
  | .hbm, ⟨43, _⟩ => ⟨S1x1, .i32⟩
  | .hbm, ⟨44, _⟩ => ⟨S32768x1, .i32⟩
  | .hbm, ⟨45, _⟩ => ⟨S32768x1, .i1⟩
  | .hbm, ⟨46, _⟩ => ⟨S32768x1, .i1⟩
  | .hbm, ⟨47, _⟩ => ⟨S_, .i1⟩
  | .hbm, ⟨48, _⟩ => ⟨S32768, .i1⟩
  | .hbm, ⟨49, _⟩ => ⟨S32768, .f32⟩
  | .hbm, ⟨50, _⟩ => ⟨S_, .f32⟩
  | .hbm, ⟨51, _⟩ => ⟨S32768, .f32⟩
  | .hbm, ⟨52, _⟩ => ⟨S32768, .f32⟩
  | .hbm, ⟨53, _⟩ => ⟨S1x32768, .i32⟩
  | .hbm, ⟨54, _⟩ => ⟨S1x32768, .f32⟩
  | .hbm, ⟨55, _⟩ => ⟨S1x4096, .i32⟩
  | .hbm, ⟨56, _⟩ => ⟨S2048x4096, .bf16⟩
  | .hbm, ⟨57, _⟩ => ⟨S4096x1024, .f32⟩
  | .hbm, ⟨58, _⟩ => ⟨S4096x1024, .bf16⟩
  | .hbm, ⟨59, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .i32⟩
  | .local _ .vmem, ⟨3, _⟩ => ⟨S1x1024, .i32⟩
  | .local _ .vmem, ⟨4, _⟩ => ⟨S1x1024, .f32⟩
  | .local _ .vmem, ⟨5, _⟩ => ⟨S1x1024, .f32⟩
  | .local _ .vmem, ⟨6, _⟩ => ⟨S1x1024, .i32⟩
  | .local _ .vmem, ⟨7, _⟩ => ⟨S1x1024, .i32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x4096, .bf16⟩
  | .local _ .vmem, ⟨14, _⟩ => ⟨S512x4096, .bf16⟩
  | .local _ .vmem, ⟨15, _⟩ => ⟨S4096x1024, .bf16⟩
  | .local _ .vmem, ⟨16, _⟩ => ⟨S512x1024, .f32⟩
  | .local _ .vmem, ⟨17, _⟩ => ⟨S512x1024, .f32⟩
  | _, _ => ⟨S2048x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1_0 : Ref sig .tc := ⟨.hbm, 7, rfl⟩
abbrev main_v0 : Ref sig .tc := ⟨.hbm, 8, rfl⟩
abbrev main_call1_c : Ref sig .tc := ⟨.hbm, 9, rfl⟩
abbrev main_call1_v0 : Ref sig .tc := ⟨.hbm, 10, rfl⟩
abbrev main_call1_v1 : Ref sig .tc := ⟨.hbm, 11, rfl⟩
abbrev main_call1_c_0 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_c_1 : Ref sig .tc := ⟨.hbm, 17, rfl⟩
abbrev main_call1_c_2 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_3 : Ref sig .tc := ⟨.hbm, 25, rfl⟩
abbrev main_call1_v12 : Ref sig .tc := ⟨.hbm, 26, rfl⟩
abbrev main_call1_v13 : Ref sig .tc := ⟨.hbm, 27, rfl⟩
abbrev main_call1_c_4 : Ref sig .tc := ⟨.hbm, 28, rfl⟩
abbrev main_call1_v14 : Ref sig .tc := ⟨.hbm, 29, rfl⟩
abbrev main_v1 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_c_1 : Ref sig .tc := ⟨.hbm, 39, rfl⟩
abbrev main_call2_c_2 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_3 : Ref sig .tc := ⟨.hbm, 47, rfl⟩
abbrev main_call2_v12 : Ref sig .tc := ⟨.hbm, 48, rfl⟩
abbrev main_call2_v13 : Ref sig .tc := ⟨.hbm, 49, rfl⟩
abbrev main_call2_cst : Ref sig .tc := ⟨.hbm, 50, rfl⟩
abbrev main_call2_v14 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨3, ![4, 4, 32], ![false, false, false]⟩

def k0_cond2 (i : grid0.Coords) : BitVec 1 :=
  let arg2 : BitVec 32 := BitVec.ofNat 32 (i 2).val
  let c31_i32 : BitVec 32 := 31#32
  let v46 : BitVec 1 := Scalar.cmpi .eq arg2 c31_i32
  let v47 : BitVec 32 := Scalar.extui v46
  let c0_i32_21 : BitVec 32 := 0#32
  let v48 : BitVec 1 := Scalar.cmpi .ne v47 c0_i32_21
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S32768_d1 : S32768x1.ReducesTo [1] S32768
  h_S_ : 0 < S_.numel
  shapeCasts_S32768_S1x32768 : S32768.ShapeCasts S1x32768
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S1x1024_d1_w32 : S1x1024.Iotas .tc 32 [1]
  transposes_S1x1024_p1_0_S1024x1 : S1x1024.Transposes [1, 0] S1024x1
  broadcasts_S1024x1_S1024x1024 : S1024x1.Broadcasts S1024x1024
  broadcasts_S1x1024_S1024x1024 : S1x1024.Broadcasts S1024x1024
  natLt_1_32 : 1 < 32
  bitsLt_bf16_f32 : FTy.bits .bf16 < FTy.bits .f32
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  transposes_S1024x4096_S4096x1024_1_0 : S1024x4096.Transposes [1, 0] S4096x1024
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  gather_S32768_S32768x1_S32768_n_0_n_n_0_1_1_wf : GatherDims.WF S32768 S32768x1 S32768 [] [0] [] [0] [] 1 ![1]
  dot_S512x1024_S1024x1024_S512x1024_1_0_0_1_n_n_wf : DotDims.WF S512x1024 S1024x1024 S512x1024 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x32768.size a
  hwx0_0 : ∀ i : grid0.Coords, EltTy.bits .f32 = 32 ∨ (Rect.block (s := S2048x32768) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x32768.size a
  hwx0_1 : ∀ i : grid0.Coords, EltTy.bits .i32 = 32 ∨ (Rect.block (s := S1x32768) S1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x32768.size a
  hwx0_2 : ∀ i : grid0.Coords, EltTy.bits .f32 = 32 ∨ (Rect.block (s := S1x32768) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .i32 = 32 ∨ (Rect.block (s := S1x4096) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S2048x4096.size a
  hwx0_4 : ∀ i : grid0.Coords, EltTy.bits .bf16 = 32 ∨ (Rect.block (s := S2048x4096) S512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S2048x4096.size a
  hwx1_0 : ∀ i : grid1.Coords, EltTy.bits .bf16 = 32 ∨ (Rect.block (s := S2048x4096) S512x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .bf16 = 32 ∨ (Rect.block (s := S4096x1024) S4096x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S2048x1024.size a
  hwx1_2 : ∀ i : grid1.Coords, EltTy.bits .f32 = 32 ∨ (Rect.block (s := S2048x1024) S512x1024.size (cc1_transform_2 i) (hinb1_2 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S32768_S32768x1_S32768_n_0_n_n_0_1_1 : GatherDims S32768 S32768x1 S32768 where
  offsetDims := []
  collapsedSliceDims := [0]
  operandBatchingDims := []
  startIndicesBatchingDims := []
  startIndexMap := [0]
  indexVectorDim := 1
  sliceSizes := ![1]
  wf := gather_S32768_S32768x1_S32768_n_0_n_n_0_1_1_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v6) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2048x32768 : Shape := ⟨2, ![2048, 32768]⟩
abbrev S1024x4096 : Shape := ⟨2, ![1024, 4096]⟩
abbrev S32768 : Shape := ⟨1, ![32768]⟩
abbrev S4096 : Shape := ⟨1, ![4096]⟩
abbrev S_ : Shape := ⟨0, ![]⟩
abbrev S32768x1 : Shape := ⟨2, ![32768, 1]⟩
abbrev S32768x2048 : Shape := ⟨2, ![32768, 2048]⟩
abbrev S4096x2048 : Shape := ⟨2, ![4096, 2048]⟩
abbrev S4096x1 : Shape := ⟨2, ![4096, 1]⟩
abbrev S2048x4096 : Shape := ⟨2, ![2048, 4096]⟩
abbrev S2048x1024 : Shape := ⟨2, ![2048, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x32768, .f32⟩
  | .hbm, ⟨1, _⟩ => ⟨S1024x4096, .f32⟩
  | .hbm, ⟨2, _⟩ => ⟨S32768, .f32⟩
  | .hbm, ⟨3, _⟩ => ⟨S32768, .i32⟩
  | .hbm, ⟨4, _⟩ => ⟨S32768, .i32⟩
  | .hbm, ⟨5, _⟩ => ⟨S4096, .i32⟩
  | .hbm, ⟨6, _⟩ => ⟨S_, .i32⟩
  | .hbm, ⟨7, _⟩ => ⟨S32768, .i32⟩
  | .hbm, ⟨8, _⟩ => ⟨S32768, .i1⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S32768, .i32⟩
  | .hbm, ⟨13, _⟩ => ⟨S32768x1, .i32⟩
  | .hbm, ⟨14, _⟩ => ⟨S2048x32768, .f32⟩
  | .hbm, ⟨15, _⟩ => ⟨S32768x2048, .f32⟩
  | .hbm, ⟨16, _⟩ => ⟨S_, .f32⟩
  | .hbm, ⟨17, _⟩ => ⟨S4096x2048, .f32⟩
  | .hbm, ⟨18, _⟩ => ⟨S32768x1, .i32⟩
  | .hbm, ⟨19, _⟩ => ⟨S4096x2048, .f32⟩
  | .hbm, ⟨20, _⟩ => ⟨S32768x1, .f32⟩
  | .hbm, ⟨21, _⟩ => ⟨S32768x2048, .f32⟩
  | .hbm, ⟨22, _⟩ => ⟨S32768x2048, .f32⟩
  | .hbm, ⟨23, _⟩ => ⟨S_, .f32⟩
  | .hbm, ⟨24, _⟩ => ⟨S4096x2048, .f32⟩
  | .hbm, ⟨25, _⟩ => ⟨S32768x1, .i32⟩
  | .hbm, ⟨26, _⟩ => ⟨S4096x2048, .f32⟩
  | .hbm, ⟨27, _⟩ => ⟨S_, .f32⟩
  | .hbm, ⟨28, _⟩ => ⟨S32768x2048, .f32⟩
  | .hbm, ⟨29, _⟩ => ⟨S32768x2048, .i1⟩
  | .hbm, ⟨30, _⟩ => ⟨S32768x2048, .f32⟩
  | .hbm, ⟨31, _⟩ => ⟨S_, .f32⟩
  | .hbm, ⟨32, _⟩ => ⟨S4096x2048, .f32⟩
  | .hbm, ⟨33, _⟩ => ⟨S32768x1, .i32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .i1⟩
  | .hbm, ⟨38, _⟩ => ⟨S4096x2048, .f32⟩
  | .hbm, ⟨39, _⟩ => ⟨S4096x1, .i32⟩
  | .hbm, ⟨40, _⟩ => ⟨S_, .i32⟩
  | .hbm, ⟨41, _⟩ => ⟨S4096x1, .i32⟩
  | .hbm, ⟨42, _⟩ => ⟨S4096x1, .i1⟩
  | .hbm, ⟨43, _⟩ => ⟨S_, .i32⟩
  | .hbm, ⟨44, _⟩ => ⟨S4096x1, .i32⟩
  | .hbm, ⟨45, _⟩ => ⟨S4096x1, .i1⟩
  | .hbm, ⟨46, _⟩ => ⟨S4096x2048, .i1⟩
  | .hbm, ⟨47, _⟩ => ⟨S4096x2048, .f32⟩
  | .hbm, ⟨48, _⟩ => ⟨S4096x2048, .i1⟩
  | .hbm, ⟨49, _⟩ => ⟨S4096x2048, .f32⟩
  | .hbm, ⟨50, _⟩ => ⟨S2048x4096, .f32⟩
  | .hbm, ⟨51, _⟩ => ⟨S_, .f32⟩
  | .hbm, ⟨52, _⟩ => ⟨S2048x4096, .f32⟩
  | .hbm, ⟨53, _⟩ => ⟨S2048x4096, .f32⟩
  | .hbm, ⟨54, _⟩ => ⟨S2048x1024, .f32⟩
  | _, _ => ⟨S2048x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_v31 : Ref sig .tc := ⟨.hbm, 47, rfl⟩
abbrev main_call1_v0 : Ref sig .tc := ⟨.hbm, 48, rfl⟩
abbrev main_v32 : Ref sig .tc := ⟨.hbm, 49, rfl⟩
abbrev main_v33 : Ref sig .tc := ⟨.hbm, 50, rfl⟩
abbrev main_call2_cst : Ref sig .tc := ⟨.hbm, 51, rfl⟩
abbrev main_call2_v0 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  transposes_S2048x32768_S32768x2048_1_0 : S2048x32768.Transposes [1, 0] S32768x2048
  bcast_S_S4096x2048 : S_.BroadcastsInDim S4096x2048 (![] : Fin 0 → Fin S4096x2048.rank)
  bcast_S32768x1_S32768x2048_0_1 : S32768x1.BroadcastsInDim S32768x2048 (![0, 1] : Fin 2 → Fin S32768x2048.rank)
  bcast_S_S32768x2048 : S_.BroadcastsInDim S32768x2048 (![] : Fin 0 → Fin S32768x2048.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  transposes_S4096x2048_S2048x4096_1_0 : S4096x2048.Transposes [1, 0] S2048x4096
  bcast_S_S2048x4096 : S_.BroadcastsInDim S2048x4096 (![] : Fin 0 → Fin S2048x4096.rank)
  gather_S2048x32768_S32768x1_S2048x32768_0_1_n_n_1_1_20481_wf : GatherDims.WF S2048x32768 S32768x1 S2048x32768 [0] [1] [] [1] [] 1 ![2048, 1]
  scatter_S4096x2048_S32768x1_S32768x2048_1_0_0_1_wf : ScatterDims.WF S4096x2048 S32768x1 S32768x2048 [1] [0] [0] 1
  dot_S2048x4096_S1024x4096_S2048x1024_1_1_0_0_n_n_wf : DotDims.WF S2048x4096 S1024x4096 S2048x1024 [1] [1] [0] [0] [] []

variable [Facts₀]

def gather_S2048x32768_S32768x1_S2048x32768_0_1_n_n_1_1_20481 : GatherDims S2048x32768 S32768x1 S2048x32768 where
  offsetDims := [0]
  collapsedSliceDims := [1]
  operandBatchingDims := []
  startIndicesBatchingDims := []
  startIndexMap := [1]
  indexVectorDim := 1
  sliceSizes := ![2048, 1]
  wf := gather_S2048x32768_S32768x1_S2048x32768_0_1_n_n_1_1_20481_wf
def scatter_S4096x2048_S32768x1_S32768x2048_1_0_0_1 : ScatterDims S4096x2048 S32768x1 S32768x2048 where
  updateWindowDims := [1]
  insertedWindowDims := [0]
  scatterDimsToOperandDims := [0]
  indexVectorDim := 1
  wf := scatter_S4096x2048_S32768x1_S32768x2048_1_0_0_1_wf
def dot_S2048x4096_S1024x4096_S2048x1024_1_1_0_0_n_n : DotDims S2048x4096 S1024x4096 S2048x1024 where
  lhsContracting := [1]
  rhsContracting := [1]
  lhsNonContracting := [0]
  rhsNonContracting := [0]
  lhsBatch := []
  rhsBatch := []
  wf := dot_S2048x4096_S1024x4096_S2048x1024_1_1_0_0_n_n_wf

class Facts : Prop extends Facts₀ where

variable [Facts]
-- ==== Proof.WR0Defs.lean ====
/-
  Region 0 of @main (the group reduction): what its three scratch accumulators and its output window's staging
  buffer hold after every grid point, and the pipeline's proof data built on that.

  The grid is (row tile bi, group tile gi, column tile si), si fastest. At a point the body adds to each of the three
  accumulators (the plain sum, the weighted sum, the count of non-zero entries) the product of this column tile's
  block of x (resp. x·w, resp. [x ≠ 0]) with the tile's group-membership matrix; at si = 0 it first resets them, and
  at the last column tile it selects per group among the three, clips at zero and stores the result block. So the
  accumulators after point n are a recursion on n that restarts whenever n ≡ 0 (mod 32), and the output block is a
  function of them wherever it is stored (n ≡ 31 mod 32), which is exactly where the pipeline writes it back.
-/
import proofs.«416405_j7060926234901_1_alg».proof.Proof.Gen.Kernel.Launch
import proofs.«416405_j7060926234901_1_alg».proof.Proof.Gen.Kernel.Skeleton
import proofs.«416405_j7060926234901_1_alg».proof.Proof.Gen.Kernel.Points
import Idealize.ShloMosaic.Lib.Pipeline.FrameBody
import Idealize.ShloMosaic.Lib.Pipeline.Frame

noncomputable section

namespace Cert.Kernel.R0

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three accumulators: the sum, the weighted sum, the non-zero count (scratch operands 0, 1, 2). -/
abbrev Acc (F : FTy → Type) [FloatOps F] : Type := Vec F S512x1024 .f32 × Vec F S512x1024 .f32 × Vec F S512x1024 .f32

/-- The accumulators as a reset leaves them. -/
def zero0 : Acc F := (k0_pay4 (F := F), k0_pay5 (F := F), k0_pay6 (F := F))

/-- One point's update of the accumulators from the point's blocks of x, of the group ids and of the weights. -/
def step0 (i : grid0.Coords) (x : Vec F S512x1024 .f32) (g : Vec F S1x1024 .i32) (w : Vec F S1x1024 .f32) (S : Acc F) : Acc F :=
  (k0_pay9 i x g S.1, k0_pay1 (k0_pay10 i x g w S.2.1), k0_pay2 (k0_pay7 i g) (k0_pay8 x) S.2.2)

/-- The accumulators after the body at position `n`: the update of what the point before left, or of a reset where
    the column tile is the first (n ≡ 0 mod 32). -/
def accAt0 (c : Dev nD) : (n : ℕ) → n < cfg0.N → Acc F
  | 0, hn => step0 (grid0.coords ⟨0, hn⟩) (iblk0 V c 0 ⟨0, hn⟩) (iblk0 V c 1 ⟨0, hn⟩) (iblk0 V c 2 ⟨0, hn⟩) zero0
  | n + 1, hn => step0 (grid0.coords ⟨n + 1, hn⟩) (iblk0 V c 0 ⟨n + 1, hn⟩) (iblk0 V c 1 ⟨n + 1, hn⟩) (iblk0 V c 2 ⟨n + 1, hn⟩)
      (if (n + 1) % 32 = 0 then zero0 else accAt0 c n (Nat.lt_of_succ_lt hn))

theorem accAt0_reset (c : Dev nD) (t : Fin cfg0.N) (h : t.val % 32 = 0) :
    accAt0 V c t.val t.isLt = step0 (grid0.coords t) (iblk0 V c 0 t) (iblk0 V c 1 t) (iblk0 V c 2 t) zero0 := by
  obtain ⟨n, hn⟩ := t
  cases n with
  | zero => rfl
  | succ n => simp only [accAt0, if_pos h]

theorem accAt0_step (c : Dev nD) (t : Fin cfg0.N) (h : ¬ t.val % 32 = 0) :
    accAt0 V c t.val t.isLt = step0 (grid0.coords t) (iblk0 V c 0 t) (iblk0 V c 1 t) (iblk0 V c 2 t)
      (accAt0 V c (t.val - 1) (Nat.lt_of_le_of_lt (Nat.sub_le _ _) t.isLt)) := by
  obtain ⟨n, hn⟩ := t
  cases n with
  | zero => exact absurd (Nat.zero_mod _) h
  | succ n => simp only [accAt0, if_neg h, Nat.add_sub_cancel]

/-- The output window's staging buffer after the body at point `t`, where the body stores it (the last column tile):
    per group the selected accumulator, clipped at zero. At the other points nothing consults it. -/
def outAt0 (c : Dev nD) (t : Fin cfg0.N) : Vec F S512x1024 .bf16 :=
  k0_pay3 (iblk0 V c 3 t) (accAt0 V c t.val t.isLt).1 (accAt0 V c t.val t.isLt).2.2 (accAt0 V c t.val t.isLt).2.1

/-- The scratch operands as whole memrefs. -/
abbrev scM8 : Memref sig .tc .vmem S512x1024 .f32 := Memref.whole cc0_scratch0
abbrev scM9 : Memref sig .tc .vmem S512x1024 .f32 := Memref.whole cc0_scratch1
abbrev scM10 : Memref sig .tc .vmem S512x1024 .f32 := Memref.whole cc0_scratch2

/-- The scoped buffers region 0 neither stages nor uses (the other call's staging buffers), at anything. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The region invariant before position `n`: before the first point every scoped buffer the region does not stage at
    anything; afterwards the three accumulators at what the point before left, the rest at anything; the generator
    register at some state throughout. -/
def PhiS0 (c : Dev nD) : (n : ℕ) → n ≤ cfg0.N → sProp 𝕄
  | 0, _ => Pipeline.ΦA spec0 c
  | n + 1, hn => iprop(owns (c : Thread nD τ) scM8 fullShare (accAt0 V c n hn).1
      ∗ owns (c : Thread nD τ) scM9 fullShare (accAt0 V c n hn).2.1
      ∗ owns (c : Thread nD τ) scM10 fullShare (accAt0 V c n hn).2.2
      ∗ others0 c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM8 fullShare (accAt0 V c n hn).1
      ∗ owns (c : Thread nD τ) scM9 fullShare (accAt0 V c n hn).2.1
      ∗ owns (c : Thread nD τ) scM10 fullShare (accAt0 V c n hn).2.2
      ∗ others0 c ∗ (∃ r, prngReg c r)) := rfl

theorem PhiS0_pos (c : Dev nD) (n : ℕ) (h : n ≤ cfg0.N) (hz : n ≠ 0) :
    PhiS0 V c n h = iprop(owns (c : Thread nD τ) scM8 fullShare (accAt0 V c (n - 1) (by omega)).1
      ∗ owns (c : Thread nD τ) scM9 fullShare (accAt0 V c (n - 1) (by omega)).2.1
      ∗ owns (c : Thread nD τ) scM10 fullShare (accAt0 V c (n - 1) (by omega)).2.2
      ∗ others0 c ∗ (∃ r, prngReg c r)) := by
  cases n with
  | zero => exact absurd rfl hz
  | succ n => rfl

/-- The proof data of pipeline 0 on core `c`: the arrays as the region finds them; after the body each input's buffer
    at its block and the output's at `outAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0 V c t := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

end Cert.Kernel.R0

end
-- ==== Proof.WR0Oblig.lean ====
/-
  Region 0's body obligation: at every grid point the kernel body, run on the staging buffers holding the point's
  blocks and on the three accumulators as the point before left them, leaves the accumulators at this point's update
  and, at the last column tile, the output buffer at the selected and clipped group values.

  The body has two conditionals on the column tile: a reset of the accumulators at the first tile and the select,
  clip and store of the output block at the last. So a point is of one of three kinds — first, middle, last —, the
  body is run once per kind on arbitrary whole memrefs, and the obligation at a point is the run of its kind: the
  inputs' buffers hold the point's blocks, the accumulators are what the invariant carries from the point before,
  and the output's buffer is stored exactly where the pipeline writes it back and is left untouched elsewhere.
-/
import proofs.«416405_j7060926234901_1_alg».proof.Proof.WR0Defs
import Idealize.ShloMosaic.Lib.Ring
import Idealize.ShloMosaic.Lib.Tactic
import Idealize.ShloMosaic.Lib.Pipeline.Value

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditionals -/

/-- The first conditional's test (the column tile is the first), as the body computes it from the coordinates. -/
abbrev isFirst (i : grid0.Coords) : Prop :=
  Scalar.cmpi .ne (Scalar.extui (Scalar.cmpi .eq (BitVec.ofNat 32 (i 2).val) 0#32)) 0#32 = 1#1

/-- The second conditional's test (the column tile is the last). -/
abbrev isLast (i : grid0.Coords) : Prop := k0_cond2 i = 1#1

/-! ## The two conditionals over the grid, and where the output window is idle

The column tile is the grid's fastest coordinate, of extent 32: the first test holds exactly at the points ≡ 0 and the
second exactly at the points ≡ 31 (mod 32) — checked by evaluation over the 512 points. The printed configuration
calls the output window idle exactly where the second test fails, and the pipeline writes its block back exactly
where it holds. -/

theorem isFirst_iff : ∀ t : Fin cfg0.N, isFirst (grid0.coords t) ↔ t.val % 32 = 0 :=
  (by decide +kernel : ∀ t : Fin grid0.N, isFirst (grid0.coords t) ↔ t.val % 32 = 0)

theorem isLast_iff : ∀ t : Fin cfg0.N, isLast (grid0.coords t) ↔ t.val % 32 = 31 :=
  (by decide +kernel : ∀ t : Fin grid0.N, isLast (grid0.coords t) ↔ t.val % 32 = 31)

theorem out_idle : ∀ t : Fin cfg0.N, ¬ isLast (grid0.coords t) → cfg0.idle 4 (grid0.coords t) = true := by decide +kernel

theorem out_live : ∀ t : Fin cfg0.N, isLast (grid0.coords t) → cfg0.idle 4 (grid0.coords t) = false := by decide +kernel

theorem out_noFlush (t : Fin cfg0.N) (h : ¬ t.val % 32 = 31) : (cfg0.win 4).flush t = false := by
  cases hfl : (cfg0.win 4).flush t
  · rfl
  · exact absurd ((flush0_4 t).mp hfl) h

/-! ## Reading a whole buffer back

The body touches every buffer through the full rectangle at zero offsets: a load through it reads the buffer's
contents, a store through it leaves its payload whatever was stored before, and a load after such a store reads
that payload. -/

section Whole

variable {κ : Kind} {sp : Space} {s : Shape} {e : EltTy}

theorem readAt_full (m : Memref sig κ sp s e) (h : m.IsWhole) {off : Fin s.rank → ℕ} (ho : off = fun _ => 0)
    (inb : ∀ a, off a + s.size a ≤ s.size a) (X : s.Idx → Elt F e) :
    View.readAt (Elt F) m.view (Rect.unit off s.size inb).toLoadRect (h.unread X) = X := by
  rw [View.readAt_eq_ld, h.read_unread, View.ld_unit_zero ho]

theorem read_writes_full (m : Memref sig κ sp s e) (f : m.view.ty.Contents (Elt F)) {off : Fin s.rank → ℕ}
    (ho : off = fun _ => 0) (inb : ∀ a, off a + s.size a ≤ s.size a) (P : s.Idx → Elt F e)
    (L : List (View.Piece (Elt F) s e)) :
    m.view.read (Elt F) (m.view.writes (Elt F) f ((⟨Rect.unit off s.size inb, P⟩ : View.Piece (Elt F) s e) :: L)) = P := by
  rw [View.read_writes_eq_canon _ _ _ (fun y => ⟨_, List.mem_cons_self .., View.mem_set_unit_zero ho inb y⟩),
    View.canon_cons_unit_zero ho]

theorem readCov_full (v : View sig κ sp s e) {off : Fin s.rank → ℕ} (ho : off = fun _ => 0)
    (inb : ∀ a, off a + s.size a ≤ s.size a) (P : s.Idx → Elt F e) (L : List (View.Piece (Elt F) s e)) :
    v.readCov ((⟨Rect.unit off s.size inb, P⟩ : View.Piece (Elt F) s e) :: L) (Rect.unit off s.size inb).toLoadRect = P := by
  rw [View.readCov_eq_canon_ld _ _ _ (fun y => ⟨_, List.mem_cons_self .., View.mem_set_unit_zero ho inb y⟩),
    View.canon_cons_unit_zero ho, View.ld_unit_zero ho]

end Whole

/-- The zero offsets of a rank-two rectangle, as the constant function. -/
theorem zero2 : (![0, 0] : Fin 2 → ℕ) = fun _ => 0 := by
  funext a; fin_cases a <;> rfl

/-! ## The body on any whole memrefs, case by case

The kernel function run on eight whole memrefs — the four inputs' and the output's staging buffers and the three
accumulators — in each of the three cases the two tests leave at a grid point (they never hold together): the
first column tile, a middle one, the last. The inputs' contents are read and left; what the accumulators end with
is `step0` of what they held (of `zero0` after a reset). -/

set_option maxHeartbeats 1000000 in
/-- The body at a point whose column tile is the first: whatever the accumulators held, they are reset and then
    updated, ending at `step0 … zero0`; the output's buffer is not touched. -/
theorem run_reset (c : Dev nD) (E : Set ℕ) (i : grid0.Coords)
    (a3 : Memref sig .tc .vmem S512x1024 .f32) (h3 : a3.IsWhole) (a4 : Memref sig .tc .vmem S1x1024 .i32) (h4 : a4.IsWhole)
    (a5 : Memref sig .tc .vmem S1x1024 .f32) (h5 : a5.IsWhole) (a6 : Memref sig .tc .vmem S1x1024 .i32) (h6 : a6.IsWhole)
    (a7 : Memref sig .tc .vmem S512x1024 .bf16) (h7 : a7.IsWhole) (a8 : Memref sig .tc .vmem S512x1024 .f32) (h8 : a8.IsWhole)
    (a9 : Memref sig .tc .vmem S512x1024 .f32) (h9 : a9.IsWhole) (a10 : Memref sig .tc .vmem S512x1024 .f32) (h10 : a10.IsWhole)
    (hf : isFirst i) (hl : ¬ isLast i)
    (x : Vec F S512x1024 .f32) (g : Vec F S1x1024 .i32) (w : Vec F S1x1024 .f32) (K : PUnit → sProp 𝕄) :
    iprop(owns (c : Thread nD τ) a3 fullShare x ∗ owns (c : Thread nD τ) a4 fullShare g ∗ owns (c : Thread nD τ) a5 fullShare w
        ∗ (∃ d, owns (c : Thread nD τ) a8 fullShare d) ∗ (∃ d, owns (c : Thread nD τ) a9 fullShare d) ∗ (∃ d, owns (c : Thread nD τ) a10 fullShare d)
        ∗ (iprop(owns (c : Thread nD τ) a3 fullShare x ∗ owns (c : Thread nD τ) a4 fullShare g ∗ owns (c : Thread nD τ) a5 fullShare w
            ∗ owns (c : Thread nD τ) a8 fullShare (step0 i x g w zero0).1 ∗ owns (c : Thread nD τ) a9 fullShare (step0 i x g w zero0).2.1
            ∗ owns (c : Thread nD τ) a10 fullShare (step0 i x g w zero0).2.2) -∗ K ⟨⟩))
      ⊢ wp frame (wpE (defs₀ (F := F)) Variants.none c none) E (cc0__groupembed_kernel i a3 h3 a4 h4 a5 h5 a6 h6 a7 h7 a8 h8 a9 h9 a10 h10) K := by
  simp only [cc0__groupembed_kernel_eq_skeleton]; unfold cc0__groupembed_kernel_skel
  simp only [k0_part1_eq_skeleton]; unfold k0_part1_skel
  unfold owns
  iintro ⟨⟨%f3, %e3, H3⟩, ⟨%f4, %e4, H4⟩, ⟨%f5, %e5, H5⟩, ⟨%d8, %f8, -, H8⟩, ⟨%d9, %f9, -, H9⟩, ⟨%d10, %f10, -, H10⟩, Hk⟩
  obtain rfl := h3.eq_unread e3; obtain rfl := h4.eq_unread e4; obtain rfl := h5.eq_unread e5
  sl_exec (disch := first | exact hf | exact hl)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H8]
  · iexists _; isplitr
    swap; · iexact H8
    ipureintro
    rw [read_writes_full _ _ zero2, readAt_full a3 h3 zero2, readAt_full a4 h4 zero2]
    delta run_reset.sl.v28 run_reset.sl.H8_1
    rw [readCov_full _ zero2]; rfl
  isplitl [H9]
  · iexists _; isplitr
    swap; · iexact H9
    ipureintro
    rw [read_writes_full _ _ zero2, readAt_full a3 h3 zero2, readAt_full a4 h4 zero2, readAt_full a5 h5 zero2]
    delta run_reset.sl.v34 run_reset.sl.H9_1
    rw [readCov_full _ zero2]; rfl
  iexists _; isplitr
  swap; · iexact H10
  ipureintro
  rw [read_writes_full _ _ zero2, readAt_full a3 h3 zero2, readAt_full a4 h4 zero2]
  delta run_reset.sl.v40 run_reset.sl.H10_1
  rw [readCov_full _ zero2]; rfl

set_option maxHeartbeats 1000000 in
/-- The body at a point whose column tile is neither the first nor the last: the three accumulators go from `S` to
    `step0 … S`; the inputs' buffers are read and left as they were; the output's buffer is not touched. -/
theorem run_update (c : Dev nD) (E : Set ℕ) (i : grid0.Coords)
    (a3 : Memref sig .tc .vmem S512x1024 .f32) (h3 : a3.IsWhole) (a4 : Memref sig .tc .vmem S1x1024 .i32) (h4 : a4.IsWhole)
    (a5 : Memref sig .tc .vmem S1x1024 .f32) (h5 : a5.IsWhole) (a6 : Memref sig .tc .vmem S1x1024 .i32) (h6 : a6.IsWhole)
    (a7 : Memref sig .tc .vmem S512x1024 .bf16) (h7 : a7.IsWhole) (a8 : Memref sig .tc .vmem S512x1024 .f32) (h8 : a8.IsWhole)
    (a9 : Memref sig .tc .vmem S512x1024 .f32) (h9 : a9.IsWhole) (a10 : Memref sig .tc .vmem S512x1024 .f32) (h10 : a10.IsWhole)
    (hf : ¬ isFirst i) (hl : ¬ isLast i)
    (x : Vec F S512x1024 .f32) (g : Vec F S1x1024 .i32) (w : Vec F S1x1024 .f32) (S : Acc F) (K : PUnit → sProp 𝕄) :
    iprop(owns (c : Thread nD τ) a3 fullShare x ∗ owns (c : Thread nD τ) a4 fullShare g ∗ owns (c : Thread nD τ) a5 fullShare w
        ∗ owns (c : Thread nD τ) a8 fullShare S.1 ∗ owns (c : Thread nD τ) a9 fullShare S.2.1 ∗ owns (c : Thread nD τ) a10 fullShare S.2.2
        ∗ (iprop(owns (c : Thread nD τ) a3 fullShare x ∗ owns (c : Thread nD τ) a4 fullShare g ∗ owns (c : Thread nD τ) a5 fullShare w
            ∗ owns (c : Thread nD τ) a8 fullShare (step0 i x g w S).1 ∗ owns (c : Thread nD τ) a9 fullShare (step0 i x g w S).2.1
            ∗ owns (c : Thread nD τ) a10 fullShare (step0 i x g w S).2.2) -∗ K ⟨⟩))
      ⊢ wp frame (wpE (defs₀ (F := F)) Variants.none c none) E (cc0__groupembed_kernel i a3 h3 a4 h4 a5 h5 a6 h6 a7 h7 a8 h8 a9 h9 a10 h10) K := by
  simp only [cc0__groupembed_kernel_eq_skeleton]; unfold cc0__groupembed_kernel_skel
  simp only [k0_part1_eq_skeleton]; unfold k0_part1_skel
  unfold owns
  iintro ⟨⟨%f3, %e3, H3⟩, ⟨%f4, %e4, H4⟩, ⟨%f5, %e5, H5⟩, ⟨%f8, %e8, H8⟩, ⟨%f9, %e9, H9⟩, ⟨%f10, %e10, H10⟩, Hk⟩
  obtain rfl := h3.eq_unread e3; obtain rfl := h4.eq_unread e4; obtain rfl := h5.eq_unread e5
  obtain rfl := h8.eq_unread e8; obtain rfl := h9.eq_unread e9; obtain rfl := h10.eq_unread e10
  sl_exec (disch := first | exact hf | exact hl)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H8]
  · iexists _; isplitr
    swap; · iexact H8
    ipureintro
    rw [read_writes_full _ _ zero2, readAt_full a3 h3 zero2, readAt_full a4 h4 zero2, readAt_full a8 h8 zero2]; rfl
  isplitl [H9]
  · iexists _; isplitr
    swap; · iexact H9
    ipureintro
    rw [read_writes_full _ _ zero2, readAt_full a3 h3 zero2, readAt_full a4 h4 zero2, readAt_full a5 h5 zero2,
      readAt_full a9 h9 zero2]; rfl
  iexists _; isplitr
  swap; · iexact H10
  ipureintro
  rw [read_writes_full _ _ zero2, readAt_full a3 h3 zero2, readAt_full a4 h4 zero2, readAt_full a10 h10 zero2]; rfl

set_option maxHeartbeats 1000000 in
/-- The body at a point whose column tile is the last: the accumulators go from `S` to `step0 … S`, and the output's
    buffer, whatever it held, ends at the selection among the three updated accumulators by the group kinds,
    clipped at zero. -/
theorem run_last (c : Dev nD) (E : Set ℕ) (i : grid0.Coords)
    (a3 : Memref sig .tc .vmem S512x1024 .f32) (h3 : a3.IsWhole) (a4 : Memref sig .tc .vmem S1x1024 .i32) (h4 : a4.IsWhole)
    (a5 : Memref sig .tc .vmem S1x1024 .f32) (h5 : a5.IsWhole) (a6 : Memref sig .tc .vmem S1x1024 .i32) (h6 : a6.IsWhole)
    (a7 : Memref sig .tc .vmem S512x1024 .bf16) (h7 : a7.IsWhole) (a8 : Memref sig .tc .vmem S512x1024 .f32) (h8 : a8.IsWhole)
    (a9 : Memref sig .tc .vmem S512x1024 .f32) (h9 : a9.IsWhole) (a10 : Memref sig .tc .vmem S512x1024 .f32) (h10 : a10.IsWhole)
    (hf : ¬ isFirst i) (hl : isLast i)
    (x : Vec F S512x1024 .f32) (g : Vec F S1x1024 .i32) (w : Vec F S1x1024 .f32) (a : Vec F S1x1024 .i32) (S : Acc F)
    (K : PUnit → sProp 𝕄) :
    iprop(owns (c : Thread nD τ) a3 fullShare x ∗ owns (c : Thread nD τ) a4 fullShare g ∗ owns (c : Thread nD τ) a5 fullShare w ∗ owns (c : Thread nD τ) a6 fullShare a ∗ (∃ d, owns (c : Thread nD τ) a7 fullShare d)
        ∗ owns (c : Thread nD τ) a8 fullShare S.1 ∗ owns (c : Thread nD τ) a9 fullShare S.2.1 ∗ owns (c : Thread nD τ) a10 fullShare S.2.2
        ∗ (iprop(owns (c : Thread nD τ) a3 fullShare x ∗ owns (c : Thread nD τ) a4 fullShare g ∗ owns (c : Thread nD τ) a5 fullShare w ∗ owns (c : Thread nD τ) a6 fullShare a
            ∗ owns (c : Thread nD τ) a7 fullShare (k0_pay3 a (step0 i x g w S).1 (step0 i x g w S).2.2 (step0 i x g w S).2.1)
            ∗ owns (c : Thread nD τ) a8 fullShare (step0 i x g w S).1 ∗ owns (c : Thread nD τ) a9 fullShare (step0 i x g w S).2.1
            ∗ owns (c : Thread nD τ) a10 fullShare (step0 i x g w S).2.2) -∗ K ⟨⟩))
      ⊢ wp frame (wpE (defs₀ (F := F)) Variants.none c none) E (cc0__groupembed_kernel i a3 h3 a4 h4 a5 h5 a6 h6 a7 h7 a8 h8 a9 h9 a10 h10) K := by
  simp only [cc0__groupembed_kernel_eq_skeleton]; unfold cc0__groupembed_kernel_skel
  simp only [k0_part1_eq_skeleton]; unfold k0_part1_skel
  unfold owns
  iintro ⟨⟨%f3, %e3, H3⟩, ⟨%f4, %e4, H4⟩, ⟨%f5, %e5, H5⟩, ⟨%f6, %e6, H6⟩, ⟨%d7, %f7, -, H7⟩, ⟨%f8, %e8, H8⟩, ⟨%f9, %e9, H9⟩, ⟨%f10, %e10, H10⟩, Hk⟩
  obtain rfl := h3.eq_unread e3; obtain rfl := h4.eq_unread e4; obtain rfl := h5.eq_unread e5; obtain rfl := h6.eq_unread e6
  obtain rfl := h8.eq_unread e8; obtain rfl := h9.eq_unread e9; obtain rfl := h10.eq_unread e10
  sl_exec (disch := first | exact hf | exact hl)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr
    swap; · iexact H7
    ipureintro
    rw [read_writes_full _ _ zero2, readAt_full a6 h6 zero2]
    delta run_last.sl.v55 run_last.sl.v58 run_last.sl.v63 run_last.sl.H8_1 run_last.sl.H9_1 run_last.sl.H10_1
    rw [readCov_full _ zero2, readCov_full _ zero2, readCov_full _ zero2, readAt_full a3 h3 zero2, readAt_full a4 h4 zero2,
      readAt_full a5 h5 zero2, readAt_full a8 h8 zero2, readAt_full a9 h9 zero2, readAt_full a10 h10 zero2]; rfl
  isplitl [H8]
  · iexists _; isplitr
    swap; · iexact H8
    ipureintro
    delta run_last.sl.H8_1
    rw [read_writes_full _ _ zero2, readAt_full a3 h3 zero2, readAt_full a4 h4 zero2, readAt_full a8 h8 zero2]; rfl
  isplitl [H9]
  · iexists _; isplitr
    swap; · iexact H9
    ipureintro
    delta run_last.sl.H9_1
    rw [read_writes_full _ _ zero2, readAt_full a3 h3 zero2, readAt_full a4 h4 zero2, readAt_full a5 h5 zero2,
      readAt_full a9 h9 zero2]; rfl
  iexists _; isplitr
  swap; · iexact H10
  ipureintro
  delta run_last.sl.H10_1
  rw [read_writes_full _ _ zero2, readAt_full a3 h3 zero2, readAt_full a4 h4 zero2, readAt_full a10 h10 zero2]; rfl

/-! ## The inputs' buffers hold their blocks

An input's staging buffer holds the point's block whether or not the pipeline fetched it there: unfetched (the group
kinds' window between two resets), its block index has not moved and the body left the block in place. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The invariant's parts

What the launch hands the region, and what the region hands back, is every scoped buffer that is no staging buffer of
this call, each at some contents, and the generator register: the three accumulators as memrefs owned at some
contents, the other call's staging buffers, the register. -/

theorem scoped_open (c : Dev nD) :
    (Pipeline.ΦA spec0 c : sProp 𝕄)
      ⊢ iprop((∃ d, owns (c : Thread nD τ) scM8 fullShare d) ∗ (∃ d, owns (c : Thread nD τ) scM9 fullShare d)
          ∗ (∃ d, owns (c : Thread nD τ) scM10 fullShare d) ∗ others0 c ∗ (∃ r, prngReg c r)) := by
  unfold Pipeline.ΦA others0; rw [scopedRest0_eq]; simp only [scM8, scM9, scM10, owns_whole]
  iintro ⟨⟨H8, H9, H10, Hr⟩, Hg⟩
  isplitl [H8]; · iexact H8
  isplitl [H9]; · iexact H9
  isplitl [H10]; · iexact H10
  isplitl [Hr]; · iexact Hr
  iexact Hg

theorem scoped_close (c : Dev nD) :
    iprop((∃ d, owns (c : Thread nD τ) scM8 fullShare d) ∗ (∃ d, owns (c : Thread nD τ) scM9 fullShare d)
          ∗ (∃ d, owns (c : Thread nD τ) scM10 fullShare d) ∗ others0 c ∗ (∃ r, prngReg c r))
      ⊢ (Pipeline.ΦA spec0 c : sProp 𝕄) := by
  unfold Pipeline.ΦA others0; rw [scopedRest0_eq]; simp only [scM8, scM9, scM10, owns_whole]
  iintro ⟨H8, H9, H10, Hr, Hg⟩
  isplitl [H8 H9 H10 Hr]
  · isplitl [H8]; · iexact H8
    isplitl [H9]; · iexact H9
    isplitl [H10]; · iexact H10
    iexact Hr
  iexact Hg

theorem scoped_split (c : Dev nD) :
    (Pipeline.ΦA spec0 c : sProp 𝕄)
      = iprop((∃ d, owns (c : Thread nD τ) scM8 fullShare d) ∗ (∃ d, owns (c : Thread nD τ) scM9 fullShare d)
          ∗ (∃ d, owns (c : Thread nD τ) scM10 fullShare d) ∗ others0 c ∗ (∃ r, prngReg c r)) :=
  BI.equiv_iff.mp ⟨scoped_open c, scoped_close c⟩

/-! ## The body at a point of the grid -/

/-- What the body is handed at point `t`: the invariant, the core's tallies, and each window's current buffer. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it hands back. -/
def post0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

/-- An input's buffer is handed back at its block: no input window is ever idle. -/
theorem leaves_in0 (c : Dev nD) (t : Fin cfg0.N) :
    (dat0 V c).leavesExact 0 t = owns (c : Thread nD τ) (st0_0 t) fullShare (iblk0 V c 0 t) := by
  unfold Dat.leavesExact; rw [show cfg0.idle 0 (grid0.coords t) = false from rfl, after0_0]
theorem leaves_in1 (c : Dev nD) (t : Fin cfg0.N) :
    (dat0 V c).leavesExact 1 t = owns (c : Thread nD τ) (st0_1 t) fullShare (iblk0 V c 1 t) := by
  unfold Dat.leavesExact; rw [show cfg0.idle 1 (grid0.coords t) = false from rfl, after0_1]
theorem leaves_in2 (c : Dev nD) (t : Fin cfg0.N) :
    (dat0 V c).leavesExact 2 t = owns (c : Thread nD τ) (st0_2 t) fullShare (iblk0 V c 2 t) := by
  unfold Dat.leavesExact; rw [show cfg0.idle 2 (grid0.coords t) = false from rfl, after0_2]
theorem leaves_in3 (c : Dev nD) (t : Fin cfg0.N) :
    (dat0 V c).leavesExact 3 t = owns (c : Thread nD τ) (st0_3 t) fullShare (iblk0 V c 3 t) := by
  unfold Dat.leavesExact; rw [show cfg0.idle 3 (grid0.coords t) = false from rfl, after0_3]

/-- A point whose column tile is the first: the accumulators, whatever the invariant holds them at (anything before
    the first point, the previous row of tiles' last update afterwards), end at this point's update of a reset;
    the output window is idle and its buffer goes back as it came. -/
theorem sound_first (c : Dev nD) (t : Fin cfg0.N) (hf : t.val % 32 = 0) :
    pre0 V c t ⊢ wp frame (wpE (defs₀ (F := F)) Variants.none c none) Set.univ (bodyAt0 t) (fun _ => post0 V c t) := by
  have hl : ¬ t.val % 32 = 31 := by omega
  have cf : isFirst (grid0.coords t) := (isFirst_iff t).mpr hf
  have cl : ¬ isLast (grid0.coords t) := fun h => hl ((isLast_iff t).mp h)
  unfold pre0 post0 bodyAt0
  simp only [before0_0, before0_1, before0_2, before0_3]
  rw [show (dat0 V c).owesAt () t.succ = (dat0 V c).owesAt () t.castSucc from rfl,
    show (dat0 V c).Φ t.succ = PhiS0 V c (t.val + 1) t.isLt from rfl, PhiS0_succ,
    leaves_in0, leaves_in1, leaves_in2, leaves_in3,
    Dat.leavesExact_idle (dat0 V c) 4 t (out_idle t cl) (out_noFlush t hl),
    accAt0_reset V c t hf, PhiS0_castSucc]
  by_cases hz : t.val = 0
  · rw [PhiS0_zero V c _ _ hz, scoped_split]
    iintro ⟨⟨S8, S9, S10, Hr, Hg⟩, Ho, ⟨%d0, H0⟩, ⟨%d1, H1⟩, ⟨%d2, H2⟩, ⟨%d3, H3⟩, H4⟩
    iapply (run_reset c Set.univ (grid0.coords t) _ _ _ _ _ _ _ _ _ _ _ _ _ _ _ _ cf cl
      (iblk0 V c 0 t) (iblk0 V c 1 t) (iblk0 V c 2 t) _)
    isplitl [H0]; · iexact H0
    isplitl [H1]; · iexact H1
    isplitl [H2]; · iexact H2
    isplitl [S8]; · iexact S8
    isplitl [S9]; · iexact S9
    isplitl [S10]; · iexact S10
    iintro ⟨H0, H1, H2, S8, S9, S10⟩
    isplitl [S8 S9 S10 Hr Hg]
    · isplitl [S8]; · iexact S8
      isplitl [S9]; · iexact S9
      isplitl [S10]; · iexact S10
      isplitl [Hr]; · iexact Hr
      iexact Hg
    isplitl [Ho]; · iexact Ho
    isplitl [H0]; · iexact H0
    isplitl [H1]; · iexact H1
    isplitl [H2]; · iexact H2
    isplitl [H3]; · iexact H3
    iexact H4
  · rw [PhiS0_pos V c _ _ hz]
    iintro ⟨⟨S8, S9, S10, Hr, Hg⟩, Ho, ⟨%d0, H0⟩, ⟨%d1, H1⟩, ⟨%d2, H2⟩, ⟨%d3, H3⟩, H4⟩
    iapply (run_reset c Set.univ (grid0.coords t) _ _ _ _ _ _ _ _ _ _ _ _ _ _ _ _ cf cl
      (iblk0 V c 0 t) (iblk0 V c 1 t) (iblk0 V c 2 t) _)
    isplitl [H0]; · iexact H0
    isplitl [H1]; · iexact H1
    isplitl [H2]; · iexact H2
    isplitl [S8]; · iexists _; iexact S8
    isplitl [S9]; · iexists _; iexact S9
    isplitl [S10]; · iexists _; iexact S10
    iintro ⟨H0, H1, H2, S8, S9, S10⟩
    isplitl [S8 S9 S10 Hr Hg]
    · isplitl [S8]; · iexact S8
      isplitl [S9]; · iexact S9
      isplitl [S10]; · iexact S10
      isplitl [Hr]; · iexact Hr
      iexact Hg
    isplitl [Ho]; · iexact Ho
    isplitl [H0]; · iexact H0
    isplitl [H1]; · iexact H1
    isplitl [H2]; · iexact H2
    isplitl [H3]; · iexact H3
    iexact H4

/-- A point whose column tile is neither the first nor the last: the accumulators go from what the point before left
    to this point's update of it; the output window is idle. -/
theorem sound_middle (c : Dev nD) (t : Fin cfg0.N) (hf : ¬ t.val % 32 = 0) (hl : ¬ t.val % 32 = 31) :
    pre0 V c t ⊢ wp frame (wpE (defs₀ (F := F)) Variants.none c none) Set.univ (bodyAt0 t) (fun _ => post0 V c t) := by
  have hz : t.val ≠ 0 := fun h => hf (by rw [h])
  have cf : ¬ isFirst (grid0.coords t) := fun h => hf ((isFirst_iff t).mp h)
  have cl : ¬ isLast (grid0.coords t) := fun h => hl ((isLast_iff t).mp h)
  unfold pre0 post0 bodyAt0
  simp only [before0_0, before0_1, before0_2, before0_3]
  rw [show (dat0 V c).owesAt () t.succ = (dat0 V c).owesAt () t.castSucc from rfl,
    show (dat0 V c).Φ t.succ = PhiS0 V c (t.val + 1) t.isLt from rfl, PhiS0_succ,
    leaves_in0, leaves_in1, leaves_in2, leaves_in3,
    Dat.leavesExact_idle (dat0 V c) 4 t (out_idle t cl) (out_noFlush t hl),
    accAt0_step V c t hf, PhiS0_castSucc, PhiS0_pos V c _ _ hz]
  iintro ⟨⟨S8, S9, S10, Hr, Hg⟩, Ho, ⟨%d0, H0⟩, ⟨%d1, H1⟩, ⟨%d2, H2⟩, ⟨%d3, H3⟩, H4⟩
  iapply (run_update c Set.univ (grid0.coords t) _ _ _ _ _ _ _ _ _ _ _ _ _ _ _ _ cf cl
    (iblk0 V c 0 t) (iblk0 V c 1 t) (iblk0 V c 2 t)
    (accAt0 V c (t.val - 1) (Nat.lt_of_le_of_lt (Nat.sub_le _ _) t.isLt)) _)
  isplitl [H0]; · iexact H0
  isplitl [H1]; · iexact H1
  isplitl [H2]; · iexact H2
  isplitl [S8]; · iexact S8
  isplitl [S9]; · iexact S9
  isplitl [S10]; · iexact S10
  iintro ⟨H0, H1, H2, S8, S9, S10⟩
  isplitl [S8 S9 S10 Hr Hg]
  · isplitl [S8]; · iexact S8
    isplitl [S9]; · iexact S9
    isplitl [S10]; · iexact S10
    isplitl [Hr]; · iexact Hr
    iexact Hg
  isplitl [Ho]; · iexact Ho
  isplitl [H0]; · iexact H0
  isplitl [H1]; · iexact H1
  isplitl [H2]; · iexact H2
  isplitl [H3]; · iexact H3
  iexact H4

/-- A point whose column tile is the last: the accumulators are updated as at a middle point, and the output window,
    live here and written back, ends at the selected and clipped group values of the updated accumulators. -/
theorem sound_last (c : Dev nD) (t : Fin cfg0.N) (hl : t.val % 32 = 31) :
    pre0 V c t ⊢ wp frame (wpE (defs₀ (F := F)) Variants.none c none) Set.univ (bodyAt0 t) (fun _ => post0 V c t) := by
  have hf : ¬ t.val % 32 = 0 := by omega
  have hz : t.val ≠ 0 := fun h => hf (by rw [h])
  have cf : ¬ isFirst (grid0.coords t) := fun h => hf ((isFirst_iff t).mp h)
  have cl : isLast (grid0.coords t) := (isLast_iff t).mpr hl
  unfold pre0 post0 bodyAt0
  simp only [before0_0, before0_1, before0_2, before0_3]
  rw [show (dat0 V c).owesAt () t.succ = (dat0 V c).owesAt () t.castSucc from rfl,
    show (dat0 V c).Φ t.succ = PhiS0 V c (t.val + 1) t.isLt from rfl, PhiS0_succ,
    leaves_in0, leaves_in1, leaves_in2, leaves_in3,
    show (dat0 V c).leavesExact 4 t = owns (c : Thread nD τ) (st0_4 t) fullShare ((dat0 V c).after 4 t) from by
      unfold Dat.leavesExact; rw [out_live t cl],
    after0_4]
  unfold outAt0
  rw [accAt0_step V c t hf, PhiS0_castSucc, PhiS0_pos V c _ _ hz]
  iintro ⟨⟨S8, S9, S10, Hr, Hg⟩, Ho, ⟨%d0, H0⟩, ⟨%d1, H1⟩, ⟨%d2, H2⟩, ⟨%d3, H3⟩, ⟨%d4, H4⟩⟩
  iapply (run_last c Set.univ (grid0.coords t) _ _ _ _ _ _ _ _ _ _ _ _ _ _ _ _ cf cl
    (iblk0 V c 0 t) (iblk0 V c 1 t) (iblk0 V c 2 t) (iblk0 V c 3 t)
    (accAt0 V c (t.val - 1) (Nat.lt_of_le_of_lt (Nat.sub_le _ _) t.isLt)) _)
  isplitl [H0]; · iexact H0
  isplitl [H1]; · iexact H1
  isplitl [H2]; · iexact H2
  isplitl [H3]; · iexact H3
  isplitl [H4]; · iexists _; iexact H4
  isplitl [S8]; · iexact S8
  isplitl [S9]; · iexact S9
  isplitl [S10]; · iexact S10
  iintro ⟨H0, H1, H2, H3, H4, S8, S9, S10⟩
  isplitl [S8 S9 S10 Hr Hg]
  · isplitl [S8]; · iexact S8
    isplitl [S9]; · iexact S9
    isplitl [S10]; · iexact S10
    isplitl [Hr]; · iexact Hr
    iexact Hg
  isplitl [Ho]; · iexact Ho
  isplitl [H0]; · iexact H0
  isplitl [H1]; · iexact H1
  isplitl [H2]; · iexact H2
  isplitl [H3]; · iexact H3
  iexact H4

/-- The body at any point, by the point's column tile. -/
theorem sound_body0 (c : Dev nD) (t : Fin cfg0.N) :
    pre0 V c t ⊢ wp frame (wpE (defs₀ (F := F)) Variants.none c none) Set.univ (bodyAt0 t) (fun _ => post0 V c t) := by
  by_cases hf : t.val % 32 = 0
  · exact sound_first V c t hf
  · by_cases hl : t.val % 32 = 31
    · exact sound_last V c t hl
    · exact sound_middle V c t hf hl

/-- The library's body obligation for pipeline 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]

/-- After the last point the invariant gives the class's back: the accumulators' named contents are forgotten. -/
theorem hout0 (c : Dev nD) : (dat0 V c).Φ (Fin.last cfg0.N) ⊢ (Pipeline.ΦA spec0 c : sProp 𝕄) := by
  have hN : cfg0.N = 512 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), scoped_split]
  iintro ⟨S8, S9, S10, Hr, Hg⟩
  isplitl [S8]; · iexists _; iexact S8
  isplitl [S9]; · iexists _; iexact S9
  isplitl [S10]; · iexists _; iexact S10
  isplitl [Hr]; · iexact Hr
  iexact Hg

end Cert.Kernel.R0

end
-- ==== Proof.WR1.lean ====
/-
  Region 1 of @main (the linear layer): at grid point t the body multiplies the t-th block of 512 rows of the clipped
  group values by the whole transposed weight matrix and stores the 512 × 1024 product as the t-th block of rows of
  the result. Nothing is carried between points.
-/
import proofs.«416405_j7060926234901_1_alg».proof.Proof.Gen.Kernel.Launch
import proofs.«416405_j7060926234901_1_alg».proof.Proof.Gen.Kernel.Skeleton
import proofs.«416405_j7060926234901_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_out : Rect S512x1024 := Rect.unit (s := S512x1024) ![0, 0] S512x1024.size inb_S512x1024_S512x1024_0_0
abbrev r1_a : Rect S512x4096 := Rect.unit (s := S512x4096) ![0, 0] S512x4096.size inb_S512x4096_S512x4096_0_0
abbrev r1_w : Rect S4096x1024 := Rect.unit (s := S4096x1024) ![0, 0] S4096x1024.size inb_S4096x1024_S4096x1024_0_0

/-- The output window's staging buffer after the body, from the two input blocks: its one store, of the product. -/
def out1_2 (x0 : Vec F S512x4096 .bf16) (x1 : Vec F S4096x1024 .bf16) : Vec F S512x1024 .f32 :=
  View.canon [⟨r1_out, k1_pay1 (View.ld x0 r1_a) (View.ld x1 r1_w)⟩]

/-- The proof data of pipeline 1 on core `c`: the arrays as the region finds them; after the body each input's buffer
    at its block and the output's at the product of the two; the class's invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## What the body finds in its two input buffers

An input window's buffer holds the window's block at the point whether or not a transfer ran there: a point
with no transfer is one where the block index stood still, and the body leaves input buffers as it finds them.
The block of rows moves at every point; the weight matrix is one block, moved at the first point only. -/

/-- The body leaves the rows' buffer at the rows' block. -/
theorem keep1_0 (c : Dev nD) (s : Fin cfg1.N) :
    (cfg1.win 0).cut (cfg1.grid.coords s) ((dat1 V c).after 0 s) = (dat1 V c).blockOf 0 s := by
  rw [after1_0]; unfold Dat.blockOf iblk1; rw [A_eq1]; try rfl

/-- The body leaves the weights' buffer at the whole weight matrix. -/
theorem keep1_1 (c : Dev nD) (s : Fin cfg1.N) :
    (cfg1.win 1).cut (cfg1.grid.coords s) ((dat1 V c).after 1 s) = (dat1 V c).blockOf 1 s := by
  rw [after1_1]; unfold Dat.blockOf iblk1; rw [A_eq1]; try rfl

/-- At every point the rows' buffer holds the `t`-th block of 512 rows. -/
theorem before1_0 (c : Dev nD) (t : Fin cfg1.N) (d) : (dat1 V c).before 0 t d = iblk1 V c 0 t := by
  rw [(dat1 V c).before_in_eq_fetched 0 rfl (fun _ => rfl) (fun _ _ _ => rfl) (keep1_0 V c) t d]
  unfold Dat.fetched Dat.blockOf iblk1; rw [A_eq1]; try rfl

/-- At every point the weights' buffer holds the whole weight matrix, though it is moved in only once. -/
theorem before1_1 (c : Dev nD) (t : Fin cfg1.N) (d) : (dat1 V c).before 1 t d = iblk1 V c 1 t := by
  rw [(dat1 V c).before_in_eq_fetched 1 rfl (fun _ => rfl) (fun _ _ _ => rfl) (keep1_1 V c) t d]
  unfold Dat.fetched Dat.blockOf iblk1; rw [A_eq1]; try rfl

/-! ## The one store fills the output buffer -/

/-- The store's rectangle is the whole 512 × 1024 buffer, so every index of the buffer lies in it. -/
theorem cover1_2 (p : Vec F S512x1024 .f32) (y : S512x1024.Idx) :
    ∃ pc ∈ ([⟨r1_out, p⟩] : List (View.Piece (Elt F) S512x1024 .f32)), y ∈ pc.1.set :=
  View.cover_of_tiled [⟨r1_out, p⟩] S512x1024.size (by rfl) y

/-! ## The body on its three buffers -/

set_option maxHeartbeats 1000000 in
/-- From the rows' buffer reading `x0`, the weights' buffer reading `x1` and the output buffer at anything, the body
    returns with the two inputs as they were and the output buffer at the product `out1_2 x0 x1`: it loads both
    inputs whole, loads the output buffer without using what it reads, and stores the product over all of it. -/
theorem sound_kernel1 (c : Dev nD) (E : Set ℕ) (i : grid1.Coords)
    (a0 : Memref sig .tc .vmem S512x4096 .bf16) (h0 : a0.IsWhole)
    (a1 : Memref sig .tc .vmem S4096x1024 .bf16) (h1 : a1.IsWhole)
    (a2 : Memref sig .tc .vmem S512x1024 .f32) (h2 : a2.IsWhole)
    (x0 : Vec F S512x4096 .bf16) (x1 : Vec F S4096x1024 .bf16) (K : PUnit → sProp 𝕄) :
    iprop(owns (c : Thread nD τ) a0 fullShare x0 ∗ owns (c : Thread nD τ) a1 fullShare x1
        ∗ (∃ d, owns (c : Thread nD τ) a2 fullShare d)
        ∗ (iprop(owns (c : Thread nD τ) a0 fullShare x0 ∗ owns (c : Thread nD τ) a1 fullShare x1
            ∗ owns (c : Thread nD τ) a2 fullShare (out1_2 x0 x1)) -∗ K ⟨⟩))
      ⊢ wp frame (wpE (defs₀ (F := F)) Variants.none c none) E (cc1__linear_kernel i a0 h0 a1 h1 a2 h2) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The body at a grid point -/

/-- What the pipeline hands the body at point `t`: the invariant, the core's debts, and the three current buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What the body hands back: the same invariant and debts, each buffer at what the proof data say it leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two input buffers hold their blocks, so the body's triple applies; the invariant and
    the debts are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.R1

end
-- ==== Proof.WFrames.lean ====
/-
  The run of @main over its seven items: four host stretches, region 0 (the group reduction), one host stretch,
  region 1 (the linear layer).

  Between two items a core holds every unscoped buffer whole at a valuation: the launch memory, then what each host
  stretch computes from it, and after a region the same valuation updated at the one array the region writes. What a
  region writes is fixed here, in two stages so that nothing refers to itself: region 0 is entered at a valuation
  that depends on the launch memory only, so the contents X6 it leaves in main_v6 (its output window's write-backs
  folded over the grid) are known first; region 1 is entered at a valuation that reads X6, so the contents X9 it
  leaves in main_v9 are known second. With these contents each region is a segment from the valuation before it to
  the valuation after it: at entry its arrays are split out of the unscoped buffers at the entry valuation, at exit
  they are put back at the exit valuation, which agrees with the entry one off the written array and holds the
  region's folded write-backs at it. Beside the buffers rides the generator register at some state and the core's
  dues at nothing. The run then ends with every argument array as launched and main_v9 at X9.
-/
import proofs.«416405_j7060926234901_1_alg».proof.Proof.WR0Defs
import proofs.«416405_j7060926234901_1_alg».proof.Proof.WR0Oblig
import proofs.«416405_j7060926234901_1_alg».proof.Proof.WR1
import proofs.«416405_j7060926234901_1_alg».proof.Proof.Gen.Kernel.Regions
import Idealize.ShloMosaic.Lib.Pipeline.FrameBody
import Idealize.ShloMosaic.Lib.Pipeline.RegionsLoop

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the regions leave -/

/-- What region 0 leaves in main_v6: its output window's write-backs folded over the whole grid, the region entered
    at the valuation after the fourth host stretch. -/
def X6 (c : Dev nD) : Buf (Elt F) ((c : Thread nD τ).loc main_v6) :=
  (R0.dat0 (fun c b => Gen.V4 m c b) c).arrAt 4 cfg0.N

/-- The first stage: X6 at main_v6; anywhere else nothing reads it. -/
def outsA : Gen.Outs (F := F) := fun _ r c =>
  if h : r = main_v6 then h ▸ X6 m c else Gen.V4 m c r

/-- What region 1 leaves in main_v9: its output window's write-backs folded over the whole grid, the region entered
    at the valuation that has X6 in main_v6 and the fifth host stretch's results. -/
def X9 (c : Dev nD) : Buf (Elt F) ((c : Thread nD τ).loc main_v9) :=
  (R1.dat1 (fun c b => Gen.V6 m (outsA m) c b) c).arrAt 2 cfg1.N

/-- The contents the regions leave: X9 at main_v9, the first stage elsewhere. -/
def outs : Gen.Outs (F := F) := fun J r c =>
  if h : r = main_v9 then h ▸ X9 m c else outsA m J r c

theorem outsA_v6 (J : ℕ) (c : Dev nD) : outsA m J main_v6 c = X6 m c := by
  unfold outsA; exact dif_pos rfl

theorem outs_v6 (J : ℕ) (c : Dev nD) : outs m J main_v6 c = X6 m c := by
  unfold outs; rw [dif_neg (by decide)]; exact outsA_v6 m J c

theorem outs_v9 (J : ℕ) (c : Dev nD) : outs m J main_v9 c = X9 m c := by
  unfold outs; exact dif_pos rfl

/-- Both stages put the same contents in main_v6, so the valuations up to region 1's entry are the same. -/
theorem V5_outs (c : Dev nD) : Gen.V5 m (outs m) c = Gen.V5 m (outsA m) c := by
  unfold Gen.V5
  rw [outs_v6, outsA_v6]

theorem V6_outs (c : Dev nD) : Gen.V6 m (outs m) c = Gen.V6 m (outsA m) c := by
  unfold Gen.V6
  rw [V5_outs]

/-- main_v6 after region 0 holds X6, -/
theorem V5_v6 (c : Dev nD) : Gen.V5 m (outs m) c main_v6 = X6 m c :=
  (show Gen.V5 m (outs m) c main_v6 = outs m 5 main_v6 c from Function.update_self ..).trans (outs_v6 m 5 c)

/-- and still at region 1's entry: the fifth host stretch does not write it. -/
theorem V6_v6 (c : Dev nD) : Gen.V6 m (outs m) c main_v6 = (R0.dat0 (fun c b => Gen.V4 m c b) c).arrAt 4 cfg0.N :=
  (Gen.V6_of m (outs m) c main_v6 (by decide)).trans (V5_v6 m c)

/-- main_v9 at the end holds what region 1 left. -/
theorem V7_v9 (c : Dev nD) : Gen.V7 m (outs m) c main_v9 = (R1.dat1 (fun c b => Gen.V6 m (outs m) c b) c).arrAt 2 cfg1.N := by
  refine (show Gen.V7 m (outs m) c main_v9 = outs m 7 main_v9 c from Function.update_self ..).trans ((outs_v9 m 7 c).trans ?_)
  have hV : (fun (c : Dev nD) (b : Ref sig .tc) => (Gen.V6 m (outsA m) c b : Buf (Elt F) ((c : Thread nD τ).loc b)))
      = fun (c : Dev nD) (b : Ref sig .tc) => (Gen.V6 m (outs m) c b : Buf (Elt F) ((c : Thread nD τ).loc b)) :=
    funext fun c => funext fun b => (congrFun (V6_outs m c) b).symm
  unfold X9
  rw [hV]

/-! ## The proof data, each region's at its entry valuation -/

/-- Region 0's entry valuation read at the TensorCore's references, -/
abbrev Vin0 : (c : Dev nD) → (b : Ref sig .tc) → Buf (Elt F) ((c : Thread nD τ).loc b) := fun c b => Gen.V4 m c b
/-- and region 1's. -/
abbrev Vin1 : (c : Dev nD) → (b : Ref sig .tc) → Buf (Elt F) ((c : Thread nD τ).loc b) := fun c b => Gen.V6 m (outs m) c b

def pdats : (p : Fin 2) → (c : Dev nD) → Dat τ (Elt F) Unit ℕ (UR sig nD τ) ℕ (cfgs p) c
  | ⟨0, _⟩ => fun c => R0.dat0 (fun c b => Gen.V4 m c b) c
  | ⟨1, _⟩ => fun c => R1.dat1 (fun c b => Gen.V6 m (outs m) c b) c

/-- No core owes another anything: no level is assigned. -/
abbrev L : GSem nD τ sig → Finset Unit := fun _ => ∅
abbrev lv : GSem nD τ sig → Unit → ℕ := fun _ _ => 0
/-- What rides beside the buffers through every item: the generator register at some state, the dues at nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## Region 0's exit valuation -/

theorem pdats_zero (c : Dev nD) : pdats m 0 c = R0.dat0 (Vin0 m) c := rfl
theorem pdats_one (c : Dev nD) : pdats m 1 c = R1.dat1 (Vin1 m) c := rfl

/-- An input window's array at region 0's exit is as entered: never written back, and no input is main_v6. -/
theorem hF0_in (c : Dev nD) (w : Fin 5) (r : Ref sig .tc) (hin : (cfg0.win w).isOut = false) (hr : Pipeline.arrRef spec0 w = r)
    (hne : r ∉ ([main_v6] : List (Ref sig .tc))) :
    (R0.dat0 (Vin0 m) c).arrAt w cfg0.N = Gen.V5 m (outs m) c (Pipeline.arrRef spec0 w) := by
  subst hr
  exact ((R0.dat0 (Vin0 m) c).arrAt_in w hin _).trans ((R0.A_eq0 (Vin0 m) c w).trans (Gen.V5_of m (outs m) c _ hne).symm)

/-- Each array of region 0 at the exit valuation: an input's as entered, the output's at X6. -/
theorem hF0 (c : Dev nD) (w : Fin 5) : (pdats m 0 c).arrAt w cfg0.N = Gen.V5 m (outs m) c (Pipeline.arrRef spec0 w) := by
  rw [pdats_zero]
  match w with
  | 0 => exact hF0_in m c 0 main_arg0 rfl rfl (by decide)
  | 1 => exact hF0_in m c 1 main_v3 rfl rfl (by decide)
  | 2 => exact hF0_in m c 2 main_v4 rfl rfl (by decide)
  | 3 => exact hF0_in m c 3 main_v5 rfl rfl (by decide)
  | 4 => exact (V5_v6 m c).symm
  | ⟨_ + 5, h⟩ => exact absurd h (Nat.not_lt.2 (Nat.le_add_left _ _))

/-- Off region 0's arrays the exit valuation is the entry one: only main_v6 is updated. -/
theorem hrest0 (c : Dev nD) : ∀ b : Ref sig .tc, b ∉ Finset.univ.image (Pipeline.arrRef spec0) →
    Gen.V5 m (outs m) c b = Gen.V4 m c b := fun b hb =>
  Gen.V5_of m (outs m) c b fun hmem =>
    hb (Finset.mem_image.mpr ⟨4, Finset.mem_univ _, (List.mem_singleton.mp hmem).symm⟩)

/-! ## Region 1's exit valuation -/

theorem hF1_in (c : Dev nD) (w : Fin 3) (r : Ref sig .tc) (hin : (cfg1.win w).isOut = false) (hr : Pipeline.arrRef spec1 w = r)
    (hne : r ∉ ([main_v9] : List (Ref sig .tc))) :
    (R1.dat1 (Vin1 m) c).arrAt w cfg1.N = Gen.V7 m (outs m) c (Pipeline.arrRef spec1 w) := by
  subst hr
  exact ((R1.dat1 (Vin1 m) c).arrAt_in w hin _).trans ((R1.A_eq1 (Vin1 m) c w).trans (Gen.V7_of m (outs m) c _ hne).symm)

/-- Each array of region 1 at the exit valuation: an input's as entered, the output's at X9. -/
theorem hF1 (c : Dev nD) (w : Fin 3) : (pdats m 1 c).arrAt w cfg1.N = Gen.V7 m (outs m) c (Pipeline.arrRef spec1 w) := by
  rw [pdats_one]
  match w with
  | 0 => exact hF1_in m c 0 main_v6 rfl rfl (by decide)
  | 1 => exact hF1_in m c 1 main_v8 rfl rfl (by decide)
  | 2 => exact (V7_v9 m c).symm
  | ⟨_ + 3, h⟩ => exact absurd h (Nat.not_lt.2 (Nat.le_add_left _ _))

theorem hrest1 (c : Dev nD) : ∀ b : Ref sig .tc, b ∉ Finset.univ.image (Pipeline.arrRef spec1) →
    Gen.V7 m (outs m) c b = Gen.V6 m (outs m) c b := fun b hb =>
  Gen.V7_of m (outs m) c b fun hmem =>
    hb (Finset.mem_image.mpr ⟨2, Finset.mem_univ _, (List.mem_singleton.mp hmem).symm⟩)

/-! ## The regions as segments -/

set_option backward.isDefEq.respectTransparency.types false in
/-- Region 0 from the valuation after the fourth host stretch to the same with X6 in main_v6. Its invariant is the
    accumulators' recursion, reached from and returned to the class's resources (the scoped buffers no window
    stages and the generator register). -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (R0.body_obligation0 (fun c b => Gen.V4 m c b) c).loose
  hwaits := Pipeline.hwaits_of_owed_zero _ _ _ _ L lv 0 fun _ _ => rfl
  pre c := iprop(StableHlo.held (c : Thread nD τ) (Pipeline.ucRefs τ sig) (Gen.V4 m c) ∗ E 0 c)
  post c := iprop(StableHlo.held (c : Thread nD τ) (Pipeline.ucRefs τ sig) (Gen.V5 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (fun b => Gen.V4 m c b)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (fun b => Gen.V4 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin0 (Vin0 m) c)
    unfold Pipeline.ΦA
    iintro ⟨Hp, -, Hr⟩
    isplitl [Hr]; · iexact Hr
    iexact Hp
  hout c := by
    rw [Pipeline.ownSems0_none]
    refine BIBase.Entails.trans (R0.hout0 (Vin0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b => Gen.V4 m c b) (fun b => Gen.V5 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 from the valuation after the fifth host stretch to the same with X9 in main_v9; nothing is carried
    between its points, so its invariant is the class's. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (R1.body_obligation1 (fun c b => Gen.V6 m (outs m) c b) c).loose
  hwaits := Pipeline.hwaits_of_owed_zero _ _ _ _ L lv 1 fun _ _ => rfl
  pre c := iprop(StableHlo.held (c : Thread nD τ) (Pipeline.ucRefs τ sig) (Gen.V6 m (outs m) c) ∗ E 1 c)
  post c := iprop(StableHlo.held (c : Thread nD τ) (Pipeline.ucRefs τ sig) (Gen.V7 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (fun b => Gen.V6 m (outs m) c b)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (fun b => Gen.V6 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => Gen.V6 m (outs m) c b) (fun b => Gen.V7 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch's ghost element is the pipelines' own; no further ghost resource is dealt. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What rides along, made on each core from what the launch deals it: its generator register, its dues at nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : E (F := F) 2 c ⊢ (iprop(∃ W, owes (c : Thread nD τ) (0 : CellTallies nD τ sig Unit) W) : sProp 𝕄) := by
  iintro ⟨-, HO⟩; iexact HO

/-! ## The run -/

set_option backward.isDefEq.respectTransparency.types false in
/-- Every weakly fair execution of @main terminates with the six arguments as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () Variants.none L lv (fun _ _ => rfl) ρ (outs m) (pdats m) 0 (fun _ => iprop(emp))
    (initOf (Pipeline.cells cfgs cellOf_inj) (Pipeline.launchToks cfgs cellOf_inj)) hu₀ E (hE0 ρ) hE2
    (reg0 m) (fun _ => .rfl) (fun _ => .rfl) (reg1 m) (fun _ => .rfl) (fun _ => .rfl)

set_option backward.isDefEq.respectTransparency.types false in
/-- The same run read also at the result: main_v9 ends at the last valuation's contents, which are X9. The last
    thread state holds every unscoped buffer at that valuation, main_v9 among them. -/
theorem run_val (ρ : Dev nD → PrngReg) : θ_run defs (onTc (τ := τ) (main (F := F))) ⟨m, fun _ => 0, ρ⟩ (fun r => ∀ c : Dev nD,
      r.2.mem ((c.tc : Thread nD τ).loc main_v9) = Gen.V7 m (outs m) c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) Gen.adm (pdats m) () cellOf_inj emb₁ defs₀ Variants.none L lv m ρ main
    (Gen.segs m (outs m) Variants.none L lv E () (pdats m) (reg0 m) (reg1 m))
    (fun c Q => by
      rewrite [main_chain c, Pipeline.Seg.run_eq_chain,
        show (Gen.segs m (outs m) Variants.none L lv E () (pdats m) (reg0 m) (reg1 m) c).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    0 (fun _ _ => rfl) (fun _ => iprop(emp)) (initOf (Pipeline.cells cfgs cellOf_inj) (Pipeline.launchToks cfgs cellOf_inj)) hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V7 m (outs m) c))
    (hch := fun c => ⟨.rfl, .rfl, .rfl, .rfl, .rfl, .rfl, .rfl, sep_mono .rfl (hE2 c)⟩)
    (hinit := ?_)
    (QY := fun c s => s.mem ((c.tc : Thread nD τ).loc main_v9) = Gen.V7 m (outs m) c main_v9 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (Gen.V7 m (outs m) c) s') $$ [Hh HSI]
    · isplitl [Hh] <;> iassumption
    icases Hr with ⟨%h, HSI⟩
    imodintro
    isplitr
    · ipureintro
      exact ⟨h (Proc.devRef .tc main_v9) (Finset.mem_filter.mpr ⟨StableHlo.devRef_mem_tcRefs main_v9, by decide⟩),
        (h (Proc.devRef .tc main_arg0) (Finset.mem_filter.mpr ⟨StableHlo.devRef_mem_tcRefs main_arg0, by decide⟩)).trans (Gen.V7_main_arg0 m (outs m) c),
        (h (Proc.devRef .tc main_arg1) (Finset.mem_filter.mpr ⟨StableHlo.devRef_mem_tcRefs main_arg1, by decide⟩)).trans (Gen.V7_main_arg1 m (outs m) c),
        (h (Proc.devRef .tc main_arg2) (Finset.mem_filter.mpr ⟨StableHlo.devRef_mem_tcRefs main_arg2, by decide⟩)).trans (Gen.V7_main_arg2 m (outs m) c),
        (h (Proc.devRef .tc main_arg3) (Finset.mem_filter.mpr ⟨StableHlo.devRef_mem_tcRefs main_arg3, by decide⟩)).trans (Gen.V7_main_arg3 m (outs m) c),
        (h (Proc.devRef .tc main_arg4) (Finset.mem_filter.mpr ⟨StableHlo.devRef_mem_tcRefs main_arg4, by decide⟩)).trans (Gen.V7_main_arg4 m (outs m) c),
        (h (Proc.devRef .tc main_arg5) (Finset.mem_filter.mpr ⟨StableHlo.devRef_mem_tcRefs main_arg5, by decide⟩)).trans (Gen.V7_main_arg5 m (outs m) c)⟩
    · iexact HSI

end Cert.Kernel.Run

end
-- ==== Proof.R0Defs.lean ====
/-
  Region 0 of @main (the group reduction): what its three scratch accumulators and its output window's staging
  buffer hold after every grid point, and the pipeline's proof data built on that.

  The grid is (row tile bi, group tile gi, column tile si), si fastest. At a point the body adds to each of the three
  accumulators (the plain sum, the weighted sum, the count of non-zero entries) the product of this column tile's
  block of x (resp. x·w, resp. [x ≠ 0]) with the tile's group-membership matrix; at si = 0 it first resets them, and
  at the last column tile it selects per group among the three, clips at zero and stores the result block. So the
  accumulators after point n are a recursion on n that restarts whenever n ≡ 0 (mod 32), and the output block is a
  function of them wherever it is stored (n ≡ 31 mod 32), which is exactly where the pipeline writes it back.
-/
import proofs.«416405_j7060926234901_1_alg».proof.Proof.Gen.KernelIdeal.Launch
import proofs.«416405_j7060926234901_1_alg».proof.Proof.Gen.KernelIdeal.Skeleton
import proofs.«416405_j7060926234901_1_alg».proof.Proof.Gen.KernelIdeal.Points
import Idealize.ShloMosaic.Lib.Pipeline.FrameBody
import Idealize.ShloMosaic.Lib.Pipeline.Frame

noncomputable section

namespace Cert.KernelIdeal.R0

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three accumulators: the sum, the weighted sum, the non-zero count (scratch operands 0, 1, 2). -/
abbrev Acc (F : FTy → Type) [FloatOps F] : Type := Vec F S512x1024 .f32 × Vec F S512x1024 .f32 × Vec F S512x1024 .f32

/-- The accumulators as a reset leaves them. -/
def zero0 : Acc F := (k0_pay4 (F := F), k0_pay5 (F := F), k0_pay6 (F := F))

/-- One point's update of the accumulators from the point's blocks of x, of the group ids and of the weights. -/
def step0 (i : grid0.Coords) (x : Vec F S512x1024 .f32) (g : Vec F S1x1024 .i32) (w : Vec F S1x1024 .f32) (S : Acc F) : Acc F :=
  (k0_pay9 i x g S.1, k0_pay1 (k0_pay10 i x g w S.2.1), k0_pay2 (k0_pay7 i g) (k0_pay8 x) S.2.2)

/-- The accumulators after the body at position `n`: the update of what the point before left, or of a reset where
    the column tile is the first (n ≡ 0 mod 32). -/
def accAt0 (c : Dev nD) : (n : ℕ) → n < cfg0.N → Acc F
  | 0, hn => step0 (grid0.coords ⟨0, hn⟩) (iblk0 V c 0 ⟨0, hn⟩) (iblk0 V c 1 ⟨0, hn⟩) (iblk0 V c 2 ⟨0, hn⟩) zero0
  | n + 1, hn => step0 (grid0.coords ⟨n + 1, hn⟩) (iblk0 V c 0 ⟨n + 1, hn⟩) (iblk0 V c 1 ⟨n + 1, hn⟩) (iblk0 V c 2 ⟨n + 1, hn⟩)
      (if (n + 1) % 32 = 0 then zero0 else accAt0 c n (Nat.lt_of_succ_lt hn))

theorem accAt0_reset (c : Dev nD) (t : Fin cfg0.N) (h : t.val % 32 = 0) :
    accAt0 V c t.val t.isLt = step0 (grid0.coords t) (iblk0 V c 0 t) (iblk0 V c 1 t) (iblk0 V c 2 t) zero0 := by
  obtain ⟨n, hn⟩ := t
  cases n with
  | zero => rfl
  | succ n => simp only [accAt0, if_pos h]

theorem accAt0_step (c : Dev nD) (t : Fin cfg0.N) (h : ¬ t.val % 32 = 0) :
    accAt0 V c t.val t.isLt = step0 (grid0.coords t) (iblk0 V c 0 t) (iblk0 V c 1 t) (iblk0 V c 2 t)
      (accAt0 V c (t.val - 1) (Nat.lt_of_le_of_lt (Nat.sub_le _ _) t.isLt)) := by
  obtain ⟨n, hn⟩ := t
  cases n with
  | zero => exact absurd (Nat.zero_mod _) h
  | succ n => simp only [accAt0, if_neg h, Nat.add_sub_cancel]

/-- The output window's staging buffer after the body at point `t`, where the body stores it (the last column tile):
    per group the selected accumulator, clipped at zero. At the other points nothing consults it. -/
def outAt0 (c : Dev nD) (t : Fin cfg0.N) : Vec F S512x1024 .bf16 :=
  k0_pay3 (iblk0 V c 3 t) (accAt0 V c t.val t.isLt).1 (accAt0 V c t.val t.isLt).2.2 (accAt0 V c t.val t.isLt).2.1

/-- The scratch operands as whole memrefs. -/
abbrev scM8 : Memref sig .tc .vmem S512x1024 .f32 := Memref.whole cc0_scratch0
abbrev scM9 : Memref sig .tc .vmem S512x1024 .f32 := Memref.whole cc0_scratch1
abbrev scM10 : Memref sig .tc .vmem S512x1024 .f32 := Memref.whole cc0_scratch2

/-- The scoped buffers region 0 neither stages nor uses (the other call's staging buffers), at anything. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The region invariant before position `n`: before the first point every scoped buffer the region does not stage at
    anything; afterwards the three accumulators at what the point before left, the rest at anything; the generator
    register at some state throughout. -/
def PhiS0 (c : Dev nD) : (n : ℕ) → n ≤ cfg0.N → sProp 𝕄
  | 0, _ => Pipeline.ΦA spec0 c
  | n + 1, hn => iprop(owns (c : Thread nD τ) scM8 fullShare (accAt0 V c n hn).1
      ∗ owns (c : Thread nD τ) scM9 fullShare (accAt0 V c n hn).2.1
      ∗ owns (c : Thread nD τ) scM10 fullShare (accAt0 V c n hn).2.2
      ∗ others0 c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM8 fullShare (accAt0 V c n hn).1
      ∗ owns (c : Thread nD τ) scM9 fullShare (accAt0 V c n hn).2.1
      ∗ owns (c : Thread nD τ) scM10 fullShare (accAt0 V c n hn).2.2
      ∗ others0 c ∗ (∃ r, prngReg c r)) := rfl

theorem PhiS0_pos (c : Dev nD) (n : ℕ) (h : n ≤ cfg0.N) (hz : n ≠ 0) :
    PhiS0 V c n h = iprop(owns (c : Thread nD τ) scM8 fullShare (accAt0 V c (n - 1) (by omega)).1
      ∗ owns (c : Thread nD τ) scM9 fullShare (accAt0 V c (n - 1) (by omega)).2.1
      ∗ owns (c : Thread nD τ) scM10 fullShare (accAt0 V c (n - 1) (by omega)).2.2
      ∗ others0 c ∗ (∃ r, prngReg c r)) := by
  cases n with
  | zero => exact absurd rfl hz
  | succ n => rfl

/-- The proof data of pipeline 0 on core `c`: the arrays as the region finds them; after the body each input's buffer
    at its block and the output's at `outAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0 V c t := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

end Cert.KernelIdeal.R0

end
-- ==== Proof.R0Oblig.lean ====
/-
  Region 0's body obligation: at every grid point the kernel body, run on the staging buffers holding the point's
  blocks and on the three accumulators as the point before left them, leaves the accumulators at this point's update
  and, at the last column tile, the output buffer at the selected and clipped group values.

  The body has two conditionals on the column tile: a reset of the accumulators at the first tile and the select,
  clip and store of the output block at the last. So a point is of one of three kinds — first, middle, last —, the
  body is run once per kind on arbitrary whole memrefs, and the obligation at a point is the run of its kind: the
  inputs' buffers hold the point's blocks, the accumulators are what the invariant carries from the point before,
  and the output's buffer is stored exactly where the pipeline writes it back and is left untouched elsewhere.
-/
import proofs.«416405_j7060926234901_1_alg».proof.Proof.R0Defs
import Idealize.ShloMosaic.Lib.Ring
import Idealize.ShloMosaic.Lib.Tactic
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditionals -/

/-- The first conditional's test (the column tile is the first), as the body computes it from the coordinates. -/
abbrev isFirst (i : grid0.Coords) : Prop :=
  Scalar.cmpi .ne (Scalar.extui (Scalar.cmpi .eq (BitVec.ofNat 32 (i 2).val) 0#32)) 0#32 = 1#1

/-- The second conditional's test (the column tile is the last). -/
abbrev isLast (i : grid0.Coords) : Prop := k0_cond2 i = 1#1

/-! ## The two conditionals over the grid, and where the output window is idle

The column tile is the grid's fastest coordinate, of extent 32: the first test holds exactly at the points ≡ 0 and the
second exactly at the points ≡ 31 (mod 32) — checked by evaluation over the 512 points. The printed configuration
calls the output window idle exactly where the second test fails, and the pipeline writes its block back exactly
where it holds. -/

theorem isFirst_iff : ∀ t : Fin cfg0.N, isFirst (grid0.coords t) ↔ t.val % 32 = 0 :=
  (by decide +kernel : ∀ t : Fin grid0.N, isFirst (grid0.coords t) ↔ t.val % 32 = 0)

theorem isLast_iff : ∀ t : Fin cfg0.N, isLast (grid0.coords t) ↔ t.val % 32 = 31 :=
  (by decide +kernel : ∀ t : Fin grid0.N, isLast (grid0.coords t) ↔ t.val % 32 = 31)

theorem out_idle : ∀ t : Fin cfg0.N, ¬ isLast (grid0.coords t) → cfg0.idle 4 (grid0.coords t) = true := by decide +kernel

theorem out_live : ∀ t : Fin cfg0.N, isLast (grid0.coords t) → cfg0.idle 4 (grid0.coords t) = false := by decide +kernel

theorem out_noFlush (t : Fin cfg0.N) (h : ¬ t.val % 32 = 31) : (cfg0.win 4).flush t = false := by
  cases hfl : (cfg0.win 4).flush t
  · rfl
  · exact absurd ((flush0_4 t).mp hfl) h

/-! ## Reading a whole buffer back

The body touches every buffer through the full rectangle at zero offsets: a load through it reads the buffer's
contents, a store through it leaves its payload whatever was stored before, and a load after such a store reads
that payload. -/

section Whole

variable {κ : Kind} {sp : Space} {s : Shape} {e : EltTy}

theorem readAt_full (m : Memref sig κ sp s e) (h : m.IsWhole) {off : Fin s.rank → ℕ} (ho : off = fun _ => 0)
    (inb : ∀ a, off a + s.size a ≤ s.size a) (X : s.Idx → Elt F e) :
    View.readAt (Elt F) m.view (Rect.unit off s.size inb).toLoadRect (h.unread X) = X := by
  rw [View.readAt_eq_ld, h.read_unread, View.ld_unit_zero ho]

theorem read_writes_full (m : Memref sig κ sp s e) (f : m.view.ty.Contents (Elt F)) {off : Fin s.rank → ℕ}
    (ho : off = fun _ => 0) (inb : ∀ a, off a + s.size a ≤ s.size a) (P : s.Idx → Elt F e)
    (L : List (View.Piece (Elt F) s e)) :
    m.view.read (Elt F) (m.view.writes (Elt F) f ((⟨Rect.unit off s.size inb, P⟩ : View.Piece (Elt F) s e) :: L)) = P := by
  rw [View.read_writes_eq_canon _ _ _ (fun y => ⟨_, List.mem_cons_self .., View.mem_set_unit_zero ho inb y⟩),
    View.canon_cons_unit_zero ho]

theorem readCov_full (v : View sig κ sp s e) {off : Fin s.rank → ℕ} (ho : off = fun _ => 0)
    (inb : ∀ a, off a + s.size a ≤ s.size a) (P : s.Idx → Elt F e) (L : List (View.Piece (Elt F) s e)) :
    v.readCov ((⟨Rect.unit off s.size inb, P⟩ : View.Piece (Elt F) s e) :: L) (Rect.unit off s.size inb).toLoadRect = P := by
  rw [View.readCov_eq_canon_ld _ _ _ (fun y => ⟨_, List.mem_cons_self .., View.mem_set_unit_zero ho inb y⟩),
    View.canon_cons_unit_zero ho, View.ld_unit_zero ho]

end Whole

/-- The zero offsets of a rank-two rectangle, as the constant function. -/
theorem zero2 : (![0, 0] : Fin 2 → ℕ) = fun _ => 0 := by
  funext a; fin_cases a <;> rfl

/-! ## The body on any whole memrefs, case by case

The kernel function run on eight whole memrefs — the four inputs' and the output's staging buffers and the three
accumulators — in each of the three cases the two tests leave at a grid point (they never hold together): the
first column tile, a middle one, the last. The inputs' contents are read and left; what the accumulators end with
is `step0` of what they held (of `zero0` after a reset). -/

set_option maxHeartbeats 1000000 in
/-- The body at a point whose column tile is the first: whatever the accumulators held, they are reset and then
    updated, ending at `step0 … zero0`; the output's buffer is not touched. -/
theorem run_reset (c : Dev nD) (E : Set ℕ) (i : grid0.Coords)
    (a3 : Memref sig .tc .vmem S512x1024 .f32) (h3 : a3.IsWhole) (a4 : Memref sig .tc .vmem S1x1024 .i32) (h4 : a4.IsWhole)
    (a5 : Memref sig .tc .vmem S1x1024 .f32) (h5 : a5.IsWhole) (a6 : Memref sig .tc .vmem S1x1024 .i32) (h6 : a6.IsWhole)
    (a7 : Memref sig .tc .vmem S512x1024 .bf16) (h7 : a7.IsWhole) (a8 : Memref sig .tc .vmem S512x1024 .f32) (h8 : a8.IsWhole)
    (a9 : Memref sig .tc .vmem S512x1024 .f32) (h9 : a9.IsWhole) (a10 : Memref sig .tc .vmem S512x1024 .f32) (h10 : a10.IsWhole)
    (hf : isFirst i) (hl : ¬ isLast i)
    (x : Vec F S512x1024 .f32) (g : Vec F S1x1024 .i32) (w : Vec F S1x1024 .f32) (K : PUnit → sProp 𝕄) :
    iprop(owns (c : Thread nD τ) a3 fullShare x ∗ owns (c : Thread nD τ) a4 fullShare g ∗ owns (c : Thread nD τ) a5 fullShare w
        ∗ (∃ d, owns (c : Thread nD τ) a8 fullShare d) ∗ (∃ d, owns (c : Thread nD τ) a9 fullShare d) ∗ (∃ d, owns (c : Thread nD τ) a10 fullShare d)
        ∗ (iprop(owns (c : Thread nD τ) a3 fullShare x ∗ owns (c : Thread nD τ) a4 fullShare g ∗ owns (c : Thread nD τ) a5 fullShare w
            ∗ owns (c : Thread nD τ) a8 fullShare (step0 i x g w zero0).1 ∗ owns (c : Thread nD τ) a9 fullShare (step0 i x g w zero0).2.1
            ∗ owns (c : Thread nD τ) a10 fullShare (step0 i x g w zero0).2.2) -∗ K ⟨⟩))
      ⊢ wp frame (wpE (defs₀ (F := F)) Variants.none c none) E (cc0__groupembed_kernel i a3 h3 a4 h4 a5 h5 a6 h6 a7 h7 a8 h8 a9 h9 a10 h10) K := by
  simp only [cc0__groupembed_kernel_eq_skeleton]; unfold cc0__groupembed_kernel_skel
  simp only [k0_part1_eq_skeleton]; unfold k0_part1_skel
  unfold owns
  iintro ⟨⟨%f3, %e3, H3⟩, ⟨%f4, %e4, H4⟩, ⟨%f5, %e5, H5⟩, ⟨%d8, %f8, -, H8⟩, ⟨%d9, %f9, -, H9⟩, ⟨%d10, %f10, -, H10⟩, Hk⟩
  obtain rfl := h3.eq_unread e3; obtain rfl := h4.eq_unread e4; obtain rfl := h5.eq_unread e5
  sl_exec (disch := first | exact hf | exact hl)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H8]
  · iexists _; isplitr
    swap; · iexact H8
    ipureintro
    rw [read_writes_full _ _ zero2, readAt_full a3 h3 zero2, readAt_full a4 h4 zero2]
    delta run_reset.sl.v28 run_reset.sl.H8_1
    rw [readCov_full _ zero2]; rfl
  isplitl [H9]
  · iexists _; isplitr
    swap; · iexact H9
    ipureintro
    rw [read_writes_full _ _ zero2, readAt_full a3 h3 zero2, readAt_full a4 h4 zero2, readAt_full a5 h5 zero2]
    delta run_reset.sl.v34 run_reset.sl.H9_1
    rw [readCov_full _ zero2]; rfl
  iexists _; isplitr
  swap; · iexact H10
  ipureintro
  rw [read_writes_full _ _ zero2, readAt_full a3 h3 zero2, readAt_full a4 h4 zero2]
  delta run_reset.sl.v40 run_reset.sl.H10_1
  rw [readCov_full _ zero2]; rfl

set_option maxHeartbeats 1000000 in
/-- The body at a point whose column tile is neither the first nor the last: the three accumulators go from `S` to
    `step0 … S`; the inputs' buffers are read and left as they were; the output's buffer is not touched. -/
theorem run_update (c : Dev nD) (E : Set ℕ) (i : grid0.Coords)
    (a3 : Memref sig .tc .vmem S512x1024 .f32) (h3 : a3.IsWhole) (a4 : Memref sig .tc .vmem S1x1024 .i32) (h4 : a4.IsWhole)
    (a5 : Memref sig .tc .vmem S1x1024 .f32) (h5 : a5.IsWhole) (a6 : Memref sig .tc .vmem S1x1024 .i32) (h6 : a6.IsWhole)
    (a7 : Memref sig .tc .vmem S512x1024 .bf16) (h7 : a7.IsWhole) (a8 : Memref sig .tc .vmem S512x1024 .f32) (h8 : a8.IsWhole)
    (a9 : Memref sig .tc .vmem S512x1024 .f32) (h9 : a9.IsWhole) (a10 : Memref sig .tc .vmem S512x1024 .f32) (h10 : a10.IsWhole)
    (hf : ¬ isFirst i) (hl : ¬ isLast i)
    (x : Vec F S512x1024 .f32) (g : Vec F S1x1024 .i32) (w : Vec F S1x1024 .f32) (S : Acc F) (K : PUnit → sProp 𝕄) :
    iprop(owns (c : Thread nD τ) a3 fullShare x ∗ owns (c : Thread nD τ) a4 fullShare g ∗ owns (c : Thread nD τ) a5 fullShare w
        ∗ owns (c : Thread nD τ) a8 fullShare S.1 ∗ owns (c : Thread nD τ) a9 fullShare S.2.1 ∗ owns (c : Thread nD τ) a10 fullShare S.2.2
        ∗ (iprop(owns (c : Thread nD τ) a3 fullShare x ∗ owns (c : Thread nD τ) a4 fullShare g ∗ owns (c : Thread nD τ) a5 fullShare w
            ∗ owns (c : Thread nD τ) a8 fullShare (step0 i x g w S).1 ∗ owns (c : Thread nD τ) a9 fullShare (step0 i x g w S).2.1
            ∗ owns (c : Thread nD τ) a10 fullShare (step0 i x g w S).2.2) -∗ K ⟨⟩))
      ⊢ wp frame (wpE (defs₀ (F := F)) Variants.none c none) E (cc0__groupembed_kernel i a3 h3 a4 h4 a5 h5 a6 h6 a7 h7 a8 h8 a9 h9 a10 h10) K := by
  simp only [cc0__groupembed_kernel_eq_skeleton]; unfold cc0__groupembed_kernel_skel
  simp only [k0_part1_eq_skeleton]; unfold k0_part1_skel
  unfold owns
  iintro ⟨⟨%f3, %e3, H3⟩, ⟨%f4, %e4, H4⟩, ⟨%f5, %e5, H5⟩, ⟨%f8, %e8, H8⟩, ⟨%f9, %e9, H9⟩, ⟨%f10, %e10, H10⟩, Hk⟩
  obtain rfl := h3.eq_unread e3; obtain rfl := h4.eq_unread e4; obtain rfl := h5.eq_unread e5
  obtain rfl := h8.eq_unread e8; obtain rfl := h9.eq_unread e9; obtain rfl := h10.eq_unread e10
  sl_exec (disch := first | exact hf | exact hl)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H8]
  · iexists _; isplitr
    swap; · iexact H8
    ipureintro
    rw [read_writes_full _ _ zero2, readAt_full a3 h3 zero2, readAt_full a4 h4 zero2, readAt_full a8 h8 zero2]; rfl
  isplitl [H9]
  · iexists _; isplitr
    swap; · iexact H9
    ipureintro
    rw [read_writes_full _ _ zero2, readAt_full a3 h3 zero2, readAt_full a4 h4 zero2, readAt_full a5 h5 zero2,
      readAt_full a9 h9 zero2]; rfl
  iexists _; isplitr
  swap; · iexact H10
  ipureintro
  rw [read_writes_full _ _ zero2, readAt_full a3 h3 zero2, readAt_full a4 h4 zero2, readAt_full a10 h10 zero2]; rfl

set_option maxHeartbeats 1000000 in
/-- The body at a point whose column tile is the last: the accumulators go from `S` to `step0 … S`, and the output's
    buffer, whatever it held, ends at the selection among the three updated accumulators by the group kinds,
    clipped at zero. -/
theorem run_last (c : Dev nD) (E : Set ℕ) (i : grid0.Coords)
    (a3 : Memref sig .tc .vmem S512x1024 .f32) (h3 : a3.IsWhole) (a4 : Memref sig .tc .vmem S1x1024 .i32) (h4 : a4.IsWhole)
    (a5 : Memref sig .tc .vmem S1x1024 .f32) (h5 : a5.IsWhole) (a6 : Memref sig .tc .vmem S1x1024 .i32) (h6 : a6.IsWhole)
    (a7 : Memref sig .tc .vmem S512x1024 .bf16) (h7 : a7.IsWhole) (a8 : Memref sig .tc .vmem S512x1024 .f32) (h8 : a8.IsWhole)
    (a9 : Memref sig .tc .vmem S512x1024 .f32) (h9 : a9.IsWhole) (a10 : Memref sig .tc .vmem S512x1024 .f32) (h10 : a10.IsWhole)
    (hf : ¬ isFirst i) (hl : isLast i)
    (x : Vec F S512x1024 .f32) (g : Vec F S1x1024 .i32) (w : Vec F S1x1024 .f32) (a : Vec F S1x1024 .i32) (S : Acc F)
    (K : PUnit → sProp 𝕄) :
    iprop(owns (c : Thread nD τ) a3 fullShare x ∗ owns (c : Thread nD τ) a4 fullShare g ∗ owns (c : Thread nD τ) a5 fullShare w ∗ owns (c : Thread nD τ) a6 fullShare a ∗ (∃ d, owns (c : Thread nD τ) a7 fullShare d)
        ∗ owns (c : Thread nD τ) a8 fullShare S.1 ∗ owns (c : Thread nD τ) a9 fullShare S.2.1 ∗ owns (c : Thread nD τ) a10 fullShare S.2.2
        ∗ (iprop(owns (c : Thread nD τ) a3 fullShare x ∗ owns (c : Thread nD τ) a4 fullShare g ∗ owns (c : Thread nD τ) a5 fullShare w ∗ owns (c : Thread nD τ) a6 fullShare a
            ∗ owns (c : Thread nD τ) a7 fullShare (k0_pay3 a (step0 i x g w S).1 (step0 i x g w S).2.2 (step0 i x g w S).2.1)
            ∗ owns (c : Thread nD τ) a8 fullShare (step0 i x g w S).1 ∗ owns (c : Thread nD τ) a9 fullShare (step0 i x g w S).2.1
            ∗ owns (c : Thread nD τ) a10 fullShare (step0 i x g w S).2.2) -∗ K ⟨⟩))
      ⊢ wp frame (wpE (defs₀ (F := F)) Variants.none c none) E (cc0__groupembed_kernel i a3 h3 a4 h4 a5 h5 a6 h6 a7 h7 a8 h8 a9 h9 a10 h10) K := by
  simp only [cc0__groupembed_kernel_eq_skeleton]; unfold cc0__groupembed_kernel_skel
  simp only [k0_part1_eq_skeleton]; unfold k0_part1_skel
  unfold owns
  iintro ⟨⟨%f3, %e3, H3⟩, ⟨%f4, %e4, H4⟩, ⟨%f5, %e5, H5⟩, ⟨%f6, %e6, H6⟩, ⟨%d7, %f7, -, H7⟩, ⟨%f8, %e8, H8⟩, ⟨%f9, %e9, H9⟩, ⟨%f10, %e10, H10⟩, Hk⟩
  obtain rfl := h3.eq_unread e3; obtain rfl := h4.eq_unread e4; obtain rfl := h5.eq_unread e5; obtain rfl := h6.eq_unread e6
  obtain rfl := h8.eq_unread e8; obtain rfl := h9.eq_unread e9; obtain rfl := h10.eq_unread e10
  sl_exec (disch := first | exact hf | exact hl)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr
    swap; · iexact H7
    ipureintro
    rw [read_writes_full _ _ zero2, readAt_full a6 h6 zero2]
    delta run_last.sl.v55 run_last.sl.v58 run_last.sl.v63 run_last.sl.H8_1 run_last.sl.H9_1 run_last.sl.H10_1
    rw [readCov_full _ zero2, readCov_full _ zero2, readCov_full _ zero2, readAt_full a3 h3 zero2, readAt_full a4 h4 zero2,
      readAt_full a5 h5 zero2, readAt_full a8 h8 zero2, readAt_full a9 h9 zero2, readAt_full a10 h10 zero2]; rfl
  isplitl [H8]
  · iexists _; isplitr
    swap; · iexact H8
    ipureintro
    delta run_last.sl.H8_1
    rw [read_writes_full _ _ zero2, readAt_full a3 h3 zero2, readAt_full a4 h4 zero2, readAt_full a8 h8 zero2]; rfl
  isplitl [H9]
  · iexists _; isplitr
    swap; · iexact H9
    ipureintro
    delta run_last.sl.H9_1
    rw [read_writes_full _ _ zero2, readAt_full a3 h3 zero2, readAt_full a4 h4 zero2, readAt_full a5 h5 zero2,
      readAt_full a9 h9 zero2]; rfl
  iexists _; isplitr
  swap; · iexact H10
  ipureintro
  delta run_last.sl.H10_1
  rw [read_writes_full _ _ zero2, readAt_full a3 h3 zero2, readAt_full a4 h4 zero2, readAt_full a10 h10 zero2]; rfl

/-! ## The inputs' buffers hold their blocks

An input's staging buffer holds the point's block whether or not the pipeline fetched it there: unfetched (the group
kinds' window between two resets), its block index has not moved and the body left the block in place. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The invariant's parts

What the launch hands the region, and what the region hands back, is every scoped buffer that is no staging buffer of
this call, each at some contents, and the generator register: the three accumulators as memrefs owned at some
contents, the other call's staging buffers, the register. -/

theorem scoped_open (c : Dev nD) :
    (Pipeline.ΦA spec0 c : sProp 𝕄)
      ⊢ iprop((∃ d, owns (c : Thread nD τ) scM8 fullShare d) ∗ (∃ d, owns (c : Thread nD τ) scM9 fullShare d)
          ∗ (∃ d, owns (c : Thread nD τ) scM10 fullShare d) ∗ others0 c ∗ (∃ r, prngReg c r)) := by
  unfold Pipeline.ΦA others0; rw [scopedRest0_eq]; simp only [scM8, scM9, scM10, owns_whole]
  iintro ⟨⟨H8, H9, H10, Hr⟩, Hg⟩
  isplitl [H8]; · iexact H8
  isplitl [H9]; · iexact H9
  isplitl [H10]; · iexact H10
  isplitl [Hr]; · iexact Hr
  iexact Hg

theorem scoped_close (c : Dev nD) :
    iprop((∃ d, owns (c : Thread nD τ) scM8 fullShare d) ∗ (∃ d, owns (c : Thread nD τ) scM9 fullShare d)
          ∗ (∃ d, owns (c : Thread nD τ) scM10 fullShare d) ∗ others0 c ∗ (∃ r, prngReg c r))
      ⊢ (Pipeline.ΦA spec0 c : sProp 𝕄) := by
  unfold Pipeline.ΦA others0; rw [scopedRest0_eq]; simp only [scM8, scM9, scM10, owns_whole]
  iintro ⟨H8, H9, H10, Hr, Hg⟩
  isplitl [H8 H9 H10 Hr]
  · isplitl [H8]; · iexact H8
    isplitl [H9]; · iexact H9
    isplitl [H10]; · iexact H10
    iexact Hr
  iexact Hg

theorem scoped_split (c : Dev nD) :
    (Pipeline.ΦA spec0 c : sProp 𝕄)
      = iprop((∃ d, owns (c : Thread nD τ) scM8 fullShare d) ∗ (∃ d, owns (c : Thread nD τ) scM9 fullShare d)
          ∗ (∃ d, owns (c : Thread nD τ) scM10 fullShare d) ∗ others0 c ∗ (∃ r, prngReg c r)) :=
  BI.equiv_iff.mp ⟨scoped_open c, scoped_close c⟩

/-! ## The body at a point of the grid -/

/-- What the body is handed at point `t`: the invariant, the core's tallies, and each window's current buffer. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it hands back. -/
def post0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

/-- An input's buffer is handed back at its block: no input window is ever idle. -/
theorem leaves_in0 (c : Dev nD) (t : Fin cfg0.N) :
    (dat0 V c).leavesExact 0 t = owns (c : Thread nD τ) (st0_0 t) fullShare (iblk0 V c 0 t) := by
  unfold Dat.leavesExact; rw [show cfg0.idle 0 (grid0.coords t) = false from rfl, after0_0]
theorem leaves_in1 (c : Dev nD) (t : Fin cfg0.N) :
    (dat0 V c).leavesExact 1 t = owns (c : Thread nD τ) (st0_1 t) fullShare (iblk0 V c 1 t) := by
  unfold Dat.leavesExact; rw [show cfg0.idle 1 (grid0.coords t) = false from rfl, after0_1]
theorem leaves_in2 (c : Dev nD) (t : Fin cfg0.N) :
    (dat0 V c).leavesExact 2 t = owns (c : Thread nD τ) (st0_2 t) fullShare (iblk0 V c 2 t) := by
  unfold Dat.leavesExact; rw [show cfg0.idle 2 (grid0.coords t) = false from rfl, after0_2]
theorem leaves_in3 (c : Dev nD) (t : Fin cfg0.N) :
    (dat0 V c).leavesExact 3 t = owns (c : Thread nD τ) (st0_3 t) fullShare (iblk0 V c 3 t) := by
  unfold Dat.leavesExact; rw [show cfg0.idle 3 (grid0.coords t) = false from rfl, after0_3]

/-- A point whose column tile is the first: the accumulators, whatever the invariant holds them at (anything before
    the first point, the previous row of tiles' last update afterwards), end at this point's update of a reset;
    the output window is idle and its buffer goes back as it came. -/
theorem sound_first (c : Dev nD) (t : Fin cfg0.N) (hf : t.val % 32 = 0) :
    pre0 V c t ⊢ wp frame (wpE (defs₀ (F := F)) Variants.none c none) Set.univ (bodyAt0 t) (fun _ => post0 V c t) := by
  have hl : ¬ t.val % 32 = 31 := by omega
  have cf : isFirst (grid0.coords t) := (isFirst_iff t).mpr hf
  have cl : ¬ isLast (grid0.coords t) := fun h => hl ((isLast_iff t).mp h)
  unfold pre0 post0 bodyAt0
  simp only [before0_0, before0_1, before0_2, before0_3]
  rw [show (dat0 V c).owesAt () t.succ = (dat0 V c).owesAt () t.castSucc from rfl,
    show (dat0 V c).Φ t.succ = PhiS0 V c (t.val + 1) t.isLt from rfl, PhiS0_succ,
    leaves_in0, leaves_in1, leaves_in2, leaves_in3,
    Dat.leavesExact_idle (dat0 V c) 4 t (out_idle t cl) (out_noFlush t hl),
    accAt0_reset V c t hf, PhiS0_castSucc]
  by_cases hz : t.val = 0
  · rw [PhiS0_zero V c _ _ hz, scoped_split]
    iintro ⟨⟨S8, S9, S10, Hr, Hg⟩, Ho, ⟨%d0, H0⟩, ⟨%d1, H1⟩, ⟨%d2, H2⟩, ⟨%d3, H3⟩, H4⟩
    iapply (run_reset c Set.univ (grid0.coords t) _ _ _ _ _ _ _ _ _ _ _ _ _ _ _ _ cf cl
      (iblk0 V c 0 t) (iblk0 V c 1 t) (iblk0 V c 2 t) _)
    isplitl [H0]; · iexact H0
    isplitl [H1]; · iexact H1
    isplitl [H2]; · iexact H2
    isplitl [S8]; · iexact S8
    isplitl [S9]; · iexact S9
    isplitl [S10]; · iexact S10
    iintro ⟨H0, H1, H2, S8, S9, S10⟩
    isplitl [S8 S9 S10 Hr Hg]
    · isplitl [S8]; · iexact S8
      isplitl [S9]; · iexact S9
      isplitl [S10]; · iexact S10
      isplitl [Hr]; · iexact Hr
      iexact Hg
    isplitl [Ho]; · iexact Ho
    isplitl [H0]; · iexact H0
    isplitl [H1]; · iexact H1
    isplitl [H2]; · iexact H2
    isplitl [H3]; · iexact H3
    iexact H4
  · rw [PhiS0_pos V c _ _ hz]
    iintro ⟨⟨S8, S9, S10, Hr, Hg⟩, Ho, ⟨%d0, H0⟩, ⟨%d1, H1⟩, ⟨%d2, H2⟩, ⟨%d3, H3⟩, H4⟩
    iapply (run_reset c Set.univ (grid0.coords t) _ _ _ _ _ _ _ _ _ _ _ _ _ _ _ _ cf cl
      (iblk0 V c 0 t) (iblk0 V c 1 t) (iblk0 V c 2 t) _)
    isplitl [H0]; · iexact H0
    isplitl [H1]; · iexact H1
    isplitl [H2]; · iexact H2
    isplitl [S8]; · iexists _; iexact S8
    isplitl [S9]; · iexists _; iexact S9
    isplitl [S10]; · iexists _; iexact S10
    iintro ⟨H0, H1, H2, S8, S9, S10⟩
    isplitl [S8 S9 S10 Hr Hg]
    · isplitl [S8]; · iexact S8
      isplitl [S9]; · iexact S9
      isplitl [S10]; · iexact S10
      isplitl [Hr]; · iexact Hr
      iexact Hg
    isplitl [Ho]; · iexact Ho
    isplitl [H0]; · iexact H0
    isplitl [H1]; · iexact H1
    isplitl [H2]; · iexact H2
    isplitl [H3]; · iexact H3
    iexact H4

/-- A point whose column tile is neither the first nor the last: the accumulators go from what the point before left
    to this point's update of it; the output window is idle. -/
theorem sound_middle (c : Dev nD) (t : Fin cfg0.N) (hf : ¬ t.val % 32 = 0) (hl : ¬ t.val % 32 = 31) :
    pre0 V c t ⊢ wp frame (wpE (defs₀ (F := F)) Variants.none c none) Set.univ (bodyAt0 t) (fun _ => post0 V c t) := by
  have hz : t.val ≠ 0 := fun h => hf (by rw [h])
  have cf : ¬ isFirst (grid0.coords t) := fun h => hf ((isFirst_iff t).mp h)
  have cl : ¬ isLast (grid0.coords t) := fun h => hl ((isLast_iff t).mp h)
  unfold pre0 post0 bodyAt0
  simp only [before0_0, before0_1, before0_2, before0_3]
  rw [show (dat0 V c).owesAt () t.succ = (dat0 V c).owesAt () t.castSucc from rfl,
    show (dat0 V c).Φ t.succ = PhiS0 V c (t.val + 1) t.isLt from rfl, PhiS0_succ,
    leaves_in0, leaves_in1, leaves_in2, leaves_in3,
    Dat.leavesExact_idle (dat0 V c) 4 t (out_idle t cl) (out_noFlush t hl),
    accAt0_step V c t hf, PhiS0_castSucc, PhiS0_pos V c _ _ hz]
  iintro ⟨⟨S8, S9, S10, Hr, Hg⟩, Ho, ⟨%d0, H0⟩, ⟨%d1, H1⟩, ⟨%d2, H2⟩, ⟨%d3, H3⟩, H4⟩
  iapply (run_update c Set.univ (grid0.coords t) _ _ _ _ _ _ _ _ _ _ _ _ _ _ _ _ cf cl
    (iblk0 V c 0 t) (iblk0 V c 1 t) (iblk0 V c 2 t)
    (accAt0 V c (t.val - 1) (Nat.lt_of_le_of_lt (Nat.sub_le _ _) t.isLt)) _)
  isplitl [H0]; · iexact H0
  isplitl [H1]; · iexact H1
  isplitl [H2]; · iexact H2
  isplitl [S8]; · iexact S8
  isplitl [S9]; · iexact S9
  isplitl [S10]; · iexact S10
  iintro ⟨H0, H1, H2, S8, S9, S10⟩
  isplitl [S8 S9 S10 Hr Hg]
  · isplitl [S8]; · iexact S8
    isplitl [S9]; · iexact S9
    isplitl [S10]; · iexact S10
    isplitl [Hr]; · iexact Hr
    iexact Hg
  isplitl [Ho]; · iexact Ho
  isplitl [H0]; · iexact H0
  isplitl [H1]; · iexact H1
  isplitl [H2]; · iexact H2
  isplitl [H3]; · iexact H3
  iexact H4

/-- A point whose column tile is the last: the accumulators are updated as at a middle point, and the output window,
    live here and written back, ends at the selected and clipped group values of the updated accumulators. -/
theorem sound_last (c : Dev nD) (t : Fin cfg0.N) (hl : t.val % 32 = 31) :
    pre0 V c t ⊢ wp frame (wpE (defs₀ (F := F)) Variants.none c none) Set.univ (bodyAt0 t) (fun _ => post0 V c t) := by
  have hf : ¬ t.val % 32 = 0 := by omega
  have hz : t.val ≠ 0 := fun h => hf (by rw [h])
  have cf : ¬ isFirst (grid0.coords t) := fun h => hf ((isFirst_iff t).mp h)
  have cl : isLast (grid0.coords t) := (isLast_iff t).mpr hl
  unfold pre0 post0 bodyAt0
  simp only [before0_0, before0_1, before0_2, before0_3]
  rw [show (dat0 V c).owesAt () t.succ = (dat0 V c).owesAt () t.castSucc from rfl,
    show (dat0 V c).Φ t.succ = PhiS0 V c (t.val + 1) t.isLt from rfl, PhiS0_succ,
    leaves_in0, leaves_in1, leaves_in2, leaves_in3,
    show (dat0 V c).leavesExact 4 t = owns (c : Thread nD τ) (st0_4 t) fullShare ((dat0 V c).after 4 t) from by
      unfold Dat.leavesExact; rw [out_live t cl],
    after0_4]
  unfold outAt0
  rw [accAt0_step V c t hf, PhiS0_castSucc, PhiS0_pos V c _ _ hz]
  iintro ⟨⟨S8, S9, S10, Hr, Hg⟩, Ho, ⟨%d0, H0⟩, ⟨%d1, H1⟩, ⟨%d2, H2⟩, ⟨%d3, H3⟩, ⟨%d4, H4⟩⟩
  iapply (run_last c Set.univ (grid0.coords t) _ _ _ _ _ _ _ _ _ _ _ _ _ _ _ _ cf cl
    (iblk0 V c 0 t) (iblk0 V c 1 t) (iblk0 V c 2 t) (iblk0 V c 3 t)
    (accAt0 V c (t.val - 1) (Nat.lt_of_le_of_lt (Nat.sub_le _ _) t.isLt)) _)
  isplitl [H0]; · iexact H0
  isplitl [H1]; · iexact H1
  isplitl [H2]; · iexact H2
  isplitl [H3]; · iexact H3
  isplitl [H4]; · iexists _; iexact H4
  isplitl [S8]; · iexact S8
  isplitl [S9]; · iexact S9
  isplitl [S10]; · iexact S10
  iintro ⟨H0, H1, H2, H3, H4, S8, S9, S10⟩
  isplitl [S8 S9 S10 Hr Hg]
  · isplitl [S8]; · iexact S8
    isplitl [S9]; · iexact S9
    isplitl [S10]; · iexact S10
    isplitl [Hr]; · iexact Hr
    iexact Hg
  isplitl [Ho]; · iexact Ho
  isplitl [H0]; · iexact H0
  isplitl [H1]; · iexact H1
  isplitl [H2]; · iexact H2
  isplitl [H3]; · iexact H3
  iexact H4

/-- The body at any point, by the point's column tile. -/
theorem sound_body0 (c : Dev nD) (t : Fin cfg0.N) :
    pre0 V c t ⊢ wp frame (wpE (defs₀ (F := F)) Variants.none c none) Set.univ (bodyAt0 t) (fun _ => post0 V c t) := by
  by_cases hf : t.val % 32 = 0
  · exact sound_first V c t hf
  · by_cases hl : t.val % 32 = 31
    · exact sound_last V c t hl
    · exact sound_middle V c t hf hl

/-- The library's body obligation for pipeline 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]

/-- After the last point the invariant gives the class's back: the accumulators' named contents are forgotten. -/
theorem hout0 (c : Dev nD) : (dat0 V c).Φ (Fin.last cfg0.N) ⊢ (Pipeline.ΦA spec0 c : sProp 𝕄) := by
  have hN : cfg0.N = 512 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), scoped_split]
  iintro ⟨S8, S9, S10, Hr, Hg⟩
  isplitl [S8]; · iexists _; iexact S8
  isplitl [S9]; · iexists _; iexact S9
  isplitl [S10]; · iexists _; iexact S10
  isplitl [Hr]; · iexact Hr
  iexact Hg

end Cert.KernelIdeal.R0

end
-- ==== Proof.R1.lean ====
/-
  Region 1 of @main (the linear layer): at grid point t the body multiplies the t-th block of 512 rows of the clipped
  group values by the whole transposed weight matrix and stores the 512 × 1024 product as the t-th block of rows of
  the result. Nothing is carried between points.
-/
import proofs.«416405_j7060926234901_1_alg».proof.Proof.Gen.KernelIdeal.Launch
import proofs.«416405_j7060926234901_1_alg».proof.Proof.Gen.KernelIdeal.Skeleton
import proofs.«416405_j7060926234901_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_out : Rect S512x1024 := Rect.unit (s := S512x1024) ![0, 0] S512x1024.size inb_S512x1024_S512x1024_0_0
abbrev r1_a : Rect S512x4096 := Rect.unit (s := S512x4096) ![0, 0] S512x4096.size inb_S512x4096_S512x4096_0_0
abbrev r1_w : Rect S4096x1024 := Rect.unit (s := S4096x1024) ![0, 0] S4096x1024.size inb_S4096x1024_S4096x1024_0_0

/-- The output window's staging buffer after the body, from the two input blocks: its one store, of the product. -/
def out1_2 (x0 : Vec F S512x4096 .bf16) (x1 : Vec F S4096x1024 .bf16) : Vec F S512x1024 .f32 :=
  View.canon [⟨r1_out, k1_pay1 (View.ld x0 r1_a) (View.ld x1 r1_w)⟩]

/-- The proof data of pipeline 1 on core `c`: the arrays as the region finds them; after the body each input's buffer
    at its block and the output's at the product of the two; the class's invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## What the body finds in its two input buffers

An input window's buffer holds the window's block at the point whether or not a transfer ran there: a point
with no transfer is one where the block index stood still, and the body leaves input buffers as it finds them.
The block of rows moves at every point; the weight matrix is one block, moved at the first point only. -/

/-- The body leaves the rows' buffer at the rows' block. -/
theorem keep1_0 (c : Dev nD) (s : Fin cfg1.N) :
    (cfg1.win 0).cut (cfg1.grid.coords s) ((dat1 V c).after 0 s) = (dat1 V c).blockOf 0 s := by
  rw [after1_0]; unfold Dat.blockOf iblk1; rw [A_eq1]; try rfl

/-- The body leaves the weights' buffer at the whole weight matrix. -/
theorem keep1_1 (c : Dev nD) (s : Fin cfg1.N) :
    (cfg1.win 1).cut (cfg1.grid.coords s) ((dat1 V c).after 1 s) = (dat1 V c).blockOf 1 s := by
  rw [after1_1]; unfold Dat.blockOf iblk1; rw [A_eq1]; try rfl

/-- At every point the rows' buffer holds the `t`-th block of 512 rows. -/
theorem before1_0 (c : Dev nD) (t : Fin cfg1.N) (d) : (dat1 V c).before 0 t d = iblk1 V c 0 t := by
  rw [(dat1 V c).before_in_eq_fetched 0 rfl (fun _ => rfl) (fun _ _ _ => rfl) (keep1_0 V c) t d]
  unfold Dat.fetched Dat.blockOf iblk1; rw [A_eq1]; try rfl

/-- At every point the weights' buffer holds the whole weight matrix, though it is moved in only once. -/
theorem before1_1 (c : Dev nD) (t : Fin cfg1.N) (d) : (dat1 V c).before 1 t d = iblk1 V c 1 t := by
  rw [(dat1 V c).before_in_eq_fetched 1 rfl (fun _ => rfl) (fun _ _ _ => rfl) (keep1_1 V c) t d]
  unfold Dat.fetched Dat.blockOf iblk1; rw [A_eq1]; try rfl

/-! ## The one store fills the output buffer -/

/-- The store's rectangle is the whole 512 × 1024 buffer, so every index of the buffer lies in it. -/
theorem cover1_2 (p : Vec F S512x1024 .f32) (y : S512x1024.Idx) :
    ∃ pc ∈ ([⟨r1_out, p⟩] : List (View.Piece (Elt F) S512x1024 .f32)), y ∈ pc.1.set :=
  View.cover_of_tiled [⟨r1_out, p⟩] S512x1024.size (by rfl) y

/-! ## The body on its three buffers -/

set_option maxHeartbeats 1000000 in
/-- From the rows' buffer reading `x0`, the weights' buffer reading `x1` and the output buffer at anything, the body
    returns with the two inputs as they were and the output buffer at the product `out1_2 x0 x1`: it loads both
    inputs whole, loads the output buffer without using what it reads, and stores the product over all of it. -/
theorem sound_kernel1 (c : Dev nD) (E : Set ℕ) (i : grid1.Coords)
    (a0 : Memref sig .tc .vmem S512x4096 .bf16) (h0 : a0.IsWhole)
    (a1 : Memref sig .tc .vmem S4096x1024 .bf16) (h1 : a1.IsWhole)
    (a2 : Memref sig .tc .vmem S512x1024 .f32) (h2 : a2.IsWhole)
    (x0 : Vec F S512x4096 .bf16) (x1 : Vec F S4096x1024 .bf16) (K : PUnit → sProp 𝕄) :
    iprop(owns (c : Thread nD τ) a0 fullShare x0 ∗ owns (c : Thread nD τ) a1 fullShare x1
        ∗ (∃ d, owns (c : Thread nD τ) a2 fullShare d)
        ∗ (iprop(owns (c : Thread nD τ) a0 fullShare x0 ∗ owns (c : Thread nD τ) a1 fullShare x1
            ∗ owns (c : Thread nD τ) a2 fullShare (out1_2 x0 x1)) -∗ K ⟨⟩))
      ⊢ wp frame (wpE (defs₀ (F := F)) Variants.none c none) E (cc1__linear_kernel i a0 h0 a1 h1 a2 h2) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The body at a grid point -/

/-- What the pipeline hands the body at point `t`: the invariant, the core's debts, and the three current buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What the body hands back: the same invariant and debts, each buffer at what the proof data say it leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two input buffers hold their blocks, so the body's triple applies; the invariant and
    the debts are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.R1

end
-- ==== Proof.Frames.lean ====
/-
  The run of @main over its seven items: four host stretches, region 0 (the group reduction), one host stretch,
  region 1 (the linear layer).

  Between two items a core holds every unscoped buffer whole at a valuation: the launch memory, then what each host
  stretch computes from it, and after a region the same valuation updated at the one array the region writes. What a
  region writes is fixed here, in two stages so that nothing refers to itself: region 0 is entered at a valuation
  that depends on the launch memory only, so the contents X6 it leaves in main_v6 (its output window's write-backs
  folded over the grid) are known first; region 1 is entered at a valuation that reads X6, so the contents X9 it
  leaves in main_v9 are known second. With these contents each region is a segment from the valuation before it to
  the valuation after it: at entry its arrays are split out of the unscoped buffers at the entry valuation, at exit
  they are put back at the exit valuation, which agrees with the entry one off the written array and holds the
  region's folded write-backs at it. Beside the buffers rides the generator register at some state and the core's
  dues at nothing. The run then ends with every argument array as launched and main_v9 at X9.
-/
import proofs.«416405_j7060926234901_1_alg».proof.Proof.R0Defs
import proofs.«416405_j7060926234901_1_alg».proof.Proof.R0Oblig
import proofs.«416405_j7060926234901_1_alg».proof.Proof.R1
import proofs.«416405_j7060926234901_1_alg».proof.Proof.Gen.KernelIdeal.Regions
import Idealize.ShloMosaic.Lib.Pipeline.FrameBody
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the regions leave -/

/-- What region 0 leaves in main_v6: its output window's write-backs folded over the whole grid, the region entered
    at the valuation after the fourth host stretch. -/
def X6 (c : Dev nD) : Buf (Elt F) ((c : Thread nD τ).loc main_v6) :=
  (R0.dat0 (fun c b => Gen.V4 m c b) c).arrAt 4 cfg0.N

/-- The first stage: X6 at main_v6; anywhere else nothing reads it. -/
def outsA : Gen.Outs (F := F) := fun _ r c =>
  if h : r = main_v6 then h ▸ X6 m c else Gen.V4 m c r

/-- What region 1 leaves in main_v9: its output window's write-backs folded over the whole grid, the region entered
    at the valuation that has X6 in main_v6 and the fifth host stretch's results. -/
def X9 (c : Dev nD) : Buf (Elt F) ((c : Thread nD τ).loc main_v9) :=
  (R1.dat1 (fun c b => Gen.V6 m (outsA m) c b) c).arrAt 2 cfg1.N

/-- The contents the regions leave: X9 at main_v9, the first stage elsewhere. -/
def outs : Gen.Outs (F := F) := fun J r c =>
  if h : r = main_v9 then h ▸ X9 m c else outsA m J r c

theorem outsA_v6 (J : ℕ) (c : Dev nD) : outsA m J main_v6 c = X6 m c := by
  unfold outsA; exact dif_pos rfl

theorem outs_v6 (J : ℕ) (c : Dev nD) : outs m J main_v6 c = X6 m c := by
  unfold outs; rw [dif_neg (by decide)]; exact outsA_v6 m J c

theorem outs_v9 (J : ℕ) (c : Dev nD) : outs m J main_v9 c = X9 m c := by
  unfold outs; exact dif_pos rfl

/-- Both stages put the same contents in main_v6, so the valuations up to region 1's entry are the same. -/
theorem V5_outs (c : Dev nD) : Gen.V5 m (outs m) c = Gen.V5 m (outsA m) c := by
  unfold Gen.V5
  rw [outs_v6, outsA_v6]

theorem V6_outs (c : Dev nD) : Gen.V6 m (outs m) c = Gen.V6 m (outsA m) c := by
  unfold Gen.V6
  rw [V5_outs]

/-- main_v6 after region 0 holds X6, -/
theorem V5_v6 (c : Dev nD) : Gen.V5 m (outs m) c main_v6 = X6 m c :=
  (show Gen.V5 m (outs m) c main_v6 = outs m 5 main_v6 c from Function.update_self ..).trans (outs_v6 m 5 c)

/-- and still at region 1's entry: the fifth host stretch does not write it. -/
theorem V6_v6 (c : Dev nD) : Gen.V6 m (outs m) c main_v6 = (R0.dat0 (fun c b => Gen.V4 m c b) c).arrAt 4 cfg0.N :=
  (Gen.V6_of m (outs m) c main_v6 (by decide)).trans (V5_v6 m c)

/-- main_v9 at the end holds what region 1 left. -/
theorem V7_v9 (c : Dev nD) : Gen.V7 m (outs m) c main_v9 = (R1.dat1 (fun c b => Gen.V6 m (outs m) c b) c).arrAt 2 cfg1.N := by
  refine (show Gen.V7 m (outs m) c main_v9 = outs m 7 main_v9 c from Function.update_self ..).trans ((outs_v9 m 7 c).trans ?_)
  have hV : (fun (c : Dev nD) (b : Ref sig .tc) => (Gen.V6 m (outsA m) c b : Buf (Elt F) ((c : Thread nD τ).loc b)))
      = fun (c : Dev nD) (b : Ref sig .tc) => (Gen.V6 m (outs m) c b : Buf (Elt F) ((c : Thread nD τ).loc b)) :=
    funext fun c => funext fun b => (congrFun (V6_outs m c) b).symm
  unfold X9
  rw [hV]

/-! ## The proof data, each region's at its entry valuation -/

/-- Region 0's entry valuation read at the TensorCore's references, -/
abbrev Vin0 : (c : Dev nD) → (b : Ref sig .tc) → Buf (Elt F) ((c : Thread nD τ).loc b) := fun c b => Gen.V4 m c b
/-- and region 1's. -/
abbrev Vin1 : (c : Dev nD) → (b : Ref sig .tc) → Buf (Elt F) ((c : Thread nD τ).loc b) := fun c b => Gen.V6 m (outs m) c b

def pdats : (p : Fin 2) → (c : Dev nD) → Dat τ (Elt F) Unit ℕ (UR sig nD τ) ℕ (cfgs p) c
  | ⟨0, _⟩ => fun c => R0.dat0 (fun c b => Gen.V4 m c b) c
  | ⟨1, _⟩ => fun c => R1.dat1 (fun c b => Gen.V6 m (outs m) c b) c

/-- No core owes another anything: no level is assigned. -/
abbrev L : GSem nD τ sig → Finset Unit := fun _ => ∅
abbrev lv : GSem nD τ sig → Unit → ℕ := fun _ _ => 0
/-- What rides beside the buffers through every item: the generator register at some state, the dues at nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## Region 0's exit valuation -/

theorem pdats_zero (c : Dev nD) : pdats m 0 c = R0.dat0 (Vin0 m) c := rfl
theorem pdats_one (c : Dev nD) : pdats m 1 c = R1.dat1 (Vin1 m) c := rfl

/-- An input window's array at region 0's exit is as entered: never written back, and no input is main_v6. -/
theorem hF0_in (c : Dev nD) (w : Fin 5) (r : Ref sig .tc) (hin : (cfg0.win w).isOut = false) (hr : Pipeline.arrRef spec0 w = r)
    (hne : r ∉ ([main_v6] : List (Ref sig .tc))) :
    (R0.dat0 (Vin0 m) c).arrAt w cfg0.N = Gen.V5 m (outs m) c (Pipeline.arrRef spec0 w) := by
  subst hr
  exact ((R0.dat0 (Vin0 m) c).arrAt_in w hin _).trans ((R0.A_eq0 (Vin0 m) c w).trans (Gen.V5_of m (outs m) c _ hne).symm)

/-- Each array of region 0 at the exit valuation: an input's as entered, the output's at X6. -/
theorem hF0 (c : Dev nD) (w : Fin 5) : (pdats m 0 c).arrAt w cfg0.N = Gen.V5 m (outs m) c (Pipeline.arrRef spec0 w) := by
  rw [pdats_zero]
  match w with
  | 0 => exact hF0_in m c 0 main_arg0 rfl rfl (by decide)
  | 1 => exact hF0_in m c 1 main_v3 rfl rfl (by decide)
  | 2 => exact hF0_in m c 2 main_v4 rfl rfl (by decide)
  | 3 => exact hF0_in m c 3 main_v5 rfl rfl (by decide)
  | 4 => exact (V5_v6 m c).symm
  | ⟨_ + 5, h⟩ => exact absurd h (Nat.not_lt.2 (Nat.le_add_left _ _))

/-- Off region 0's arrays the exit valuation is the entry one: only main_v6 is updated. -/
theorem hrest0 (c : Dev nD) : ∀ b : Ref sig .tc, b ∉ Finset.univ.image (Pipeline.arrRef spec0) →
    Gen.V5 m (outs m) c b = Gen.V4 m c b := fun b hb =>
  Gen.V5_of m (outs m) c b fun hmem =>
    hb (Finset.mem_image.mpr ⟨4, Finset.mem_univ _, (List.mem_singleton.mp hmem).symm⟩)

/-! ## Region 1's exit valuation -/

theorem hF1_in (c : Dev nD) (w : Fin 3) (r : Ref sig .tc) (hin : (cfg1.win w).isOut = false) (hr : Pipeline.arrRef spec1 w = r)
    (hne : r ∉ ([main_v9] : List (Ref sig .tc))) :
    (R1.dat1 (Vin1 m) c).arrAt w cfg1.N = Gen.V7 m (outs m) c (Pipeline.arrRef spec1 w) := by
  subst hr
  exact ((R1.dat1 (Vin1 m) c).arrAt_in w hin _).trans ((R1.A_eq1 (Vin1 m) c w).trans (Gen.V7_of m (outs m) c _ hne).symm)

/-- Each array of region 1 at the exit valuation: an input's as entered, the output's at X9. -/
theorem hF1 (c : Dev nD) (w : Fin 3) : (pdats m 1 c).arrAt w cfg1.N = Gen.V7 m (outs m) c (Pipeline.arrRef spec1 w) := by
  rw [pdats_one]
  match w with
  | 0 => exact hF1_in m c 0 main_v6 rfl rfl (by decide)
  | 1 => exact hF1_in m c 1 main_v8 rfl rfl (by decide)
  | 2 => exact (V7_v9 m c).symm
  | ⟨_ + 3, h⟩ => exact absurd h (Nat.not_lt.2 (Nat.le_add_left _ _))

theorem hrest1 (c : Dev nD) : ∀ b : Ref sig .tc, b ∉ Finset.univ.image (Pipeline.arrRef spec1) →
    Gen.V7 m (outs m) c b = Gen.V6 m (outs m) c b := fun b hb =>
  Gen.V7_of m (outs m) c b fun hmem =>
    hb (Finset.mem_image.mpr ⟨2, Finset.mem_univ _, (List.mem_singleton.mp hmem).symm⟩)

/-! ## The regions as segments -/

set_option backward.isDefEq.respectTransparency.types false in
/-- Region 0 from the valuation after the fourth host stretch to the same with X6 in main_v6. Its invariant is the
    accumulators' recursion, reached from and returned to the class's resources (the scoped buffers no window
    stages and the generator register). -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (R0.body_obligation0 (fun c b => Gen.V4 m c b) c).loose
  hwaits := Pipeline.hwaits_of_owed_zero _ _ _ _ L lv 0 fun _ _ => rfl
  pre c := iprop(StableHlo.held (c : Thread nD τ) (Pipeline.ucRefs τ sig) (Gen.V4 m c) ∗ E 0 c)
  post c := iprop(StableHlo.held (c : Thread nD τ) (Pipeline.ucRefs τ sig) (Gen.V5 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (fun b => Gen.V4 m c b)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (fun b => Gen.V4 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin0 (Vin0 m) c)
    unfold Pipeline.ΦA
    iintro ⟨Hp, -, Hr⟩
    isplitl [Hr]; · iexact Hr
    iexact Hp
  hout c := by
    rw [Pipeline.ownSems0_none]
    refine BIBase.Entails.trans (R0.hout0 (Vin0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b => Gen.V4 m c b) (fun b => Gen.V5 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 from the valuation after the fifth host stretch to the same with X9 in main_v9; nothing is carried
    between its points, so its invariant is the class's. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (R1.body_obligation1 (fun c b => Gen.V6 m (outs m) c b) c).loose
  hwaits := Pipeline.hwaits_of_owed_zero _ _ _ _ L lv 1 fun _ _ => rfl
  pre c := iprop(StableHlo.held (c : Thread nD τ) (Pipeline.ucRefs τ sig) (Gen.V6 m (outs m) c) ∗ E 1 c)
  post c := iprop(StableHlo.held (c : Thread nD τ) (Pipeline.ucRefs τ sig) (Gen.V7 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (fun b => Gen.V6 m (outs m) c b)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (fun b => Gen.V6 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => Gen.V6 m (outs m) c b) (fun b => Gen.V7 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch's ghost element is the pipelines' own; no further ghost resource is dealt. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What rides along, made on each core from what the launch deals it: its generator register, its dues at nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : E (F := F) 2 c ⊢ (iprop(∃ W, owes (c : Thread nD τ) (0 : CellTallies nD τ sig Unit) W) : sProp 𝕄) := by
  iintro ⟨-, HO⟩; iexact HO

/-! ## The run -/

set_option backward.isDefEq.respectTransparency.types false in
/-- Every weakly fair execution of @main terminates with the six arguments as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () Variants.none L lv (fun _ _ => rfl) ρ (outs m) (pdats m) 0 (fun _ => iprop(emp))
    (initOf (Pipeline.cells cfgs cellOf_inj) (Pipeline.launchToks cfgs cellOf_inj)) hu₀ E (hE0 ρ) hE2
    (reg0 m) (fun _ => .rfl) (fun _ => .rfl) (reg1 m) (fun _ => .rfl) (fun _ => .rfl)

set_option backward.isDefEq.respectTransparency.types false in
/-- The same run read also at the result: main_v9 ends at the last valuation's contents, which are X9. The last
    thread state holds every unscoped buffer at that valuation, main_v9 among them. -/
theorem run_val (ρ : Dev nD → PrngReg) : θ_run defs (onTc (τ := τ) (main (F := F))) ⟨m, fun _ => 0, ρ⟩ (fun r => ∀ c : Dev nD,
      r.2.mem ((c.tc : Thread nD τ).loc main_v9) = Gen.V7 m (outs m) c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) Gen.adm (pdats m) () cellOf_inj emb₁ defs₀ Variants.none L lv m ρ main
    (Gen.segs m (outs m) Variants.none L lv E () (pdats m) (reg0 m) (reg1 m))
    (fun c Q => by
      rewrite [main_chain c, Pipeline.Seg.run_eq_chain,
        show (Gen.segs m (outs m) Variants.none L lv E () (pdats m) (reg0 m) (reg1 m) c).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    0 (fun _ _ => rfl) (fun _ => iprop(emp)) (initOf (Pipeline.cells cfgs cellOf_inj) (Pipeline.launchToks cfgs cellOf_inj)) hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V7 m (outs m) c))
    (hch := fun c => ⟨.rfl, .rfl, .rfl, .rfl, .rfl, .rfl, .rfl, sep_mono .rfl (hE2 c)⟩)
    (hinit := ?_)
    (QY := fun c s => s.mem ((c.tc : Thread nD τ).loc main_v9) = Gen.V7 m (outs m) c main_v9 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (Gen.V7 m (outs m) c) s') $$ [Hh HSI]
    · isplitl [Hh] <;> iassumption
    icases Hr with ⟨%h, HSI⟩
    imodintro
    isplitr
    · ipureintro
      exact ⟨h (Proc.devRef .tc main_v9) (Finset.mem_filter.mpr ⟨StableHlo.devRef_mem_tcRefs main_v9, by decide⟩),
        (h (Proc.devRef .tc main_arg0) (Finset.mem_filter.mpr ⟨StableHlo.devRef_mem_tcRefs main_arg0, by decide⟩)).trans (Gen.V7_main_arg0 m (outs m) c),
        (h (Proc.devRef .tc main_arg1) (Finset.mem_filter.mpr ⟨StableHlo.devRef_mem_tcRefs main_arg1, by decide⟩)).trans (Gen.V7_main_arg1 m (outs m) c),
        (h (Proc.devRef .tc main_arg2) (Finset.mem_filter.mpr ⟨StableHlo.devRef_mem_tcRefs main_arg2, by decide⟩)).trans (Gen.V7_main_arg2 m (outs m) c),
        (h (Proc.devRef .tc main_arg3) (Finset.mem_filter.mpr ⟨StableHlo.devRef_mem_tcRefs main_arg3, by decide⟩)).trans (Gen.V7_main_arg3 m (outs m) c),
        (h (Proc.devRef .tc main_arg4) (Finset.mem_filter.mpr ⟨StableHlo.devRef_mem_tcRefs main_arg4, by decide⟩)).trans (Gen.V7_main_arg4 m (outs m) c),
        (h (Proc.devRef .tc main_arg5) (Finset.mem_filter.mpr ⟨StableHlo.devRef_mem_tcRefs main_arg5, by decide⟩)).trans (Gen.V7_main_arg5 m (outs m) c)⟩
    · iexact HSI

end Cert.KernelIdeal.Run

end
-- ==== Proof.Spec.lean ====
/-
  The function both programs compute, over the extended reals, stated once with plain coordinates.

  Inputs: a matrix x (2048 rows, 32768 columns); for every column c a group-id word grp c and a weight wt c; for
  every group g an aggregation-type word agg g; a matrix Wm (1024 rows, 4096 columns).
  For a row b and a group g three reductions over the columns whose group id is g: the sum of x b c, the sum of
  x b c · wt c, and the number of c with x b c ≠ 0. The group's value is the first when agg g = 0, the indicator of
  "the count is positive" when agg g = 1, the second otherwise; it is clipped at zero, and the result is its product
  with the transpose of Wm: out b e = Σ_g max(y b g, 0) · Wm e g.

  The kernel reads the columns in their own order with the group ids and weights carried through the inverse of a
  permutation; the reference permutes the columns and keeps the ids and weights in place. `out_reindex` is the
  change of summation variable that joins the two.
-/
import Idealize.ShloMosaic.PureOps.Ideal
import Idealize.ShloMosaic.Lib.ValueIdx
import Idealize.ShloMosaic.Lib.SortFacts
import Mathlib.Algebra.BigOperators.Group.Finset.Basic
import Mathlib.Data.EReal.Basic

noncomputable section

namespace Cert.Spec

open Idealize.ShloMosaic

/-- 1 where the column's group-id word is group `g`, else 0. -/
def hot (a : BitVec 32) (g : Fin 4096) : EReal := if a = BitVec.ofNat 32 g.val then 1 else 0

/-- 1 where the entry is not zero, else 0. -/
def nz (v : EReal) : EReal := if v ≠ 0 then 1 else 0

variable (x : Fin 2048 → Fin 32768 → EReal) (grp : Fin 32768 → BitVec 32) (wt : Fin 32768 → EReal)
  (agg : Fin 4096 → BitVec 32) (Wm : Fin 1024 → Fin 4096 → EReal)

/-- The sum of row `b` over the columns of group `g`. -/
def sumG (b : Fin 2048) (g : Fin 4096) : EReal := ∑ c : Fin 32768, x b c * hot (grp c) g
/-- The weighted sum of row `b` over the columns of group `g`. -/
def wsumG (b : Fin 2048) (g : Fin 4096) : EReal := ∑ c : Fin 32768, (x b c * wt c) * hot (grp c) g
/-- The number of non-zero entries of row `b` among the columns of group `g`. -/
def nnzG (b : Fin 2048) (g : Fin 4096) : EReal := ∑ c : Fin 32768, nz (x b c) * hot (grp c) g

/-- The group's value by its aggregation type. -/
def yG (b : Fin 2048) (g : Fin 4096) : EReal :=
  if agg g = 0#32 then sumG x grp b g
  else if agg g = 1#32 then (if 0 < nnzG x grp b g then 1 else 0)
  else wsumG x grp wt b g

/-- The group's value clipped at zero. -/
def reluY (b : Fin 2048) (g : Fin 4096) : EReal := max (yG x grp wt agg b g) 0

/-- The result: the clipped group values times the transpose of `Wm`. -/
def out (b : Fin 2048) (e : Fin 1024) : EReal := ∑ g : Fin 4096, reluY x grp wt agg b g * Wm e g

/-- The stable sorting permutation of a rank-1 table of 32768 words under signed "less than": position `k` of the
    sorted table is the word at `sigma k`. -/
def sigma (permw : (⟨1, ![32768]⟩ : Shape).Idx → BitVec 32) : Fin 32768 → Fin 32768 :=
  sortedFrom (fun k k' => IntOp.cmpi .slt (permw (Shape.Idx.ofFin k)) (permw (Shape.Idx.ofFin k')) == 1#1)

theorem sigma_bijective (permw : (⟨1, ![32768]⟩ : Shape).Idx → BitVec 32) : Function.Bijective (sigma permw) :=
  ⟨sortedFrom_injective _, sortedFrom_surjective _⟩

/-- CHANGE OF VARIABLE. Let `s` be a bijection of the columns and `p` a map with `p (s c) = c`. Reading column `c`
    with the id and the weight found at `s c` gives the same result as reading column `p j` with the id and the
    weight found at `j`: each of the three reductions is a sum over all columns, re-indexed by `j = s c`. -/
theorem out_reindex (s p : Fin 32768 → Fin 32768) (hs : Function.Bijective s) (hp : ∀ c, p (s c) = c)
    (seg : Fin 32768 → BitVec 32) (we : Fin 32768 → EReal) (b : Fin 2048) (e : Fin 1024) :
    out x (fun c => seg (s c)) (fun c => we (s c)) agg Wm b e
      = out (fun b j => x b (p j)) seg we agg Wm b e := by
  have key : ∀ (f : Fin 32768 → Fin 32768 → EReal), (∑ c : Fin 32768, f c (s c)) = ∑ j : Fin 32768, f (p j) j := by
    intro f
    rw [← (Equiv.ofBijective s hs).sum_comp (fun j => f (p j) j)]
    exact Finset.sum_congr rfl fun c _ => by simp only [Equiv.ofBijective_apply, hp]
  unfold out reluY yG sumG wsumG nnzG
  refine Finset.sum_congr rfl fun g _ => ?_
  rw [key (fun c j => x b c * hot (seg j) g), key (fun c j => (x b c * we j) * hot (seg j) g),
    key (fun c j => nz (x b c) * hot (seg j) g)]

end Cert.Spec

end
-- ==== Proof.R1Value.lean ====
/-
  The value of region 1 of @main at the ideal values: after its four grid points the result array holds, at row `b`
  and column `e`, the sum over the 4096 groups `g` of the clipped group value at (`b`, `g`) times the transposed
  weight at (`g`, `e`). Each point multiplies one block of 512 rows by the whole weight matrix and writes the 512 × 1024
  product back as the same block of rows, and the four blocks of rows fill the 2048 rows. At the ideal values the
  change of float format is the identity and a product into a zero accumulator is the plain sum.
-/
import proofs.«416405_j7060926234901_1_alg».proof.Proof.R1
import Idealize.ShloMosaic.Lib.Pipeline.Value
import Idealize.ShloMosaic.Lib.ValueIdx
import Idealize.ShloMosaic.PureOps.Ideal.Laws

set_option maxRecDepth 16384

noncomputable section

namespace Cert.KernelIdeal.R1V

open Cert.KernelIdeal Cert.KernelIdeal.Gen Cert.KernelIdeal.R1
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The product of two arrays, index by index -/

/-- Rows of `A` against columns of `B`: at (`b`, `e`) the sum over `g` of `A (b, g) · B (g, e)`. -/
def rowsByCols (A : S2048x4096.Idx → EReal) (B : S4096x1024.Idx → EReal) : S2048x1024.Idx → EReal :=
  fun i => ∑ g : Fin 4096, A (ix2 (i 0) g) * B (ix2 g (i 1))

/-! ## The body's product at an index of its block

The matrix product's two operand indices at output index (`p`, `q`) and contraction position `g`: the left operand
is read at (`p`, `g`) and the right at (`g`, `q`). One fact per operand axis. -/

theorem lhs_row (i : S512x1024.Idx) (k : dot_S512x4096_S4096x1024_S512x1024_1_0_0_1_n_n.contr.Idx) :
    (dot_S512x4096_S4096x1024_S512x1024_1_0_0_1_n_n.lhsIdx i k 0).val = (i 0).val := by
  unfold DotDims.lhsIdx
  rw [dif_neg (show ¬(0 : Fin S512x4096.rank) ∈ dot_S512x4096_S4096x1024_S512x1024_1_0_0_1_n_n.lhsBatch by decide),
    dif_pos (show (0 : Fin S512x4096.rank) ∈ dot_S512x4096_S4096x1024_S512x1024_1_0_0_1_n_n.lhsNonContracting by decide)]
  rfl

theorem lhs_sum (i : S512x1024.Idx) (k : dot_S512x4096_S4096x1024_S512x1024_1_0_0_1_n_n.contr.Idx) :
    (dot_S512x4096_S4096x1024_S512x1024_1_0_0_1_n_n.lhsIdx i k 1).val = (k ⟨0, by decide⟩).val :=
  dot_S512x4096_S4096x1024_S512x1024_1_0_0_1_n_n.lhsIdx_val_of_single rfl i k

theorem rhs_sum (i : S512x1024.Idx) (k : dot_S512x4096_S4096x1024_S512x1024_1_0_0_1_n_n.contr.Idx) :
    (dot_S512x4096_S4096x1024_S512x1024_1_0_0_1_n_n.rhsIdx i k 0).val = (k ⟨0, by decide⟩).val :=
  dot_S512x4096_S4096x1024_S512x1024_1_0_0_1_n_n.rhsIdx_val_of_single rfl i k

theorem rhs_col (i : S512x1024.Idx) (k : dot_S512x4096_S4096x1024_S512x1024_1_0_0_1_n_n.contr.Idx) :
    (dot_S512x4096_S4096x1024_S512x1024_1_0_0_1_n_n.rhsIdx i k 1).val = (i 1).val := by
  unfold DotDims.rhsIdx
  rw [dif_neg (show ¬(1 : Fin S4096x1024.rank) ∈ dot_S512x4096_S4096x1024_S512x1024_1_0_0_1_n_n.rhsBatch by decide),
    dif_pos (show (1 : Fin S4096x1024.rank) ∈ dot_S512x4096_S4096x1024_S512x1024_1_0_0_1_n_n.rhsNonContracting by decide)]
  rfl

/-- The body's stored value at (`p`, `q`) of the block: the 512 × 4096 block against the 4096 × 1024 matrix. The two
    casts to the same shape are the identity, and the accumulator is zero. -/
theorem pay_apply (x0 : Vec Ideal S512x4096 .bf16) (x1 : Vec Ideal S4096x1024 .bf16) (p : Fin 512) (q : Fin 1024) :
    k1_pay1 (F := Ideal) x0 x1 (ix2 p q) = ∑ g : Fin 4096, x0 (ix2 p g) * x1 (ix2 g q) := by
  unfold k1_pay1
  simp only [shapeCast_self, matmul]
  rw [Ideal.matmul_constant_zero_apply,
    ← Equiv.sum_comp (contrEquiv1 dot_S512x4096_S4096x1024_S512x1024_1_0_0_1_n_n 4096 rfl rfl).symm]
  refine Finset.sum_congr rfl fun g _ => ?_
  have hg := contrEquiv1_symm_val dot_S512x4096_S4096x1024_S512x1024_1_0_0_1_n_n 4096 rfl rfl g
  have el : dot_S512x4096_S4096x1024_S512x1024_1_0_0_1_n_n.lhsIdx (ix2 p q) ((contrEquiv1 dot_S512x4096_S4096x1024_S512x1024_1_0_0_1_n_n 4096 rfl rfl).symm g) = ix2 p g :=
    funext fun a => Fin.ext (by
      match a with
      | ⟨0, _⟩ => exact lhs_row _ _
      | ⟨1, _⟩ => exact (lhs_sum _ _).trans hg)
  have er : dot_S512x4096_S4096x1024_S512x1024_1_0_0_1_n_n.rhsIdx (ix2 p q) ((contrEquiv1 dot_S512x4096_S4096x1024_S512x1024_1_0_0_1_n_n 4096 rfl rfl).symm g) = ix2 g q :=
    funext fun a => Fin.ext (by
      match a with
      | ⟨0, _⟩ => exact (rhs_sum _ _).trans hg
      | ⟨1, _⟩ => exact rhs_col _ _)
  rw [el, er]

/-- The same at any index of the block. -/
theorem pay_at (x0 : Vec Ideal S512x4096 .bf16) (x1 : Vec Ideal S4096x1024 .bf16) (j : S512x1024.Idx) :
    k1_pay1 (F := Ideal) x0 x1 j = ∑ g : Fin 4096, x0 (ix2 (j 0) g) * x1 (ix2 g (j 1)) := by
  obtain ⟨p, q, rfl⟩ : ∃ (p : Fin 512) (q : Fin 1024), j = ix2 p q := ⟨j 0, j 1, eq_ix2 j⟩
  exact pay_apply x0 x1 p q

/-- A block of rows against the whole matrix is the same block of rows of the product of the arrays: if the 512 × 4096
    block `x0` is row `j 0` of it where `A` is at row `i 0`, and the matrix `x1` is `B` at column `j 1` where `B` is at column
    `i 1`, the body's value at `j` is the product of `A` and `B` at `i`. -/
theorem pay_eq_rowsByCols (A : S2048x4096.Idx → EReal) (B : S4096x1024.Idx → EReal)
    (x0 : Vec Ideal S512x4096 .bf16) (x1 : Vec Ideal S4096x1024 .bf16) (j : S512x1024.Idx) (i : S2048x1024.Idx)
    (h0 : ∀ g : Fin 4096, x0 (ix2 (j 0) g) = A (ix2 (i 0) g))
    (h1 : ∀ g : Fin 4096, x1 (ix2 g (j 1)) = B (ix2 g (i 1))) :
    k1_pay1 (F := Ideal) x0 x1 j = rowsByCols A B i := by
  rw [pay_at]
  unfold rowsByCols
  exact Finset.sum_congr rfl fun g _ => by rw [h0 g, h1 g]

/-! ## From the blocks to the array

Where the three windows sit at a grid point: the rows' block and the result's block are both the `t`-th block of rows,
all columns; the weight matrix is one block at the origin. Decided over the four points. -/

theorem where1 : ∀ t : Fin cfg1.N,
    win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

theorem zeros2 : (![0, 0] : Fin 2 → Nat) = fun _ => 0 := funext fun a => by fin_cases a <;> rfl

/-- What point `t` writes back is the `t`-th block of rows of the product of the two arrays as the region finds them. -/
theorem flushed1_eq (c : Dev nD) (t : Fin cfg1.N) :
    (dat1 V c).flushed 2 t
      = ((cfg1.win 2).blk t).view.read (Elt Ideal) (rowsByCols (V c main_v6) (V c main_v8)) := by
  show (cfg1.win 2).cut (grid1.coords t) ((dat1 V c).after 2 t) = _
  rw [after1_2]
  unfold out1_2
  rw [View.canon_unit_zero zeros2]
  simp only [View.ld_unit_zero (S := S512x4096) zeros2, View.ld_unit_zero (S := S4096x1024) zeros2]
  obtain ⟨e0, e1, e2, e3, e4, e5⟩ := where1 t
  funext j
  show k1_pay1 (F := Ideal) (iblk1 V c 0 t) (iblk1 V c 1 t) j
      = rowsByCols (V c main_v6) (V c main_v8) (((cfg1.win 2).blk t).view.emb j)
  refine pay_eq_rowsByCols (V c main_v6) (V c main_v8) (iblk1 V c 0 t) (iblk1 V c 1 t) j
    (((cfg1.win 2).blk t).view.emb j) (fun g => ?_) (fun g => ?_)
  · show V c main_v6 (((cfg1.win 0).blk t).view.emb (ix2 (j 0) g)) = V c main_v6 (ix2 ((((cfg1.win 2).blk t).view.emb j) 0) g)
    refine congrArg (V c main_v6) ?_
    funext a; apply Fin.ext
    match a with
    | ⟨0, _⟩ =>
      show win1_0.index t (0 : Fin 2) * 512 + 1 * (j 0).val = win1_2.index t (0 : Fin 2) * 512 + 1 * (j 0).val
      omega
    | ⟨1, _⟩ =>
      show win1_0.index t (1 : Fin 2) * 4096 + 1 * g.val = g.val
      omega
  · show V c main_v8 (((cfg1.win 1).blk t).view.emb (ix2 g (j 1))) = V c main_v8 (ix2 g ((((cfg1.win 2).blk t).view.emb j) 1))
    refine congrArg (V c main_v8) ?_
    funext a; apply Fin.ext
    match a with
    | ⟨0, _⟩ =>
      show win1_1.index t (0 : Fin 2) * 4096 + 1 * g.val = g.val
      omega
    | ⟨1, _⟩ =>
      show win1_1.index t (1 : Fin 2) * 1024 + 1 * (j 1).val = win1_2.index t (1 : Fin 2) * 1024 + 1 * (j 1).val
      omega

/-- An index of the result array lies in point `t`'s block iff each coordinate is in the block's range on its axis. -/
theorem mem_blk1 (t : Fin cfg1.N) (i : S2048x1024.Idx) :
    i ∈ ((cfg1.win 2).blk t).view.set
      ↔ ∀ a : Fin 2, win1_2.index t a * S512x1024.size a ≤ (i a).val
          ∧ (i a).val < win1_2.index t a * S512x1024.size a + S512x1024.size a := by
  show i ∈ ((View.whole main_v9).slice (win1_2.rect t)).set ↔ _
  rw [View.set_slice_whole, Rect.mem_set_unit]
  exact Iff.rfl

/-- Every index of the result array is written back by some point: row `r` by point `r / 512`. -/
theorem cover1 (i : S2048x1024.Idx) :
    ∃ t : Fin cfg1.N, (cfg1.win 2).flush t = true ∧ i ∈ ((cfg1.win 2).blk t).view.set := by
  have hi0 : (i 0).val < 2048 := (i 0).isLt
  have hi1 : (i 1).val < 1024 := (i 1).isLt
  refine ⟨⟨(i 0).val / 512, by show (i 0).val / 512 < 4; omega⟩, flush1_2 _, ?_⟩
  rw [mem_blk1]
  obtain ⟨-, -, -, -, e4, e5⟩ := where1 ⟨(i 0).val / 512, by show (i 0).val / 512 < 4; omega⟩
  have e4' : win1_2.index ⟨(i 0).val / 512, by show (i 0).val / 512 < 4; omega⟩ (0 : Fin 2) = (i 0).val / 512 := e4
  intro a
  match a with
  | ⟨0, _⟩ =>
    show win1_2.index _ (0 : Fin 2) * 512 ≤ (i 0).val ∧ (i 0).val < win1_2.index _ (0 : Fin 2) * 512 + 512
    omega
  | ⟨1, _⟩ =>
    show win1_2.index _ (1 : Fin 2) * 1024 ≤ (i 1).val ∧ (i 1).val < win1_2.index _ (1 : Fin 2) * 1024 + 1024
    omega

/-- After the region the result array is the product of the two arrays it was given. -/
theorem arrAt1_eq (c : Dev nD) :
    (dat1 V c).arrAt 2 cfg1.N = rowsByCols (V c main_v6) (V c main_v8) :=
  (dat1 V c).arrAt_eq_of_cover 2 (rowsByCols (V c main_v6) (V c main_v8)) (fun t _ => flushed1_eq V c t) cover1

/-- The result array after region 1, at row `b` and column `e`: the sum over the groups of the clipped group value times
    the transposed weight, a product of extended reals. -/
theorem arrAt1_apply (c : Dev nD) (b : Fin 2048) (e : Fin 1024) :
    ((dat1 (F := Ideal) V c).arrAt 2 cfg1.N : S2048x1024.Idx → EReal) (ix2 b e)
      = ∑ g : Fin 4096, @HMul.hMul EReal EReal EReal instHMul
          ((V c main_v6 : S2048x4096.Idx → EReal) (ix2 b g)) ((V c main_v8 : S4096x1024.Idx → EReal) (ix2 g e)) := by
  rw [arrAt1_eq]
  rfl

end Cert.KernelIdeal.R1V

end
-- ==== Proof.R0Value.lean ====
/-
  Region 0 at the extended reals: the value of the output block the body stores at the last column tile.

  At a grid point (row tile bi, group tile gi, column tile si) each of the three accumulators gains the product of
  the point's block of x (resp. x times the column weights, resp. the indicator of x being non-zero) with the 0/1
  matrix whose (k, q) entry says that column si * 1024 + k belongs to group gi * 1024 + q. Summed over the column
  tiles 0 .. si this is the sum over the columns below (si + 1) * 1024; at si = 31 it is the sum over every column, and
  the stored block is, entry by entry, the group value selected by the aggregation word and clipped at zero.
-/
import proofs.«416405_j7060926234901_1_alg».proof.Proof.R0Defs
import proofs.«416405_j7060926234901_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R0V

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## Sums over the column tiles -/

/-- The sum of the first `n` of 32 tile terms. -/
def upTo (T : Fin 32 → EReal) (n : ℕ) : EReal := ∑ a : Fin 32, if a.val < n then T a else 0

theorem upTo_zero (T : Fin 32 → EReal) : upTo T 0 = 0 :=
  Finset.sum_eq_zero fun a _ => if_neg (Nat.not_lt_zero _)

theorem upTo_succ (T : Fin 32 → EReal) (n : ℕ) (hn : n < 32) : upTo T (n + 1) = upTo T n + T ⟨n, hn⟩ := by
  unfold upTo
  have key : ∀ a : Fin 32, (if a.val < n + 1 then T a else 0)
      = (if a.val < n then T a else 0) + (if a = ⟨n, hn⟩ then T a else 0) := by
    intro a
    by_cases h1 : a.val < n
    · rw [if_pos h1, if_pos (Nat.lt_succ_of_lt h1), if_neg (fun h => by subst h; exact Nat.lt_irrefl _ h1), add_zero]
    · by_cases h2 : a = ⟨n, hn⟩
      · rw [if_neg h1, if_pos h2, if_pos (by subst h2; exact Nat.lt_succ_self n), zero_add]
      · rw [if_neg h1, if_neg h2, if_neg (fun h => h2 (Fin.ext (show a.val = n by omega))), add_zero]
  rw [Finset.sum_congr rfl fun a _ => key a, Finset.sum_add_distrib, Finset.sum_ite_eq' Finset.univ (⟨n, hn⟩ : Fin 32) T,
    if_pos (Finset.mem_univ _)]

theorem upTo_full (T : Fin 32 → EReal) : upTo T 32 = ∑ a : Fin 32, T a :=
  Finset.sum_congr rfl fun a _ => if_pos a.isLt

/-- The 32768 columns are 32 tiles of 1024. -/
theorem sum_tiles (f : Fin 32768 → EReal) :
    (∑ a : Fin 32, ∑ k : Fin 1024, f ⟨a.val * 1024 + k.val, by have := a.isLt; have := k.isLt; omega⟩)
      = ∑ j : Fin 32768, f j := by
  rw [← Equiv.sum_comp (finProdFinEquiv (m := 32) (n := 1024)) f, Fintype.sum_prod_type]
  refine Finset.sum_congr rfl fun a _ => Finset.sum_congr rfl fun k _ => congrArg f (Fin.ext ?_)
  show a.val * 1024 + k.val = k.val + 1024 * a.val
  omega

/-! ## Words and bits -/

theorem cmpi_eq_word (a b : BitVec 32) : IntOp.cmpi .eq a b = if a = b then 1#1 else 0#1 := by
  by_cases h : a = b
  · subst h; simp [IntOp.cmpi]
  · rw [if_neg h]
    show BitVec.ofBool (a == b) = 0#1
    rw [beq_false_of_ne h]
    rfl

theorem bit_one_f : (FloatOps.sitofp (F := Ideal) .f32 ((1#1 : BitVec 1).setWidth 32) : EReal) = 1 := by
  show ((((1#1 : BitVec 1).setWidth 32).toInt : ℝ) : EReal) = 1
  rw [show ((1#1 : BitVec 1).setWidth 32).toInt = 1 by decide]
  simp

theorem bit_zero_f : (FloatOps.sitofp (F := Ideal) .f32 ((0#1 : BitVec 1).setWidth 32) : EReal) = 0 := by
  show ((((0#1 : BitVec 1).setWidth 32).toInt : ℝ) : EReal) = 0
  rw [show ((0#1 : BitVec 1).setWidth 32).toInt = 0 by decide]
  simp

/-- The 0/1 entry of the membership matrix: a word equality, widened and converted. -/
theorem hot_word (a b : BitVec 32) :
    (FloatOps.sitofp (F := Ideal) .f32 ((IntOp.cmpi .eq a b).setWidth 32) : EReal) = if a = b then 1 else 0 := by
  rw [cmpi_eq_word]
  by_cases h : a = b
  · rw [if_pos h, if_pos h]; exact bit_one_f
  · rw [if_neg h, if_neg h]; exact bit_zero_f

/-- The tile's first group id plus the lane, as one word. -/
theorem group_word (gi q : ℕ) :
    IntOp.addi (Scalar.muli (BitVec.ofNat 32 gi) 1024#32) (BitVec.ofNat 32 q) = BitVec.ofNat 32 (gi * 1024 + q) := by
  show BitVec.ofNat 32 gi * 1024#32 + BitVec.ofNat 32 q = _
  rw [BitVec.ofNat_add, BitVec.ofNat_mul]

/-! ## The body's matrix product at an entry -/

theorem lhs_dot0_0 (i : S512x1024.Idx) (p : dot_S512x1024_S1024x1024_S512x1024_1_0_0_1_n_n.contr.Idx) :
    (dot_S512x1024_S1024x1024_S512x1024_1_0_0_1_n_n.lhsIdx i p 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_dot0_1 (i : S512x1024.Idx) (p : dot_S512x1024_S1024x1024_S512x1024_1_0_0_1_n_n.contr.Idx) :
    (dot_S512x1024_S1024x1024_S512x1024_1_0_0_1_n_n.lhsIdx i p 1).val = (p ⟨0, by decide⟩).val :=
  dot_S512x1024_S1024x1024_S512x1024_1_0_0_1_n_n.lhsIdx_val_of_single rfl i p
theorem rhs_dot0_0 (i : S512x1024.Idx) (p : dot_S512x1024_S1024x1024_S512x1024_1_0_0_1_n_n.contr.Idx) :
    (dot_S512x1024_S1024x1024_S512x1024_1_0_0_1_n_n.rhsIdx i p 0).val = (p ⟨0, by decide⟩).val :=
  dot_S512x1024_S1024x1024_S512x1024_1_0_0_1_n_n.rhsIdx_val_of_single rfl i p
theorem rhs_dot0_1 (i : S512x1024.Idx) (p : dot_S512x1024_S1024x1024_S512x1024_1_0_0_1_n_n.contr.Idx) :
    (dot_S512x1024_S1024x1024_S512x1024_1_0_0_1_n_n.rhsIdx i p 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Into the zero accumulator, entry (r, q) of the product is the sum over the 1024 inner positions. -/
theorem matmul0_apply {φ₁ φ₂ : FTy} (lhs : FVec Ideal S512x1024 φ₁) (rhs : FVec Ideal S1024x1024 φ₂) (r : Fin 512) (q : Fin 1024) :
    (matmul dot_S512x1024_S1024x1024_S512x1024_1_0_0_1_n_n none lhs rhs (constant (F := Ideal) S512x1024 .f32 0x00000000#32) : FVec Ideal S512x1024 .f32) (ix2 r q)
      = ∑ k : Fin 1024, lhs (ix2 r k) * rhs (ix2 k q) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r q) ((contrEquiv1 dot_S512x1024_S1024x1024_S512x1024_1_0_0_1_n_n 1024 rfl rfl).symm k) = ix2 r k := funext fun a => Fin.ext (by
    match a with
    | ⟨0, _⟩ => exact lhs_dot0_0 _ _
    | ⟨1, _⟩ => exact (lhs_dot0_1 _ _).trans hk)
  have er : dot_S512x1024_S1024x1024_S512x1024_1_0_0_1_n_n.rhsIdx (ix2 r q) ((contrEquiv1 dot_S512x1024_S1024x1024_S512x1024_1_0_0_1_n_n 1024 rfl rfl).symm k) = ix2 k q := funext fun a => Fin.ext (by
    match a with
    | ⟨0, _⟩ => exact (rhs_dot0_0 _ _).trans hk
    | ⟨1, _⟩ => exact rhs_dot0_1 _ _)
  rw [el, er]

/-! ## The body's payloads at an entry -/

theorem zero_word : (Scalar.ofBits (F := Ideal) .f32 0x00000000#32 : EReal) = 0 := Ideal.ofBits_zero_f32

/-- A column of 1024 entries repeated along the rows reads, at (k, q), its entry k. -/
theorem bcast_col_apply {α : Type} (v : S1024x1.Idx → α) (h : S1024x1.Broadcasts S1024x1024) (k q : Fin 1024) :
    broadcastTo S1024x1024 v h (ix2 k q) = v (ix2 k (0 : Fin 1)) := by
  refine broadcastTo_apply v h (ix2 k q) (ix2 k (0 : Fin 1)) fun ax => ?_
  match ax with
  | ⟨0, _⟩ => rfl
  | ⟨1, _⟩ => rfl

/-- A word equality, widened, converted and narrowed, entry by entry. -/
theorem hot_vec (A B : IVec S1024x1024 32) (j : S1024x1024.Idx) :
    (truncf (F := Ideal) .bf16 (sitofp .f32 (extui 32 (cmpi .eq A B) natLt_1_32)) bitsLt_bf16_f32 : FVec Ideal S1024x1024 .bf16) j
      = if A j = B j then 1 else 0 := hot_word (A j) (B j)

/-- The membership matrix of a point: entry (k, q) is 1 where the k-th group id of the tile is the group
    (group tile) * 1024 + q, else 0. -/
theorem pay7_apply (i : grid0.Coords) (g : Vec Ideal S1x1024 .i32) (k q : Fin 1024) :
    (k0_pay7 (F := Ideal) i g : S1024x1024.Idx → EReal) (ix2 k q)
      = if (g : S1x1024.Idx → BitVec 32) (ix2 0 k) = BitVec.ofNat 32 ((i 1).val * 1024 + q.val) then 1 else 0 := by
  unfold k0_pay7
  dsimp only
  refine (hot_vec _ _ (ix2 k q)).trans ?_
  have hA : broadcastTo S1024x1024 (transpose S1024x1 [1, 0] (shapeCast S1x1024 (g : S1x1024.Idx → BitVec 32) shapeCasts_S1x1024_S1x1024) transposes_S1x1024_p1_0_S1024x1) broadcasts_S1024x1_S1024x1024 (ix2 k q)
      = (g : S1x1024.Idx → BitVec 32) (ix2 0 k) := by
    refine (bcast_col_apply _ _ k q).trans ?_
    refine (transpose_ix2_apply _ _ k (0 : Fin 1)).trans ?_
    rw [shapeCast_self]
  have hB : broadcastTo S1024x1024 (addi (broadcast S1x1024 (Scalar.muli (BitVec.ofNat 32 (i 1).val) 1024#32)) (iota .tc S1x1024 32 [1] iota_S1x1024_d1_w32)) broadcasts_S1x1024_S1024x1024 (ix2 k q)
      = BitVec.ofNat 32 ((i 1).val * 1024 + q.val) := by
    refine (broadcastTo_1b_ab_apply _ _ k q).trans ?_
    show IntOp.addi (Scalar.muli (BitVec.ofNat 32 (i 1).val) 1024#32) (iota .tc S1x1024 32 [1] iota_S1x1024_d1_w32 (ix2 0 q)) = _
    rw [iota_single_apply]
    exact group_word _ _
  rw [hA, hB]

/-- That entry is the indicator the specification uses, at the group (group tile) * 1024 + q. -/
theorem pay7_hot (i : grid0.Coords) (g : Vec Ideal S1x1024 .i32) (k q : Fin 1024) (G : Fin 4096) (hG : G.val = (i 1).val * 1024 + q.val) :
    (k0_pay7 (F := Ideal) i g : S1024x1024.Idx → EReal) (ix2 k q) = Spec.hot ((g : S1x1024.Idx → BitVec 32) (ix2 0 k)) G := by
  rw [pay7_apply, Spec.hot, hG]

/-- The non-zero indicator of a block, entry by entry. -/
theorem pay8_apply (x : Vec Ideal S512x1024 .f32) (r : Fin 512) (k : Fin 1024) :
    (k0_pay8 (F := Ideal) x : S512x1024.Idx → EReal) (ix2 r k) = Spec.nz ((x : S512x1024.Idx → EReal) (ix2 r k)) := by
  unfold k0_pay8
  show (FloatOps.sitofp (F := Ideal) .f32 ((Ideal.cmp .one ((x : S512x1024.Idx → EReal) (ix2 r k)) (Scalar.ofBits (F := Ideal) .f32 0x00000000#32)).setWidth 32) : EReal) = _
  rw [zero_word]
  unfold Spec.nz Ideal.cmp
  by_cases h : (x : S512x1024.Idx → EReal) (ix2 r k) ≠ 0
  · rw [if_pos h, decide_eq_true h]; exact bit_one_f
  · rw [if_neg h, decide_eq_false h]; exact bit_zero_f

/-- A reset leaves zero in every entry of the three accumulators. -/
theorem zero0_apply (j : S512x1024.Idx) :
    ((R0.zero0 (F := Ideal)).1 : S512x1024.Idx → EReal) j = 0 ∧ ((R0.zero0 (F := Ideal)).2.1 : S512x1024.Idx → EReal) j = 0
      ∧ ((R0.zero0 (F := Ideal)).2.2 : S512x1024.Idx → EReal) j = 0 := by
  refine ⟨?_, ?_, ?_⟩
  · show (k0_pay4 (F := Ideal) : S512x1024.Idx → EReal) j = 0
    unfold k0_pay4; rw [shapeCast_self]; exact zero_word
  · show (k0_pay5 (F := Ideal) : S512x1024.Idx → EReal) j = 0
    unfold k0_pay5; rw [shapeCast_self]; exact zero_word
  · show (k0_pay6 (F := Ideal) : S512x1024.Idx → EReal) j = 0
    unfold k0_pay6; rw [shapeCast_self]; exact zero_word

/-- The sum accumulator's update: plus the block of x times the membership matrix. -/
theorem pay9_apply (i : grid0.Coords) (x : Vec Ideal S512x1024 .f32) (g : Vec Ideal S1x1024 .i32) (s : Vec Ideal S512x1024 .f32)
    (r : Fin 512) (q : Fin 1024) :
    (k0_pay9 (F := Ideal) i x g s : S512x1024.Idx → EReal) (ix2 r q)
      = (s : S512x1024.Idx → EReal) (ix2 r q)
        + ∑ k : Fin 1024, (x : S512x1024.Idx → EReal) (ix2 r k) * (k0_pay7 (F := Ideal) i g : S1024x1024.Idx → EReal) (ix2 k q) := by
  unfold k0_pay9
  refine (congrFun (shapeCast_self _ _) (ix2 r q)).trans ?_
  exact congrArg ((s : S512x1024.Idx → EReal) (ix2 r q) + ·)
    (matmul0_apply (truncf (F := Ideal) .bf16 x bitsLt_bf16_f32) (k0_pay7 (F := Ideal) i g) r q)

/-- The weighted accumulator's update: plus the block of x times the weights, times the membership matrix. -/
theorem pay10_apply (i : grid0.Coords) (x : Vec Ideal S512x1024 .f32) (g : Vec Ideal S1x1024 .i32) (w : Vec Ideal S1x1024 .f32)
    (s : Vec Ideal S512x1024 .f32) (r : Fin 512) (q : Fin 1024) :
    (k0_pay1 (F := Ideal) (k0_pay10 (F := Ideal) i x g w s) : S512x1024.Idx → EReal) (ix2 r q)
      = (s : S512x1024.Idx → EReal) (ix2 r q)
        + ∑ k : Fin 1024, ((x : S512x1024.Idx → EReal) (ix2 r k) * (w : S1x1024.Idx → EReal) (ix2 0 k))
            * (k0_pay7 (F := Ideal) i g : S1024x1024.Idx → EReal) (ix2 k q) := by
  unfold k0_pay1 k0_pay10
  dsimp only
  refine (congrFun (shapeCast_self _ _) (ix2 r q)).trans ?_
  refine (congrArg ((s : S512x1024.Idx → EReal) (ix2 r q) + ·)
    (matmul0_apply (truncf (F := Ideal) .bf16 (mulf x (broadcastTo S512x1024 (shapeCast S1x1024 w shapeCasts_S1x1024_S1x1024) broadcasts_S1x1024_S512x1024)) bitsLt_bf16_f32) (k0_pay7 (F := Ideal) i g) r q)).trans ?_
  refine congrArg ((s : S512x1024.Idx → EReal) (ix2 r q) + ·) (Finset.sum_congr rfl fun k _ => ?_)
  show ((x : S512x1024.Idx → EReal) (ix2 r k) * broadcastTo S512x1024 (shapeCast S1x1024 (w : S1x1024.Idx → EReal) shapeCasts_S1x1024_S1x1024) broadcasts_S1x1024_S512x1024 (ix2 r k)) * _ = _
  rw [broadcastTo_1b_ab_apply, shapeCast_self]

/-- The count accumulator's update: plus the non-zero indicator of the block of x times the membership matrix. -/
theorem pay2_apply (i : grid0.Coords) (x : Vec Ideal S512x1024 .f32) (g : Vec Ideal S1x1024 .i32) (s : Vec Ideal S512x1024 .f32)
    (r : Fin 512) (q : Fin 1024) :
    (k0_pay2 (F := Ideal) (k0_pay7 (F := Ideal) i g) (k0_pay8 (F := Ideal) x) s : S512x1024.Idx → EReal) (ix2 r q)
      = (s : S512x1024.Idx → EReal) (ix2 r q)
        + ∑ k : Fin 1024, Spec.nz ((x : S512x1024.Idx → EReal) (ix2 r k)) * (k0_pay7 (F := Ideal) i g : S1024x1024.Idx → EReal) (ix2 k q) := by
  unfold k0_pay2
  refine (congrFun (shapeCast_self _ _) (ix2 r q)).trans ?_
  refine (congrArg ((s : S512x1024.Idx → EReal) (ix2 r q) + ·)
    (matmul0_apply (k0_pay8 (F := Ideal) x) (k0_pay7 (F := Ideal) i g) r q)).trans ?_
  exact congrArg ((s : S512x1024.Idx → EReal) (ix2 r q) + ·) (Finset.sum_congr rfl fun k _ => by rw [pay8_apply])

/-- The stored block, entry by entry: the accumulator the aggregation word selects (0: the sum; 1: whether the count
    is positive; otherwise the weighted sum), clipped at zero. -/
theorem pick_vec (A : IVec S512x1024 32) (s1 cnt s2 : FVec Ideal S512x1024 .f32) (j : S512x1024.Idx) :
    (truncf (F := Ideal) .bf16 (maximumf (select (cmpi .eq A (broadcast S512x1024 0#32)) s1
        (select (cmpi .eq A (broadcast S512x1024 1#32))
          (sitofp .f32 (extui 32 (cmpf .ogt cnt (broadcast S512x1024 (Scalar.ofBits (F := Ideal) .f32 0x00000000#32))) natLt_1_32)) s2))
        (broadcast S512x1024 (Scalar.ofBits (F := Ideal) .f32 0x00000000#32))) bitsLt_bf16_f32 : FVec Ideal S512x1024 .bf16) j
      = max (if A j = 0#32 then s1 j else if A j = 1#32 then (if (0 : EReal) < cnt j then 1 else 0) else s2 j) 0 := by
  show max (Scalar.select (IntOp.cmpi .eq (A j) 0#32) (s1 j) (Scalar.select (IntOp.cmpi .eq (A j) 1#32)
      (FloatOps.sitofp (F := Ideal) .f32 ((BitVec.ofBool (decide ((Scalar.ofBits (F := Ideal) .f32 0x00000000#32 : EReal) < cnt j))).setWidth 32)) (s2 j)))
      (Scalar.ofBits (F := Ideal) .f32 0x00000000#32 : EReal) = _
  rw [zero_word, cmpi_eq_word, cmpi_eq_word]
  have hc : (FloatOps.sitofp (F := Ideal) .f32 ((BitVec.ofBool (decide ((0 : EReal) < cnt j))).setWidth 32) : EReal)
      = if (0 : EReal) < cnt j then 1 else 0 := by
    by_cases h : (0 : EReal) < cnt j
    · rw [if_pos h, decide_eq_true h]; exact bit_one_f
    · rw [if_neg h, decide_eq_false h]; exact bit_zero_f
  rw [hc]
  by_cases h0 : A j = 0#32
  · simp only [if_pos h0, select_one]
  · by_cases h1 : A j = 1#32
    · simp only [if_neg h0, if_pos h1, select_one, select_zero]
    · simp only [if_neg h0, if_neg h1, select_zero]

theorem pay3_apply (a : Vec Ideal S1x1024 .i32) (s1 cnt s2 : Vec Ideal S512x1024 .f32) (r : Fin 512) (q : Fin 1024) :
    (k0_pay3 (F := Ideal) a s1 cnt s2 : S512x1024.Idx → EReal) (ix2 r q)
      = max (if (a : S1x1024.Idx → BitVec 32) (ix2 0 q) = 0#32 then (s1 : S512x1024.Idx → EReal) (ix2 r q)
          else if (a : S1x1024.Idx → BitVec 32) (ix2 0 q) = 1#32 then (if (0 : EReal) < (cnt : S512x1024.Idx → EReal) (ix2 r q) then 1 else 0)
          else (s2 : S512x1024.Idx → EReal) (ix2 r q)) 0 := by
  unfold k0_pay3
  refine (pick_vec _ _ _ _ (ix2 r q)).trans ?_
  have hA : broadcastTo S512x1024 (shapeCast S1x1024 (shapeCast S1x1024 (a : S1x1024.Idx → BitVec 32) shapeCasts_S1x1024_S1x1024) shapeCasts_S1x1024_S1x1024) broadcasts_S1x1024_S512x1024 (ix2 r q)
      = (a : S1x1024.Idx → BitVec 32) (ix2 0 q) := by
    refine (broadcastTo_1b_ab_apply _ _ r q).trans ?_
    rw [shapeCast_self, shapeCast_self]
  rw [hA]

/-! ## One point's update of the three accumulators, entry by entry -/

/-- With G the group (group tile) * 1024 + q: each accumulator gains, over the tile's 1024 columns, its term times the
    indicator that the column's group id is G. -/
theorem step0_apply (i : grid0.Coords) (x : Vec Ideal S512x1024 .f32) (g : Vec Ideal S1x1024 .i32) (w : Vec Ideal S1x1024 .f32)
    (S : R0.Acc Ideal) (r : Fin 512) (q : Fin 1024) (G : Fin 4096) (hG : G.val = (i 1).val * 1024 + q.val) :
    ((R0.step0 (F := Ideal) i x g w S).1 : S512x1024.Idx → EReal) (ix2 r q)
        = (S.1 : S512x1024.Idx → EReal) (ix2 r q)
          + ∑ k : Fin 1024, (x : S512x1024.Idx → EReal) (ix2 r k) * Spec.hot ((g : S1x1024.Idx → BitVec 32) (ix2 0 k)) G
    ∧ ((R0.step0 (F := Ideal) i x g w S).2.1 : S512x1024.Idx → EReal) (ix2 r q)
        = (S.2.1 : S512x1024.Idx → EReal) (ix2 r q)
          + ∑ k : Fin 1024, ((x : S512x1024.Idx → EReal) (ix2 r k) * (w : S1x1024.Idx → EReal) (ix2 0 k))
              * Spec.hot ((g : S1x1024.Idx → BitVec 32) (ix2 0 k)) G
    ∧ ((R0.step0 (F := Ideal) i x g w S).2.2 : S512x1024.Idx → EReal) (ix2 r q)
        = (S.2.2 : S512x1024.Idx → EReal) (ix2 r q)
          + ∑ k : Fin 1024, Spec.nz ((x : S512x1024.Idx → EReal) (ix2 r k)) * Spec.hot ((g : S1x1024.Idx → BitVec 32) (ix2 0 k)) G := by
  refine ⟨?_, ?_, ?_⟩
  · refine (pay9_apply i x g S.1 r q).trans ?_
    exact congrArg ((S.1 : S512x1024.Idx → EReal) (ix2 r q) + ·) (Finset.sum_congr rfl fun k _ => by rw [pay7_hot i g k q G hG])
  · refine (pay10_apply i x g w S.2.1 r q).trans ?_
    exact congrArg ((S.2.1 : S512x1024.Idx → EReal) (ix2 r q) + ·) (Finset.sum_congr rfl fun k _ => by rw [pay7_hot i g k q G hG])
  · refine (pay2_apply i x g S.2.2 r q).trans ?_
    exact congrArg ((S.2.2 : S512x1024.Idx → EReal) (ix2 r q) + ·) (Finset.sum_congr rfl fun k _ => by rw [pay7_hot i g k q G hG])

/-! ## The grid's coordinates and the windows' block indices -/

/-- Point t is (row tile t / 128, group tile t / 32 mod 4, column tile t mod 32). -/
theorem coords0 : ∀ t : Fin cfg0.N, (grid0.coords t 0).val = t.val / 128 ∧ (grid0.coords t 1).val = t.val / 32 % 4
    ∧ (grid0.coords t 2).val = t.val % 32 :=
  (by decide +kernel : ∀ t : Fin grid0.N, (grid0.coords t 0).val = t.val / 128 ∧ (grid0.coords t 1).val = t.val / 32 % 4
    ∧ (grid0.coords t 2).val = t.val % 32)

theorem idx0_0 : ∀ t : Fin cfg0.N, win0_0.index t 0 = t.val / 128 ∧ win0_0.index t 1 = t.val % 32 :=
  (by decide +kernel : ∀ t : Fin grid0.N, win0_0.index t 0 = t.val / 128 ∧ win0_0.index t 1 = t.val % 32)
theorem idx0_1 : ∀ t : Fin cfg0.N, win0_1.index t 0 = 0 ∧ win0_1.index t 1 = t.val % 32 :=
  (by decide +kernel : ∀ t : Fin grid0.N, win0_1.index t 0 = 0 ∧ win0_1.index t 1 = t.val % 32)
theorem idx0_2 : ∀ t : Fin cfg0.N, win0_2.index t 0 = 0 ∧ win0_2.index t 1 = t.val % 32 :=
  (by decide +kernel : ∀ t : Fin grid0.N, win0_2.index t 0 = 0 ∧ win0_2.index t 1 = t.val % 32)
theorem idx0_3 : ∀ t : Fin cfg0.N, win0_3.index t 0 = 0 ∧ win0_3.index t 1 = t.val / 32 % 4 :=
  (by decide +kernel : ∀ t : Fin grid0.N, win0_3.index t 0 = 0 ∧ win0_3.index t 1 = t.val / 32 % 4)

/-! ## The input blocks read off their arrays: a block's coordinate is index * size + the coordinate inside -/

variable (V : (c : Dev nD) → (b : Ref sig .tc) → Buf (Elt Ideal) ((c : Thread nD τ).loc b))

theorem xblk_apply (c : Dev nD) (t : Fin cfg0.N) (r : Fin 512) (k : Fin 1024) (b : Fin 2048) (j : Fin 32768)
    (hb : b.val = t.val / 128 * 512 + r.val) (hj : j.val = t.val % 32 * 1024 + k.val) :
    (R0.iblk0 (F := Ideal) V c 0 t : S512x1024.Idx → EReal) (ix2 r k) = (V c main_arg0 : S2048x32768.Idx → EReal) (ix2 b j) := by
  unfold R0.iblk0
  rw [View.read_apply]
  show V c main_arg0 _ = V c main_arg0 _
  congr 1
  funext a
  apply Fin.ext
  match a with
  | ⟨0, _⟩ => show win0_0.index t 0 * 512 + 1 * r.val = b.val; rw [(idx0_0 t).1, hb]; omega
  | ⟨1, _⟩ => show win0_0.index t 1 * 1024 + 1 * k.val = j.val; rw [(idx0_0 t).2, hj]; omega

theorem gblk_apply (c : Dev nD) (t : Fin cfg0.N) (k : Fin 1024) (j : Fin 32768) (hj : j.val = t.val % 32 * 1024 + k.val) :
    (R0.iblk0 (F := Ideal) V c 1 t : S1x1024.Idx → BitVec 32) (ix2 0 k) = (V c main_v3 : S1x32768.Idx → BitVec 32) (ix2 0 j) := by
  unfold R0.iblk0
  rw [View.read_apply]
  show V c main_v3 _ = V c main_v3 _
  congr 1
  funext a
  apply Fin.ext
  match a with
  | ⟨0, _⟩ => show win0_1.index t 0 * 1 + 1 * 0 = 0; rw [(idx0_1 t).1]
  | ⟨1, _⟩ => show win0_1.index t 1 * 1024 + 1 * k.val = j.val; rw [(idx0_1 t).2, hj]; omega

theorem wblk_apply (c : Dev nD) (t : Fin cfg0.N) (k : Fin 1024) (j : Fin 32768) (hj : j.val = t.val % 32 * 1024 + k.val) :
    (R0.iblk0 (F := Ideal) V c 2 t : S1x1024.Idx → EReal) (ix2 0 k) = (V c main_v4 : S1x32768.Idx → EReal) (ix2 0 j) := by
  unfold R0.iblk0
  rw [View.read_apply]
  show V c main_v4 _ = V c main_v4 _
  congr 1
  funext a
  apply Fin.ext
  match a with
  | ⟨0, _⟩ => show win0_2.index t 0 * 1 + 1 * 0 = 0; rw [(idx0_2 t).1]
  | ⟨1, _⟩ => show win0_2.index t 1 * 1024 + 1 * k.val = j.val; rw [(idx0_2 t).2, hj]; omega

theorem ablk_apply (c : Dev nD) (t : Fin cfg0.N) (q : Fin 1024) (G : Fin 4096) (hG : G.val = t.val / 32 % 4 * 1024 + q.val) :
    (R0.iblk0 (F := Ideal) V c 3 t : S1x1024.Idx → BitVec 32) (ix2 0 q) = (V c main_v5 : S1x4096.Idx → BitVec 32) (ix2 0 G) := by
  unfold R0.iblk0
  rw [View.read_apply]
  show V c main_v5 _ = V c main_v5 _
  congr 1
  funext a
  apply Fin.ext
  match a with
  | ⟨0, _⟩ => show win0_3.index t 0 * 1 + 1 * 0 = 0; rw [(idx0_3 t).1]
  | ⟨1, _⟩ => show win0_3.index t 1 * 1024 + 1 * q.val = G.val; rw [(idx0_3 t).2, hG]; omega

/-! ## The three accumulators after every point -/

/-- Column tile `a`'s share of the sum of row `b` over group `G`. -/
def tile1 (x : Fin 2048 → Fin 32768 → EReal) (grp : Fin 32768 → BitVec 32) (b : Fin 2048) (G : Fin 4096) (a : Fin 32) : EReal :=
  ∑ k : Fin 1024, x b ⟨a.val * 1024 + k.val, by have := a.isLt; have := k.isLt; omega⟩
    * Spec.hot (grp ⟨a.val * 1024 + k.val, by have := a.isLt; have := k.isLt; omega⟩) G
/-- Its share of the weighted sum. -/
def tile2 (x : Fin 2048 → Fin 32768 → EReal) (grp : Fin 32768 → BitVec 32) (wt : Fin 32768 → EReal) (b : Fin 2048) (G : Fin 4096)
    (a : Fin 32) : EReal :=
  ∑ k : Fin 1024, (x b ⟨a.val * 1024 + k.val, by have := a.isLt; have := k.isLt; omega⟩
      * wt ⟨a.val * 1024 + k.val, by have := a.isLt; have := k.isLt; omega⟩)
    * Spec.hot (grp ⟨a.val * 1024 + k.val, by have := a.isLt; have := k.isLt; omega⟩) G
/-- Its share of the non-zero count. -/
def tile3 (x : Fin 2048 → Fin 32768 → EReal) (grp : Fin 32768 → BitVec 32) (b : Fin 2048) (G : Fin 4096) (a : Fin 32) : EReal :=
  ∑ k : Fin 1024, Spec.nz (x b ⟨a.val * 1024 + k.val, by have := a.isLt; have := k.isLt; omega⟩)
    * Spec.hot (grp ⟨a.val * 1024 + k.val, by have := a.isLt; have := k.isLt; omega⟩) G

theorem sum_tile1 (x : Fin 2048 → Fin 32768 → EReal) (grp : Fin 32768 → BitVec 32) (b : Fin 2048) (G : Fin 4096) :
    ∑ a : Fin 32, tile1 x grp b G a = Spec.sumG x grp b G := by
  unfold tile1 Spec.sumG
  exact sum_tiles (fun j => x b j * Spec.hot (grp j) G)
theorem sum_tile2 (x : Fin 2048 → Fin 32768 → EReal) (grp : Fin 32768 → BitVec 32) (wt : Fin 32768 → EReal) (b : Fin 2048) (G : Fin 4096) :
    ∑ a : Fin 32, tile2 x grp wt b G a = Spec.wsumG x grp wt b G := by
  unfold tile2 Spec.wsumG
  exact sum_tiles (fun j => (x b j * wt j) * Spec.hot (grp j) G)
theorem sum_tile3 (x : Fin 2048 → Fin 32768 → EReal) (grp : Fin 32768 → BitVec 32) (b : Fin 2048) (G : Fin 4096) :
    ∑ a : Fin 32, tile3 x grp b G a = Spec.nnzG x grp b G := by
  unfold tile3 Spec.nnzG
  exact sum_tiles (fun j => Spec.nz (x b j) * Spec.hot (grp j) G)

/-- The arrays the region reads, by plain coordinates. -/
abbrev X (c : Dev nD) : Fin 2048 → Fin 32768 → EReal := fun b j => (V c main_arg0 : S2048x32768.Idx → EReal) (ix2 b j)
abbrev Gr (c : Dev nD) : Fin 32768 → BitVec 32 := fun j => (V c main_v3 : S1x32768.Idx → BitVec 32) (ix2 0 j)
abbrev Wt (c : Dev nD) : Fin 32768 → EReal := fun j => (V c main_v4 : S1x32768.Idx → EReal) (ix2 0 j)
abbrev Ag (c : Dev nD) : Fin 4096 → BitVec 32 := fun g => (V c main_v5 : S1x4096.Idx → BitVec 32) (ix2 0 g)

/-- At point `p`, every entry (r, q) of the three accumulators `A` holds the first `n` tile shares of row
    (row tile) * 512 + r and group (group tile) * 1024 + q. -/
def AccIs (c : Dev nD) (p n : ℕ) (A : R0.Acc Ideal) : Prop :=
  ∀ (r : Fin 512) (q : Fin 1024) (b : Fin 2048) (G : Fin 4096), b.val = p / 128 * 512 + r.val → G.val = p / 32 % 4 * 1024 + q.val →
    (A.1 : S512x1024.Idx → EReal) (ix2 r q) = upTo (tile1 (X V c) (Gr V c) b G) n
    ∧ (A.2.1 : S512x1024.Idx → EReal) (ix2 r q) = upTo (tile2 (X V c) (Gr V c) (Wt V c) b G) n
    ∧ (A.2.2 : S512x1024.Idx → EReal) (ix2 r q) = upTo (tile3 (X V c) (Gr V c) b G) n

theorem AccIs_zero (c : Dev nD) (p : ℕ) : AccIs V c p 0 (R0.zero0 (F := Ideal)) := by
  intro r q b G _ _
  rw [upTo_zero, upTo_zero, upTo_zero]
  exact zero0_apply (ix2 r q)

/-- One point adds its own column tile's shares. -/
theorem AccIs_point (c : Dev nD) (t : Fin cfg0.N) (S : R0.Acc Ideal) (hS : AccIs V c t.val (t.val % 32) S) :
    AccIs V c t.val (t.val % 32 + 1)
      (R0.step0 (F := Ideal) (grid0.coords t) (R0.iblk0 V c 0 t) (R0.iblk0 V c 1 t) (R0.iblk0 V c 2 t) S) := by
  intro r q b G hb hG
  have hG' : G.val = (grid0.coords t 1).val * 1024 + q.val := by rw [(coords0 t).2.1]; exact hG
  have hlt : t.val % 32 < 32 := Nat.mod_lt _ (by decide)
  obtain ⟨h1, h2, h3⟩ := step0_apply (grid0.coords t) (R0.iblk0 (F := Ideal) V c 0 t) (R0.iblk0 (F := Ideal) V c 1 t)
    (R0.iblk0 (F := Ideal) V c 2 t) S r q G hG'
  obtain ⟨s1, s2, s3⟩ := hS r q b G hb hG
  refine ⟨?_, ?_, ?_⟩
  · rw [h1, s1, upTo_succ _ _ hlt]
    refine congrArg (_ + ·) ?_
    unfold tile1
    exact Finset.sum_congr rfl fun k _ => congrArg₂ (· * ·) (xblk_apply V c t r k b _ hb rfl)
      (congrArg (Spec.hot · G) (gblk_apply V c t k _ rfl))
  · rw [h2, s2, upTo_succ _ _ hlt]
    refine congrArg (_ + ·) ?_
    unfold tile2
    exact Finset.sum_congr rfl fun k _ => congrArg₂ (· * ·)
      (congrArg₂ (· * ·) (xblk_apply V c t r k b _ hb rfl) (wblk_apply V c t k _ rfl))
      (congrArg (Spec.hot · G) (gblk_apply V c t k _ rfl))
  · rw [h3, s3, upTo_succ _ _ hlt]
    refine congrArg (_ + ·) ?_
    unfold tile3
    exact Finset.sum_congr rfl fun k _ => congrArg₂ (· * ·) (congrArg Spec.nz (xblk_apply V c t r k b _ hb rfl))
      (congrArg (Spec.hot · G) (gblk_apply V c t k _ rfl))

/-- After point n the accumulators hold the shares of the column tiles 0 .. n mod 32: a reset at the first column
    tile, one more tile at every other point, with the row tile and the group tile unchanged in between. -/
theorem acc_inv (c : Dev nD) : ∀ (n : ℕ) (hn : n < cfg0.N), AccIs V c n (n % 32 + 1) (R0.accAt0 (F := Ideal) V c n hn) := by
  intro n
  induction n with
  | zero =>
    intro hn
    rw [R0.accAt0_reset V c ⟨0, hn⟩ rfl]
    exact AccIs_point V c ⟨0, hn⟩ R0.zero0 (AccIs_zero V c 0)
  | succ n ih =>
    intro hn
    by_cases h : (n + 1) % 32 = 0
    · rw [R0.accAt0_reset V c ⟨n + 1, hn⟩ h]
      refine AccIs_point V c ⟨n + 1, hn⟩ R0.zero0 ?_
      show AccIs V c (n + 1) ((n + 1) % 32) R0.zero0
      rw [h]
      exact AccIs_zero V c (n + 1)
    · rw [R0.accAt0_step V c ⟨n + 1, hn⟩ h]
      refine AccIs_point V c ⟨n + 1, hn⟩ _ ?_
      show AccIs V c (n + 1) ((n + 1) % 32) (R0.accAt0 (F := Ideal) V c n (Nat.lt_of_succ_lt hn))
      have e : (n + 1) % 32 = n % 32 + 1 := by omega
      rw [e]
      intro r q b G hb hG
      exact ih (Nat.lt_of_succ_lt hn) r q b G (by omega) (by omega)

/-! ## The stored block -/

/-- At the last column tile the accumulators hold the three full reductions, and the stored block's entry (r, q) is
    the clipped group value of row (row tile) * 512 + r and group (group tile) * 1024 + q. -/
theorem outAt0_apply (c : Dev nD) (t : Fin cfg0.N) (ht : t.val % 32 = 31) (r : Fin 512) (q : Fin 1024) :
    (R0.outAt0 (F := Ideal) V c t : S512x1024.Idx → EReal) (ix2 r q)
      = Spec.reluY (fun b j => (V c main_arg0 : S2048x32768.Idx → EReal) (ix2 b j))
          (fun j => (V c main_v3 : S1x32768.Idx → BitVec 32) (ix2 0 j))
          (fun j => (V c main_v4 : S1x32768.Idx → EReal) (ix2 0 j))
          (fun g => (V c main_v5 : S1x4096.Idx → BitVec 32) (ix2 0 g))
          ⟨(t.val / 128) * 512 + r.val, by have := t.isLt; have := N_0; have := r.isLt; simp only [Cfg.N] at *; omega⟩
          ⟨(t.val / 32 % 4) * 1024 + q.val, by have := q.isLt; omega⟩ := by
  have h32 : t.val % 32 + 1 = 32 := by omega
  obtain ⟨s1, s2, s3⟩ := acc_inv V c t.val t.isLt r q
    ⟨(t.val / 128) * 512 + r.val, by have := t.isLt; have := N_0; have := r.isLt; simp only [Cfg.N] at *; omega⟩
    ⟨(t.val / 32 % 4) * 1024 + q.val, by have := q.isLt; omega⟩ rfl rfl
  unfold R0.outAt0
  refine (pay3_apply (R0.iblk0 (F := Ideal) V c 3 t) (R0.accAt0 (F := Ideal) V c t.val t.isLt).1
    (R0.accAt0 (F := Ideal) V c t.val t.isLt).2.2 (R0.accAt0 (F := Ideal) V c t.val t.isLt).2.1 r q).trans ?_
  rw [s1, s2, s3, ablk_apply V c t q ⟨(t.val / 32 % 4) * 1024 + q.val, by have := q.isLt; omega⟩ rfl, h32,
    upTo_full, upTo_full, upTo_full, sum_tile1, sum_tile2, sum_tile3]
  rfl

end Cert.KernelIdeal.R0V

end
-- ==== Proof.R0Array.lean ====
/-
  Region 0, from the stored blocks to the output array. The output window's block (512 rows of 1024 groups) sits at
  row tile bi and group tile gi, and the pipeline writes it back exactly at the last column tile of each (bi, gi),
  that is at the points t ≡ 31 (mod 32), where bi = t / 128 and gi = t / 32 % 4. These sixteen blocks tile the
  2048 × 4096 array. So if at each such point the stored block is the restriction of one function of (row, group)
  to the block's rectangle, the array after the run is that function.
-/
import proofs.«416405_j7060926234901_1_alg».proof.Proof.R0Defs
import Idealize.ShloMosaic.Lib.Pipeline.Value
import Idealize.ShloMosaic.Lib.ValueIdx

noncomputable section

namespace Cert.KernelIdeal.R0A

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- The grid has 512 points. -/
theorem pt_lt (t : Fin cfg0.N) : t.val < 512 := t.isLt.trans_eq N_0

/-- A row of the block at point t is a row of the array. -/
theorem row_lt (t : Fin cfg0.N) (r : Fin 512) : t.val / 128 * 512 + r.val < 2048 := by
  have := pt_lt t; have := r.isLt; omega

/-- A group of the block at point t is a group of the array. -/
theorem col_lt (t : Fin cfg0.N) (q : Fin 1024) : t.val / 32 % 4 * 1024 + q.val < 4096 := by
  have := q.isLt; omega

/-- The block index of the output window at point t: the row tile and the group tile of the point. -/
theorem idx_out : ∀ t : Fin cfg0.N, win0_4.index t (0 : Fin 2) = t.val / 128 ∧ win0_4.index t (1 : Fin 2) = t.val / 32 % 4 :=
  (by decide +kernel : ∀ t : Fin grid0.N, _)

/-- A function of (row, group) as contents of the output array. -/
def arrOf (Gf : Fin 2048 → Fin 4096 → Elt F .bf16) : S2048x4096.Idx → Elt F .bf16 :=
  fun i => Gf ⟨(i 0).val, idx2_lt0 i⟩ ⟨(i 1).val, idx2_lt1 i⟩

theorem arrOf_apply (Gf : Fin 2048 → Fin 4096 → Elt F .bf16) (b : Fin 2048) (g : Fin 4096) :
    arrOf Gf (ix2 b g) = Gf b g := rfl

/-- What a writing point writes back is its block of the function: the element (r, q) of the block at point t sits
    in the array at row (t / 128) · 512 + r and group (t / 32 % 4) · 1024 + q. -/
theorem flushed_eq (c : Dev nD) (Gf : Fin 2048 → Fin 4096 → Elt F .bf16)
    (h : ∀ (t : Fin cfg0.N), t.val % 32 = 31 → ∀ (r : Fin 512) (q : Fin 1024),
        (R0.outAt0 (F := F) V c t : S512x1024.Idx → Elt F .bf16) (ix2 r q)
          = Gf ⟨t.val / 128 * 512 + r.val, row_lt t r⟩ ⟨t.val / 32 % 4 * 1024 + q.val, col_lt t q⟩)
    (t : Fin cfg0.N) (hf : (cfg0.win 4).flush t = true) :
    (R0.dat0 (F := F) V c).flushed 4 t = ((cfg0.win 4).blk t).view.read (Elt F) (arrOf Gf) := by
  have ht : t.val % 32 = 31 := (flush0_4 t).mp hf
  obtain ⟨e0, e1⟩ := idx_out t
  show (cfg0.win 4).cut (grid0.coords t) ((R0.dat0 (F := F) V c).after 4 t) = _
  rw [R0.after0_4]
  funext (y : S512x1024.Idx)
  obtain ⟨r, q, rfl⟩ : ∃ (r : Fin 512) (q : Fin 1024), y = ix2 r q := ⟨y 0, y 1, eq_ix2 y⟩
  show R0.outAt0 (F := F) V c t (ix2 r q) = arrOf Gf (((cfg0.win 4).blk t).view.emb (ix2 r q))
  rw [h t ht r q]
  refine congrArg₂ Gf (Fin.ext ?_) (Fin.ext ?_)
  · show t.val / 128 * 512 + r.val = win0_4.index t (0 : Fin 2) * 512 + 1 * r.val
    omega
  · show t.val / 32 % 4 * 1024 + q.val = win0_4.index t (1 : Fin 2) * 1024 + 1 * q.val
    omega

/-- An index of the array is in the block of point t iff each coordinate is in the block's range on its axis. -/
theorem mem_blk (t : Fin cfg0.N) (i : S2048x4096.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v6).slice (win0_4.rect t)).set ↔ _
  rw [View.set_slice_whole, Rect.mem_set_unit]
  exact Iff.rfl

/-- The sixteen written blocks tile the array: (b, g) lies in the block of the last column tile of row tile b / 512
    and group tile g / 1024. -/
theorem cover (i : S2048x4096.Idx) :
    ∃ t : Fin cfg0.N, (cfg0.win 4).flush t = true ∧ i ∈ ((cfg0.win 4).blk t).view.set := by
  have hi0 : (i 0).val < 2048 := idx2_lt0 i
  have hi1 : (i 1).val < 4096 := idx2_lt1 i
  have hN : ((i 0).val / 512 * 4 + (i 1).val / 1024) * 32 + 31 < cfg0.N := by
    rw [show cfg0.N = 512 from N_0]; omega
  obtain ⟨t, tv⟩ : ∃ t : Fin cfg0.N, t.val = ((i 0).val / 512 * 4 + (i 1).val / 1024) * 32 + 31 := ⟨⟨_, hN⟩, rfl⟩
  obtain ⟨e0, e1⟩ := idx_out t
  refine ⟨t, (flush0_4 t).mpr (by omega), ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 1024 ≤ (i 1).val ∧ (i 1).val < win0_4.index t (1 : Fin 2) * 1024 + 1024
    omega

/-- The output array after the run is the function, everywhere. -/
theorem arrAt0_eq (c : Dev nD) (Gf : Fin 2048 → Fin 4096 → Elt F .bf16)
    (h : ∀ (t : Fin cfg0.N), t.val % 32 = 31 → ∀ (r : Fin 512) (q : Fin 1024),
        (R0.outAt0 (F := F) V c t : S512x1024.Idx → Elt F .bf16) (ix2 r q)
          = Gf ⟨t.val / 128 * 512 + r.val, row_lt t r⟩ ⟨t.val / 32 % 4 * 1024 + q.val, col_lt t q⟩) :
    (R0.dat0 (F := F) V c).arrAt 4 cfg0.N = arrOf Gf :=
  (R0.dat0 (F := F) V c).arrAt_eq_of_cover 4 (arrOf Gf) (flushed_eq V c Gf h) cover

/-- Read at an index: for every float instance. -/
theorem arrAt0_of_blocks' (c : Dev nD) (Gf : Fin 2048 → Fin 4096 → Elt F .bf16)
    (h : ∀ (t : Fin cfg0.N), t.val % 32 = 31 → ∀ (r : Fin 512) (q : Fin 1024),
        (R0.outAt0 (F := F) V c t : S512x1024.Idx → Elt F .bf16) (ix2 r q)
          = Gf ⟨t.val / 128 * 512 + r.val, row_lt t r⟩ ⟨t.val / 32 % 4 * 1024 + q.val, col_lt t q⟩)
    (b : Fin 2048) (g : Fin 4096) :
    ((R0.dat0 (F := F) V c).arrAt 4 cfg0.N : S2048x4096.Idx → Elt F .bf16) (ix2 b g) = Gf b g :=
  (congrFun (arrAt0_eq V c Gf h) (ix2 b g)).trans (arrOf_apply Gf b g)

/-- Read at an index, over the extended reals. -/
theorem arrAt0_of_blocks (V : (c : Dev nD) → (b : Ref sig .tc) → Buf (Elt Ideal) ((c : Thread nD τ).loc b))
    (c : Dev nD) (Gf : Fin 2048 → Fin 4096 → EReal)
    (h : ∀ (t : Fin cfg0.N), t.val % 32 = 31 → ∀ (r : Fin 512) (q : Fin 1024),
        (R0.outAt0 (F := Ideal) V c t : S512x1024.Idx → EReal) (ix2 r q)
          = Gf ⟨t.val / 128 * 512 + r.val, row_lt t r⟩ ⟨t.val / 32 % 4 * 1024 + q.val, col_lt t q⟩)
    (b : Fin 2048) (g : Fin 4096) :
    ((R0.dat0 (F := Ideal) V c).arrAt 4 cfg0.N : S2048x4096.Idx → EReal) (ix2 b g) = Gf b g :=
  arrAt0_of_blocks' (F := Ideal) V c Gf h b g

end Cert.KernelIdeal.R0A

end
-- ==== Proof.HostVals.lean ====
/-
  What the kernel's host stretches compute, read at an index.

  Before region 0 the host sorts the permutation words carrying the identity table along (an argsort: position j of the
  carried table ends holding sigma j, the position the j-th smallest word came from), takes the group ids and the
  weights at those positions, and adds a leading unit axis to the two taken tables and to the aggregation types. So
  region 0 sees, at column j, the group id and the weight found at position sigma j, and the aggregation types
  unchanged. Between the regions the host transposes the weight matrix (and changes its format, which at the extended
  reals is the identity): region 1 sees W transposed.

  Each stretch's result is stated for an arbitrary valuation it starts from. The sort enters only through the equation
  "position j of its carried table holds the word sigma j", and the take is read over a variable table of index words
  each below 32768.
-/
import proofs.«416405_j7060926234901_1_alg».proof.Proof.Gen.KernelIdeal.Regions
import proofs.«416405_j7060926234901_1_alg».proof.Proof.Spec
import Idealize.ShloMosaic.Lib.SortFacts
import Idealize.ShloMosaic.Lib.ValueIdx
import Idealize.ShloMosaic.Lib.ValueLayout
import Idealize.ShloMosaic.Lib.StableHlo.Run
import Idealize.ShloMosaic.Lib.StableHlo.Predicate

set_option maxRecDepth 16384

noncomputable section

namespace Cert.KernelIdeal.HostV

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]

/-! ## Indices -/

/-- The two ways of writing the rank-1 index at coordinate `k` agree. -/
theorem ix1_eq_ofFin {n : Nat} (k : Fin n) : (ix1 k : (⟨1, ![n]⟩ : Shape).Idx) = Shape.Idx.ofFin k := by
  funext d
  match d with
  | ⟨0, _⟩ => exact Fin.ext rfl

/-- Every index of an [n × 1] column is a row of it. -/
theorem eq_ixP {n : Nat} (i : (⟨2, ![n, 1]⟩ : Shape).Idx) : i = Predicate.ixP (i 0) := by
  funext a
  match a with
  | ⟨0, _⟩ => rfl
  | ⟨1, _⟩ => exact Subsingleton.elim (α := Fin 1) _ _

/-! ## The argsort

A sort of two rank-1 tables carried together reads both through one self-map of the positions, the sorting
permutation of the comparator on the pairs. -/

/-- The second table of a rank-1 two-operand stable sort, at position `j`: the second operand at the position the
    sorting permutation of the pairs sends `j` to. -/
theorem sort2_snd_rank1 {n : Nat} {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- The comparator of the argsort compares the keys (the first components) by signed "less than". -/
theorem comparator2_eq (l r : BitVec 32 × BitVec 32) : comparator_i32_i32_d0 l r = IntOp.cmpi .slt l.1 r.1 := rfl

/-- THE ARGSORT AT A POSITION: sorting the words `pw` with the identity table carried along leaves, at position `j`
    of the carried table, the position `sigma j` the `j`-th smallest word came from. -/
theorem argsort_apply (pw : (⟨1, ![32768]⟩ : Shape).Idx → BitVec 32) (j : Fin 32768) :
    (Host.sort2 ⟨1, ![32768]⟩ 0 comparator_i32_i32_d0 pw (iotaInDim ⟨1, ![32768]⟩ 32 0)).2 (Shape.Idx.ofFin j)
      = BitVec.ofNat 32 (Spec.sigma pw j).val := by
  rw [sort2_snd_rank1, Predicate.iota_apply, Shape.Idx.ofFin_zero]
  rfl

/-! ## A reduction by "and" of ones is one -/

theorem foldl_andi_ones {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a, show IntOp.andi 1#1 1#1 = 1#1 from by decide]
    exact ih

/-- A `stablehlo.reduce` by "and", from the constant 1, of an array of ones is 1 at every result index. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x hx _

/-! ## Small non-negative index words -/

theorem small_lt {w : BitVec 32} (hw : w.toNat < 32768) : w.toNat < 2 ^ 31 := by omega

/-- A word below 32768 is not negative, -/
theorem not_neg_of_small {w : BitVec 32} (hw : w.toNat < 32768) : ¬ IntOp.cmpi .slt w 0#32 = 1#1 := by
  rw [Predicate.slt_iff_toNat (small_lt hw) (by decide)]
  exact Nat.not_lt_zero _
/-- is at least 0, -/
theorem sge_zero_of_small {w : BitVec 32} (hw : w.toNat < 32768) : IntOp.cmpi .sge w 0#32 = 1#1 :=
  (Predicate.sge_iff_toNat (small_lt hw) (by decide)).mpr (Nat.zero_le _)
/-- is at most 32767, -/
theorem sle_max_of_small {w : BitVec 32} (hw : w.toNat < 32768) : IntOp.cmpi .sle w 32767#32 = 1#1 :=
  (Predicate.sle_iff_toNat (small_lt hw) (by decide)).mpr (by
    have : (32767#32 : BitVec 32).toNat = 32767 := by decide
    omega)
/-- and read signed and clamped into 0 … 32767 it is its value. -/
theorem clamp_of_small {w : BitVec 32} (hw : w.toNat < 32768) : min w.toInt.toNat (32768 - 1) = w.toNat := by
  rw [Predicate.toInt_eq_toNat_of_lt (small_lt hw), Int.toNat_natCast]
  omega

/-! ## The take

`tab[iw]` as the host computes it. A negative index word is wrapped by adding 32768; the wrapped words are laid out as a
32768 × 1 column; the test `0 ≤ i ≤ 32767` on the column is reduced by "and" over its unit axis; the gather reads the
table at the index (read signed, clamped into 0 … 32767); a position whose test failed reads the fill. When every index
word is below 32768 the wrap is the identity, every test passes, the clamp does nothing, and position `j` of the result
is the table at the value of the `j`-th index word. -/

/-- The index words with the negative ones wrapped. -/
def wrapOf (iw : IVec S32768 32) : IVec S32768 32 :=
  select (cmpi .slt iw (broadcastInDim S32768 ![] bcast_S_S32768 (constantI S_ 32 0#32)))
    (addi iw (broadcastInDim S32768 ![] bcast_S_S32768 (constantI S_ 32 32768#32))) iw

/-- The wrapped index words as a column. -/
def colOf (iw : IVec S32768 32) : IVec S32768x1 32 :=
  broadcastInDim S32768x1 ![0] bcast_S32768_S32768x1_0 (wrapOf iw)

/-- The in-range test, reduced over the column's unit axis. -/
def okOf (iw : IVec S32768 32) : IVec S32768 1 :=
  Host.reduce IntOp.andi
    (andi
      (cmpi .sge (colOf iw) (broadcastInDim S32768x1 ![] bcast_S_S32768x1 (constantI S_ 32 0#32)))
      (cmpi .sle (colOf iw) (broadcastInDim S32768x1 ![0, 1] bcast_S1x1_S32768x1_0_1
        (broadcastInDim S1x1 ![1] bcast_S1_S1x1_1 (constantI S1 32 32767#32)))))
    (constantI S_ 1 1#1) reducesTo_S32768x1_S32768_d1 h_S_

/-- The take of `tab` at the index words `iw`, out-of-range positions reading `fill`. -/
def takeOf {α : Type} (iw : IVec S32768 32) (tab fill : S32768.Idx → α) : S32768.Idx → α :=
  select (okOf iw) (Host.gather gather_S32768_S32768x1_S32768_n_0_n_n_0_1_1 tab (colOf iw)) fill

section
variable (iw : IVec S32768 32) (hall : ∀ p : Fin 32768, (iw (Shape.Idx.ofFin p)).toNat < 32768)
include hall

/-- No index word is negative: the wrap changes nothing. -/
theorem wrapOf_eq : wrapOf iw = iw := by
  funext i
  obtain ⟨p, rfl⟩ : ∃ p, i = Shape.Idx.ofFin p := ⟨i 0, Shape.Idx.eq_ofFin i⟩
  exact if_neg (not_neg_of_small (hall p))

/-- Row `i` of the column is the index word at `i`'s row coordinate. -/
theorem colOf_apply (i : S32768x1.Idx) : colOf iw i = iw (Shape.Idx.ofFin (i 0)) := by
  unfold colOf
  rw [wrapOf_eq iw hall]
  obtain ⟨p, rfl⟩ : ∃ p, i = Predicate.ixP p := ⟨i 0, eq_ixP i⟩
  exact Predicate.bcast_col1 _ iw p

/-- Every row passes the in-range test, so its reduction is 1 everywhere. -/
theorem okOf_apply (j : S32768.Idx) : okOf iw j = 1#1 := by
  unfold okOf
  refine reduce_andi_ones _ _ _ _ rfl (fun i => ?_) j
  show IntOp.andi (IntOp.cmpi .sge (colOf iw i) 0#32) (IntOp.cmpi .sle (colOf iw i) 32767#32) = 1#1
  rw [colOf_apply iw hall i]
  exact IntOp.andi_eq_one.mpr ⟨sge_zero_of_small (hall _), sle_max_of_small (hall _)⟩

/-- THE TAKE AT A POSITION: the table at the value of that position's index word. -/
theorem takeOf_apply {α : Type} (tab fill : S32768.Idx → α) (j : Fin 32768) :
    takeOf iw tab fill (Shape.Idx.ofFin j) = tab (Shape.Idx.ofFin ⟨(iw (Shape.Idx.ofFin j)).toNat, hall j⟩) := by
  show Scalar.select (okOf iw (Shape.Idx.ofFin j))
    (Host.gather gather_S32768_S32768x1_S32768_n_0_n_n_0_1_1 tab (colOf iw) (Shape.Idx.ofFin j)) (fill (Shape.Idx.ofFin j)) = _
  rw [okOf_apply iw hall, select_one]
  refine (Predicate.gather_take gather_S32768_S32768x1_S32768_n_0_n_n_0_1_1 rfl rfl rfl rfl tab (colOf iw) j (by decide)).trans ?_
  refine congrArg tab (congrArg Shape.Idx.ofFin (Fin.ext ?_))
  show min (colOf iw (Predicate.ixP j)).toInt.toNat (32768 - 1) = (iw (Shape.Idx.ofFin j)).toNat
  rw [colOf_apply iw hall]
  exact clamp_of_small (hall j)

end

/-! ## What each host stretch leaves, from any valuation it starts from -/

section Stretches
variable (W : Valuation τ sig (Elt F))

/-- The argsort stretch leaves the carried identity table, sorted along with the permutation words. -/
theorem after0_v0 :
    (StableHlo.after hostOps0 W (Proc.devRef .tc main_v0) : IVec S32768 32)
      = (Host.sort2 S32768 0 comparator_i32_i32_d0 (W (Proc.devRef .tc main_arg3) : IVec S32768 32)
          (iotaInDim S32768 32 0)).2 := by
  simp only [hostOps0]
  after_results
  simp only [TRef.ofBuf, TRef.toBuf, cast_eq]

set_option maxHeartbeats 1000000 in
/-- The first take stretch leaves the group ids taken at the argsort's table. -/
theorem after0_1_v1 :
    (StableHlo.after hostOps0_1 W (Proc.devRef .tc main_v1) : IVec S32768 32)
      = takeOf (W (Proc.devRef .tc main_v0) : IVec S32768 32) (W (Proc.devRef .tc main_arg4) : IVec S32768 32)
          (broadcastInDim S32768 ![] bcast_S_S32768 (constantI S_ 32 2147483648#32)) := by
  simp only [hostOps0_1]
  after_results
  simp only [TRef.ofBuf, TRef.toBuf, cast_eq]
  rfl

set_option maxHeartbeats 1000000 in
/-- The second take stretch leaves the weights taken at the argsort's table. -/
theorem after0_2_v2 :
    (StableHlo.after hostOps0_2 W (Proc.devRef .tc main_v2) : FVec F S32768 .f32)
      = takeOf (W (Proc.devRef .tc main_v0) : IVec S32768 32) (W (Proc.devRef .tc main_arg2) : FVec F S32768 .f32)
          (broadcastInDim S32768 ![] bcast_S_S32768 (constant (F := F) S_ .f32 0x7FC00000#32)) := by
  simp only [hostOps0_2]
  after_results
  simp only [TRef.ofBuf, TRef.toBuf, cast_eq]
  rfl

/-- The reshapes: a leading unit axis on the taken group ids, -/
theorem after0_3_v3 :
    (StableHlo.after hostOps0_3 W (Proc.devRef .tc main_v3) : IVec S1x32768 32)
      = shapeCast S1x32768 (W (Proc.devRef .tc main_v1) : IVec S32768 32) shapeCasts_S32768_S1x32768 := by
  simp only [hostOps0_3]
  after_results
  rfl
/-- on the taken weights, -/
theorem after0_3_v4 :
    (StableHlo.after hostOps0_3 W (Proc.devRef .tc main_v4) : FVec F S1x32768 .f32)
      = shapeCast S1x32768 (W (Proc.devRef .tc main_v2) : FVec F S32768 .f32) shapeCasts_S32768_S1x32768 := by
  simp only [hostOps0_3]
  after_results
  rfl
/-- and on the aggregation types. -/
theorem after0_3_v5 :
    (StableHlo.after hostOps0_3 W (Proc.devRef .tc main_v5) : IVec S1x4096 32)
      = shapeCast S1x4096 (W (Proc.devRef .tc main_arg5) : IVec S4096 32) shapeCasts_S4096_S1x4096 := by
  simp only [hostOps0_3]
  after_results
  rfl

/-- The stretch between the regions leaves the weight matrix transposed, in the narrower format. -/
theorem after1_v8 :
    (StableHlo.after hostOps1 W (Proc.devRef .tc main_v8) : FVec F S4096x1024 .bf16)
      = truncf .bf16 (transpose S4096x1024 [1, 0] (W (Proc.devRef .tc main_arg1) : FVec F S1024x4096 .f32)
          transposes_S1024x4096_S4096x1024_1_0) bitsLt_bf16_f32 := by
  simp only [hostOps1]
  after_results

end Stretches

/-! ## The take through a table of positions -/

theorem toNat_ofNat_fin (k : Fin 32768) : (BitVec.ofNat 32 k.val).toNat = k.val := by
  rw [BitVec.toNat_ofNat]
  exact Nat.mod_eq_of_lt (by have := k.isLt; omega)

/-- When position `p` of the index table holds the word `s p`, for a self-map `s` of the positions, the take reads
    the table at `s j`. -/
theorem takeOf_perm {α : Type} (iw : IVec S32768 32) (s : Fin 32768 → Fin 32768)
    (hiw : ∀ p, iw (Shape.Idx.ofFin p) = BitVec.ofNat 32 (s p).val) (tab fill : S32768.Idx → α) (j : Fin 32768) :
    takeOf iw tab fill (Shape.Idx.ofFin j) = tab (Shape.Idx.ofFin (s j)) := by
  have hall : ∀ p : Fin 32768, (iw (Shape.Idx.ofFin p)).toNat < 32768 := fun p => by
    rw [hiw p, toNat_ofNat_fin]; exact (s p).isLt
  rw [takeOf_apply iw hall]
  refine congrArg tab (congrArg Shape.Idx.ofFin (Fin.ext ?_))
  show (iw (Shape.Idx.ofFin j)).toNat = (s j).val
  rw [hiw j, toNat_ofNat_fin]

/-! ## The buffers region 0 and region 1 find -/

variable (m : (ℓ : Loc nD τ sig) → Buf (Elt F) ℓ)

/-- No host stretch before region 0 writes the input matrix. -/
theorem V4_arg0 (c : Dev nD) : V4 m c main_arg0 = m ((c.tc : Thread nD τ).loc main_arg0) :=
  (V4_of m c main_arg0 (by decide)).trans <| (V3_of m c main_arg0 (by decide)).trans <|
    (V2_of m c main_arg0 (by decide)).trans <| (V1_of m c main_arg0 (by decide)).trans rfl

/-- After the argsort stretch, position `j` of its table holds the word `sigma j`. -/
theorem V1_v0_apply (c : Dev nD) (j : Fin 32768) :
    (V1 m c main_v0 : IVec S32768 32) (Shape.Idx.ofFin j)
      = BitVec.ofNat 32 (Spec.sigma (m ((c.tc : Thread nD τ).loc main_arg3)) j).val :=
  (congrFun (after0_v0 (V0 m c)) (Shape.Idx.ofFin j)).trans (argsort_apply _ j)

/-- Region 0's group-id row: at column `j`, the group id found at position `sigma j`. -/
theorem V4_v3_apply (c : Dev nD) (j : Fin 32768) :
    (V4 m c main_v3 : IVec S1x32768 32) (ix2 0 j)
      = (m ((c.tc : Thread nD τ).loc main_arg4) : IVec S32768 32)
          (Shape.Idx.ofFin (Spec.sigma (m ((c.tc : Thread nD τ).loc main_arg3)) j)) := by
  have e3 : (V4 m c main_v3 : IVec S1x32768 32)
      = shapeCast S1x32768 (V3 m c main_v1 : IVec S32768 32) shapeCasts_S32768_S1x32768 := after0_3_v3 (V3 m c)
  have e2 : (V3 m c main_v1 : IVec S32768 32) = V2 m c main_v1 := V3_of m c main_v1 (by decide)
  have e1 : (V2 m c main_v1 : IVec S32768 32)
      = takeOf (V1 m c main_v0 : IVec S32768 32) (V1 m c main_arg4 : IVec S32768 32)
          (broadcastInDim S32768 ![] bcast_S_S32768 (constantI S_ 32 2147483648#32)) := after0_1_v1 (V1 m c)
  have e0 : (V1 m c main_arg4 : IVec S32768 32) = m ((c.tc : Thread nD τ).loc main_arg4) :=
    (V1_of m c main_arg4 (by decide)).trans rfl
  rw [e3, shapeCast_a_1a_apply, ix1_eq_ofFin, e2, e1, e0]
  exact takeOf_perm _ (Spec.sigma (m ((c.tc : Thread nD τ).loc main_arg3))) (V1_v0_apply m c) _ _ j

/-- Region 0's weight row: at column `j`, the weight found at position `sigma j`. -/
theorem V4_v4_apply (c : Dev nD) (j : Fin 32768) :
    (V4 m c main_v4 : FVec F S1x32768 .f32) (ix2 0 j)
      = (m ((c.tc : Thread nD τ).loc main_arg2) : FVec F S32768 .f32)
          (Shape.Idx.ofFin (Spec.sigma (m ((c.tc : Thread nD τ).loc main_arg3)) j)) := by
  have e3 : (V4 m c main_v4 : FVec F S1x32768 .f32)
      = shapeCast S1x32768 (V3 m c main_v2 : FVec F S32768 .f32) shapeCasts_S32768_S1x32768 := after0_3_v4 (V3 m c)
  have e2 : (V3 m c main_v2 : FVec F S32768 .f32)
      = takeOf (V2 m c main_v0 : IVec S32768 32) (V2 m c main_arg2 : FVec F S32768 .f32)
          (broadcastInDim S32768 ![] bcast_S_S32768 (constant (F := F) S_ .f32 0x7FC00000#32)) := after0_2_v2 (V2 m c)
  have e1 : (V2 m c main_v0 : IVec S32768 32) = V1 m c main_v0 := V2_of m c main_v0 (by decide)
  have e0 : (V2 m c main_arg2 : FVec F S32768 .f32) = m ((c.tc : Thread nD τ).loc main_arg2) :=
    (V2_of m c main_arg2 (by decide)).trans <| (V1_of m c main_arg2 (by decide)).trans rfl
  rw [e3, shapeCast_a_1a_apply, ix1_eq_ofFin, e2, e1, e0]
  exact takeOf_perm _ (Spec.sigma (m ((c.tc : Thread nD τ).loc main_arg3))) (V1_v0_apply m c) _ _ j

/-- Region 0's aggregation-type row is the aggregation types. -/
theorem V4_v5_apply (c : Dev nD) (g : Fin 4096) :
    (V4 m c main_v5 : IVec S1x4096 32) (ix2 0 g)
      = (m ((c.tc : Thread nD τ).loc main_arg5) : IVec S4096 32) (Shape.Idx.ofFin g) := by
  have e3 : (V4 m c main_v5 : IVec S1x4096 32)
      = shapeCast S1x4096 (V3 m c main_arg5 : IVec S4096 32) shapeCasts_S4096_S1x4096 := after0_3_v5 (V3 m c)
  have e0 : (V3 m c main_arg5 : IVec S4096 32) = m ((c.tc : Thread nD τ).loc main_arg5) :=
    (V3_of m c main_arg5 (by decide)).trans <| (V2_of m c main_arg5 (by decide)).trans <|
      (V1_of m c main_arg5 (by decide)).trans rfl
  rw [e3, shapeCast_a_1a_apply, ix1_eq_ofFin, e0]

/-- Region 1's weight operand is the weight matrix transposed (at the extended reals the format change is the
    identity). -/
theorem V6_v8_apply (m : (ℓ : Loc nD τ sig) → Buf (Elt Ideal) ℓ) (outs : Outs (F := Ideal)) (c : Dev nD)
    (g : Fin 4096) (e : Fin 1024) :
    (V6 m outs c main_v8 : S4096x1024.Idx → EReal) (ix2 g e)
      = (m ((c.tc : Thread nD τ).loc main_arg1) : S1024x4096.Idx → EReal) (ix2 e g) := by
  have e0 : (V5 m outs c main_arg1 : FVec Ideal S1024x4096 .f32) = m ((c.tc : Thread nD τ).loc main_arg1) :=
    (V5_of m outs c main_arg1 (by decide)).trans <| (V4_of m c main_arg1 (by decide)).trans <|
      (V3_of m c main_arg1 (by decide)).trans <| (V2_of m c main_arg1 (by decide)).trans <|
        (V1_of m c main_arg1 (by decide)).trans rfl
  refine (congrFun (after1_v8 (F := Ideal) (V5 m outs c)) (ix2 g e)).trans ?_
  rw [truncf_apply, transpose_ix2_apply, e0]

end Cert.KernelIdeal.HostV

end
-- ==== Proof.PreFacts.lean ====
/-
  The precondition read back at the permutation table.

  Besides the finiteness of the float inputs, the precondition says that the table of 32768 permutation words,
  sorted ascending under signed "less than", is the identity table 0, 1, …, 32767. A stable sort of a rank-1 table
  reads it through one self-map of the positions, the sorting permutation `Spec.sigma`; so the word at position
  `sigma k` is `k`, for every `k`: the table is a permutation of 0 … 32767 and `sigma` is its inverse.
-/
import proofs.«416405_j7060926234901_1_alg».proof.Defs
import proofs.«416405_j7060926234901_1_alg».proof.Proof.Gen.Pre_finite_inputs
import proofs.«416405_j7060926234901_1_alg».proof.Proof.Spec
import Idealize.ShloMosaic.Lib.ReduceAll
import Idealize.ShloMosaic.Lib.SortFacts
import Idealize.ShloMosaic.Lib.StableHlo.Predicate

noncomputable section

namespace Cert.KernelIdeal.PreF

open Cert.KernelIdeal
open Idealize.ShloMosaic Idealize.ShloMosaic.TcCoe Idealize.SL.Sem

/-- A shape of rank 0 has one index. -/
instance subsingleton_scalarIdx : Subsingleton (⟨0, ![]⟩ : Shape).Idx := ⟨fun _ _ => funext fun i => i.elim0⟩

/-- The comparator of the precondition's sort is signed "less than" on the words. -/
theorem comparator_eq : Cert.Pre_finite_inputs.comparator_i32_d0 = fun l r => IntOp.cmpi .slt l r := rfl

/-- A rank-1 table of 32768 words whose ascending sort is the identity table holds the word `k` at position
    `sigma k`: position `k` of the sorted table is the table's word at `sigma k`, and it equals `k`. -/
theorem word_at_sigma (pw : (⟨1, ![32768]⟩ : Shape).Idx → BitVec 32)
    (h : ∀ j, IntOp.cmpi .eq (Host.sort ⟨1, ![32768]⟩ 0 Cert.Pre_finite_inputs.comparator_i32_d0 pw j)
      (iotaInDim ⟨1, ![32768]⟩ 32 0 j) = 1#1) (k : Fin 32768) :
    pw (Shape.Idx.ofFin (Spec.sigma pw k)) = BitVec.ofNat 32 k.val := by
  have e := h (Shape.Idx.ofFin k)
  rw [StableHlo.Predicate.cmpi_eq_iff, Host.sort_rank1, StableHlo.Predicate.iota_apply, Shape.Idx.ofFin_zero,
    comparator_eq] at e
  exact e

variable (m : (ℓ : Loc nD τ sig) → Buf (Elt Ideal) ℓ)

/-- THE PRECONDITION AT THE PERMUTATION TABLE: on every core the permutation word at position `sigma k` is `k`. -/
theorem perm_sigma (hpre : Cert.Pre_KernelIdeal m) (c : Dev nD) (k : Fin 32768) :
    (m ((c.tc : Thread nD τ).loc main_arg3) : (⟨1, ![32768]⟩ : Shape).Idx → BitVec 32)
        (Shape.Idx.ofFin (Spec.sigma (m ((c.tc : Thread nD τ).loc main_arg3)) k))
      = BitVec.ofNat 32 k.val := by
  refine word_at_sigma _ (fun j => ?_) k
  have e := congrFun (hpre c) (fun a => a.elim0)
  dsimp only [Cert.Pre_finite_inputs.fn, Cert.Pre_finite_inputs.fn_part1] at e
  simp only [andi, IntOp.andi_eq_one] at e
  exact Host.reduce_andi_all _ _ _ _ _ e.2 j

end Cert.KernelIdeal.PreF

end
-- ==== Proof.RefVal.lean ====
/-
  The reference's result, read at one element, is the specification.

  The reference permutes the columns of x by a gather, transposes, forms three segment sums by accumulating scatters
  (the plain sum, the weighted sum, the count of non-zero entries), picks one of them by the group's aggregation type,
  transposes back, clips at zero and multiplies by the transpose of W. Read at row b and output column e this is
  Spec.out of the permuted columns: Σ_g max (y b g) 0 · W e g.

  Two operations need a reading of their own, both done once over variables for this program's dimension numbers.
  The gather with one collapsed, start-indexed axis: result element (b, c) is the operand's at row b and at the column
  the start word of c names, that word read signed and clamped into the axis. For a word of a natural number below
  32768 the clamp does nothing, and neither does the wrap of negative indices that precedes it.
  The accumulating scatter along axis 0: element (g, b) of the result is the operand's plus the sum, over the update
  rows s whose index word is the word of g, of the update at (s, b); a row whose word names no group adds nothing.
  With the indicator Spec.hot this is Σ_s upd (s, b) · hot (word s) g.
-/
import proofs.«416405_j7060926234901_1_alg».proof.Proof.RefRead
import proofs.«416405_j7060926234901_1_alg».proof.Proof.Spec
import Idealize.ShloMosaic.Lib.ValueIdx
import Idealize.ShloMosaic.Lib.SortFacts
import Idealize.ShloMosaic.Lib.StableHlo.Predicate
import Idealize.ShloMosaic.PureOps.Ideal.Laws

noncomputable section

namespace Cert.ReferenceIdeal.RefV

open Cert.ReferenceIdeal Cert.ReferenceIdeal.Gen Cert.ReferenceIdeal.ReadP Idealize.ShloMosaic Idealize.ShloMosaic.ValueIdx
open Idealize.ShloMosaic.StableHlo.Predicate

local notation "scD" => scatter_S4096x2048_S32768x1_S32768x2048_1_0_0_1
local notation "gaD" => gather_S2048x32768_S32768x1_S2048x32768_0_1_n_n_1_1_20481

/-! ## The accumulating scatter along axis 0, at an element

An update index (s, b') starts, on axis 0, at the index word of row s read signed, and on axis 1 at 0; its window
coordinate is 0 on axis 0 (the inserted axis) and b' on axis 1. -/

theorem sc_start0 (idx : IVec S32768x1 32) (j : S32768x2048.Idx) :
    ScatterDims.start scD j idx 0 = (idx (ix2 (j 0) 0)).toInt := by
  unfold ScatterDims.start
  rw [dif_pos (by decide)]
  congr 2
  funext b
  match b with
  | ⟨0, _⟩ => rfl
  | ⟨1, _⟩ => rfl

theorem sc_start1 (idx : IVec S32768x1 32) (j : S32768x2048.Idx) :
    ScatterDims.start scD j idx 1 = 0 := by
  unfold ScatterDims.start
  rw [dif_neg (by decide)]

theorem sc_window0 (j : S32768x2048.Idx) : ScatterDims.window scD j 0 = 0 := by
  unfold ScatterDims.window
  rw [dif_neg (by decide)]

theorem sc_window1 (j : S32768x2048.Idx) : ScatterDims.window scD j 1 = (j 1).val := by
  unfold ScatterDims.window
  rw [dif_pos (by decide)]
  rfl

theorem sc_sum0 (idx : IVec S32768x1 32) (j : S32768x2048.Idx) :
    ScatterDims.start scD j idx 0 + (ScatterDims.window scD j 0 : ℤ) = (idx (ix2 (j 0) 0)).toInt := by
  rw [sc_start0, sc_window0]; simp

theorem sc_sum1 (idx : IVec S32768x1 32) (j : S32768x2048.Idx) :
    ScatterDims.start scD j idx 1 + (ScatterDims.window scD j 1 : ℤ) = ((j 1).val : ℤ) := by
  rw [sc_start1, sc_window1]; simp

/-- A 32-bit word reads signed as the natural number g below 2³¹ exactly when it is the word of g. -/
theorem toInt_eq_iff (a : BitVec 32) (g : ℕ) (hg : g < 2 ^ 31) : a.toInt = (g : ℤ) ↔ a = BitVec.ofNat 32 g := by
  constructor
  · intro h
    apply BitVec.eq_of_toInt_eq
    rw [h, toInt_ofNat_small g hg]
  · rintro rfl; exact toInt_ofNat_small g hg

/-- The update at (s, b') lands on element (g, b) exactly when row s's index word is the word of g and b' = b. -/
theorem sc_resultIdx_iff (idx : IVec S32768x1 32) (s : Fin 32768) (b' b : Fin 2048) (g : Fin 4096) :
    ScatterDims.resultIdx? scD (ix2 s b') idx = some (ix2 g b) ↔ idx (ix2 s 0) = BitVec.ofNat 32 g.val ∧ b' = b := by
  have hg : g.val < 2 ^ 31 := by have := g.isLt; omega
  constructor
  · intro e
    unfold ScatterDims.resultIdx? at e
    split at e
    · rename_i h
      rw [Option.some.injEq] at e
      have e0 : (ScatterDims.start scD (ix2 s b') idx 0 + (ScatterDims.window scD (ix2 s b') 0 : ℤ)).toNat = g.val :=
        congrArg (fun i : S4096x2048.Idx => (i 0).val) e
      have e1 : (ScatterDims.start scD (ix2 s b') idx 1 + (ScatterDims.window scD (ix2 s b') 1 : ℤ)).toNat = b.val :=
        congrArg (fun i : S4096x2048.Idx => (i 1).val) e
      have h0 := (h 0).1
      rw [sc_sum0] at e0 h0
      rw [sc_sum1] at e1
      refine ⟨(toInt_eq_iff _ _ hg).mp ?_, Fin.ext ?_⟩
      · show (idx (ix2 s 0)).toInt = _
        have : (idx (ix2 ((ix2 s b' : S32768x2048.Idx) 0) 0)).toInt = (idx (ix2 s 0)).toInt := rfl
        omega
      · have : (((ix2 s b' : S32768x2048.Idx) 1).val : ℤ).toNat = b'.val := by simp
        omega
    · cases e
  · rintro ⟨hw, rfl⟩
    have hi : (idx (ix2 s 0)).toInt = (g.val : ℤ) := (toInt_eq_iff _ _ hg).mpr hw
    have h : ∀ a, 0 ≤ ScatterDims.start scD (ix2 s b') idx a + (ScatterDims.window scD (ix2 s b') a : ℤ) ∧
        ScatterDims.start scD (ix2 s b') idx a + (ScatterDims.window scD (ix2 s b') a : ℤ) < S4096x2048.size a := by
      intro a
      match a with
      | ⟨0, _⟩ =>
        show 0 ≤ ScatterDims.start scD (ix2 s b') idx 0 + (ScatterDims.window scD (ix2 s b') 0 : ℤ) ∧
          ScatterDims.start scD (ix2 s b') idx 0 + (ScatterDims.window scD (ix2 s b') 0 : ℤ) < (4096 : ℕ)
        rw [sc_sum0]
        show 0 ≤ (idx (ix2 s 0)).toInt ∧ (idx (ix2 s 0)).toInt < (4096 : ℕ)
        have := g.isLt
        omega
      | ⟨1, _⟩ =>
        show 0 ≤ ScatterDims.start scD (ix2 s b') idx 1 + (ScatterDims.window scD (ix2 s b') 1 : ℤ) ∧
          ScatterDims.start scD (ix2 s b') idx 1 + (ScatterDims.window scD (ix2 s b') 1 : ℤ) < (2048 : ℕ)
        rw [sc_sum1]
        show 0 ≤ (b'.val : ℤ) ∧ (b'.val : ℤ) < (2048 : ℕ)
        have := b'.isLt
        omega
    unfold ScatterDims.resultIdx?
    rw [dif_pos h]
    congr 1
    funext a
    match a with
    | ⟨0, _⟩ =>
      refine Fin.ext ?_
      show (ScatterDims.start scD (ix2 s b') idx 0 + (ScatterDims.window scD (ix2 s b') 0 : ℤ)).toNat = g.val
      rw [sc_sum0]
      show (idx (ix2 s 0)).toInt.toNat = g.val
      omega
    | ⟨1, _⟩ =>
      refine Fin.ext ?_
      show (ScatterDims.start scD (ix2 s b') idx 1 + (ScatterDims.window scD (ix2 s b') 1 : ℤ)).toNat = b'.val
      rw [sc_sum1]
      show ((b'.val : ℤ)).toNat = b'.val
      simp

/-- THE SEGMENT SUM AT AN ELEMENT: the operand's element plus the sum over the update rows of the update at (s, b)
    times the indicator that row s's index word is group g. -/
theorem scatterAdd_apply (x0 : S4096x2048.Idx → EReal) (idx : IVec S32768x1 32) (upd : S32768x2048.Idx → EReal)
    (g : Fin 4096) (b : Fin 2048) :
    Host.scatterAdd (F := Ideal) (φ := .f32) scD x0 idx upd (ix2 g b)
      = x0 (ix2 g b) + ∑ s : Fin 32768, upd (ix2 s b) * Spec.hot (idx (ix2 s 0)) g := by
  show x0 (ix2 g b) + ∑ j ∈ Finset.univ.filter (fun j => ScatterDims.resultIdx? scD j idx = some (ix2 g b)), upd j = _
  refine congrArg (x0 (ix2 g b) + ·) ?_
  rw [Finset.sum_filter, sum_idx2]
  refine Finset.sum_congr rfl fun s _ => ?_
  simp only [sc_resultIdx_iff]
  unfold Spec.hot
  by_cases hw : idx (ix2 s 0) = BitVec.ofNat 32 g.val
  · simp [hw]
  · simp [hw]

/-! ## The gather of columns, at an element

On axis 0 (the offset axis) the operand index is the result's row; on axis 1 (collapsed, start-indexed) it is the
start word of the result's column, read signed and clamped into [0, 32767]. -/

theorem ga_start0 (idx : IVec S32768x1 32) (j : S2048x32768.Idx) : GatherDims.start gaD j idx 0 = 0 := by
  unfold GatherDims.start
  rw [dif_neg (by decide)]

theorem ga_start1 (idx : IVec S32768x1 32) (j : S2048x32768.Idx) :
    GatherDims.start gaD j idx 1 = min (idx (ix2 (j 1) 0)).toInt.toNat 32767 := by
  unfold GatherDims.start
  rw [dif_pos (by decide)]
  have hsi : GatherDims.siIdx gaD j ⟨List.idxOf (1 : Fin 2) (GatherDims.startIndexMap gaD), by decide⟩ = ix2 (j 1) 0 := by
    funext b
    match b with
    | ⟨0, _⟩ => rfl
    | ⟨1, _⟩ => rfl
  rw [hsi]
  rfl

theorem ga_off0 (j : S2048x32768.Idx) : GatherDims.offCoord gaD j 0 = (j 0).val := by
  unfold GatherDims.offCoord
  rw [dif_pos (by decide)]
  rfl

theorem ga_operandIdx (idx : IVec S32768x1 32) (b : Fin 2048) (c : Fin 32768) :
    GatherDims.operandIdx gaD (ix2 b c) idx
      = ix2 b (⟨min (idx (ix2 c 0)).toInt.toNat 32767, by omega⟩ : Fin 32768) := by
  funext a
  match a with
  | ⟨0, _⟩ =>
    refine Fin.ext ?_
    show GatherDims.start gaD (ix2 b c) idx 0 + GatherDims.batchCoord gaD (ix2 b c) 0 + GatherDims.offCoord gaD (ix2 b c) 0 = b.val
    rw [ga_start0, GatherDims.batchCoord_eq_zero gaD _ _ (by decide), ga_off0]
    simp
  | ⟨1, _⟩ =>
    refine Fin.ext ?_
    show GatherDims.start gaD (ix2 b c) idx 1 + GatherDims.batchCoord gaD (ix2 b c) 1 + GatherDims.offCoord gaD (ix2 b c) 1
      = min (idx (ix2 c 0)).toInt.toNat 32767
    rw [ga_start1, GatherDims.batchCoord_eq_zero gaD _ _ (by decide), GatherDims.offCoord_eq_zero gaD _ _ (by decide)]
    rfl

/-- THE GATHER AT AN ELEMENT: row b of the operand at the clamped start index of column c. -/
theorem gather_apply {α : Type} (x : S2048x32768.Idx → α) (idx : IVec S32768x1 32) (b : Fin 2048) (c : Fin 32768) :
    Host.gather gaD x idx (ix2 b c) = x (ix2 b (⟨min (idx (ix2 c 0)).toInt.toNat 32767, by omega⟩ : Fin 32768)) := by
  unfold Host.gather
  rw [ga_operandIdx]

/-! ## Index equations: the layout operations' source indices, by coordinates -/

theorem e_col (c : Fin 32768) : idx_main_v5 (ix2 c (0 : Fin 1)) = Shape.Idx.ofFin c :=
  funext fun a => Fin.ext (by match a with | ⟨0, _⟩ => rfl)
theorem e_colg (g : Fin 4096) : idx_main_v26 (ix2 g (0 : Fin 1)) = Shape.Idx.ofFin g :=
  funext fun a => Fin.ext (by match a with | ⟨0, _⟩ => rfl)
theorem e_tr (s : Fin 32768) (b : Fin 2048) : idx_main_v7 (ix2 s b) = ix2 b s :=
  funext fun a => Fin.ext (by match a with | ⟨0, _⟩ => rfl | ⟨1, _⟩ => rfl)
theorem e_tr' (b : Fin 2048) (g : Fin 4096) : idx_main_v33 (ix2 b g) = ix2 g b :=
  funext fun a => Fin.ext (by match a with | ⟨0, _⟩ => rfl | ⟨1, _⟩ => rfl)
theorem e_bc (s : Fin 32768) (b : Fin 2048) : idx_main_v12 (ix2 s b) = ix2 s (0 : Fin 1) :=
  funext fun a => Fin.ext (by match a with | ⟨0, _⟩ => rfl | ⟨1, _⟩ => rfl)
theorem e_bcg (g : Fin 4096) (b : Fin 2048) : idx_main_call0_v0 (ix2 g b) = ix2 g (0 : Fin 1) :=
  funext fun a => Fin.ext (by match a with | ⟨0, _⟩ => rfl | ⟨1, _⟩ => rfl)
theorem e_l (b : Fin 2048) (e : Fin 1024) (k : Fin 4096) : lidx_main_v35 (ix2 b e) k = ix2 b k :=
  funext fun a => Fin.ext (by match a with | ⟨0, _⟩ => rfl | ⟨1, _⟩ => rfl)
theorem e_r (b : Fin 2048) (e : Fin 1024) (k : Fin 4096) : ridx_main_v35 (ix2 b e) k = ix2 e k :=
  funext fun a => Fin.ext (by match a with | ⟨0, _⟩ => rfl | ⟨1, _⟩ => rfl)

/-! ## Words: a small natural's word, a condition bit as an extended real, a select on an equality of words -/

theorem word_small (k : Fin 32768) : (BitVec.ofNat 32 k.val).toNat < 2 ^ 31 := by
  rw [BitVec.toNat_ofNat]; have := k.isLt; omega

/-- The bit of a decided proposition, read as a number, is its indicator. -/
theorem uitofp_ofBool (P : Prop) [d1 : Decidable P] [d2 : Decidable P] :
    FloatOps.uitofp (F := Ideal) .f32 (BitVec.ofBool (@decide P d1)) = @ite EReal P d2 1 0 := by
  show (((BitVec.ofBool (@decide P d1)).toNat : ℝ) : EReal) = _
  by_cases h : P <;> simp [h]

/-- "not equal to zero" as a number is the non-zero indicator. -/
theorem une_zero (a : EReal) :
    FloatOps.uitofp (F := Ideal) .f32 (FloatOps.cmpf (F := Ideal) (φ := .f32) .une a 0) = Spec.nz a :=
  uitofp_ofBool (a ≠ 0)

/-- "greater than zero" as a number is the indicator of positivity. -/
theorem ogt_zero (a : EReal) :
    FloatOps.uitofp (F := Ideal) .f32 (FloatOps.cmpf (F := Ideal) (φ := .f32) .ogt a 0) = if 0 < a then 1 else 0 :=
  uitofp_ofBool (0 < a)

/-- A select on the bit of an equality of words is the `if` on that equality. -/
theorem select_cmpi_eq {α : Type} (a c : BitVec 32) (A B : α) :
    Scalar.select (IntOp.cmpi .eq a c) A B = if a = c then A else B := by
  unfold Scalar.select
  have e : IntOp.cmpi .eq a c = 1 ↔ a = c := cmpi_eq_iff
  by_cases h : a = c
  · rw [if_pos (e.mpr h), if_pos h]
  · rw [if_neg (fun h' => h (e.mp h')), if_neg h]

/-! ## The permuted columns

With the permutation table holding the word of p s at s (p s below 32768), the wrap of negative indices is the
identity, the clamp is the identity, and the gathered array at (b, c) is x at (b, p c). -/

section Chain

variable (x : (⟨S2048x32768, .f32⟩ : BufTy).Contents (Elt Ideal)) (W : (⟨S1024x4096, .f32⟩ : BufTy).Contents (Elt Ideal))
  (we : (⟨S32768, .f32⟩ : BufTy).Contents (Elt Ideal)) (permw seg : (⟨S32768, .i32⟩ : BufTy).Contents (Elt Ideal))
  (agg : (⟨S4096, .i32⟩ : BufTy).Contents (Elt Ideal)) (p : Fin 32768 → Fin 32768)

/-- The start word of column c is the word of p c: it is not negative, so the select keeps it. -/
theorem v5_word (hp : ∀ s, permw (Shape.Idx.ofFin s) = BitVec.ofNat 32 (p s).val) (c : Fin 32768) :
    val_main_v5 (F := Ideal) permw (ix2 c (0 : Fin 1)) = BitVec.ofNat 32 (p c).val := by
  rw [val_main_v5_apply, e_col, val_main_v4_apply, val_main_v1_apply, val_main_v0_apply, val_main_c_apply, hp c]
  have hlt : IntOp.cmpi .slt (BitVec.ofNat 32 (p c).val) 0#32 = 0#1 :=
    eq_zero_of_ne_one fun h => by
      have := (slt_iff_toNat (word_small (p c)) (by decide)).mp h
      simp at this
  rw [hlt, select_zero]

/-- The gathered array at (b, c) is x at (b, p c). -/
theorem v6_apply (hp : ∀ s, permw (Shape.Idx.ofFin s) = BitVec.ofNat 32 (p s).val) (b : Fin 2048) (c : Fin 32768) :
    val_main_v6 (F := Ideal) x permw (ix2 b c) = x (ix2 b (p c)) := by
  unfold val_main_v6
  rw [gather_apply]
  refine congrArg x (congrArg (ix2 b) (Fin.ext ?_))
  show min (val_main_v5 (F := Ideal) permw (ix2 c (0 : Fin 1))).toInt.toNat 32767 = (p c).val
  rw [v5_word permw p hp, toInt_ofNat_small _ (by have := (p c).isLt; omega)]
  have := (p c).isLt
  omega

/-- Its transpose at (s, b) is x at (b, p s). -/
theorem v7_apply (hp : ∀ s, permw (Shape.Idx.ofFin s) = BitVec.ofNat 32 (p s).val) (s : Fin 32768) (b : Fin 2048) :
    val_main_v7 (F := Ideal) x permw (ix2 s b) = x (ix2 b (p s)) := by
  rw [val_main_v7_apply, e_tr, v6_apply x permw p hp]

/-- The scatters' operands, the compared constants and the clip's bound are the zero array. -/
theorem v8_zero (i : S4096x2048.Idx) : val_main_v8 (F := Ideal) i = 0 := by
  rw [val_main_v8_apply, val_main_cst_apply]; exact Ideal.ofBits_zero_f32
theorem v14_zero (i : S4096x2048.Idx) : val_main_v14 (F := Ideal) i = 0 := by
  rw [val_main_v14_apply, val_main_cst_1_apply]; exact Ideal.ofBits_zero_f32
theorem v17_zero (i : S32768x2048.Idx) : val_main_v17 (F := Ideal) i = 0 := by
  rw [val_main_v17_apply, val_main_cst_2_apply]; exact Ideal.ofBits_zero_f32
theorem v20_zero (i : S4096x2048.Idx) : val_main_v20 (F := Ideal) i = 0 := by
  rw [val_main_v20_apply, val_main_cst_3_apply]; exact Ideal.ofBits_zero_f32
theorem v23_zero (i : S4096x2048.Idx) : val_main_v23 (F := Ideal) i = 0 := by
  rw [val_main_v23_apply, val_main_cst_4_apply]; exact Ideal.ofBits_zero_f32
theorem call2_v0_zero (i : S2048x4096.Idx) : val_main_call2_v0 (F := Ideal) i = 0 := by
  rw [val_main_call2_v0_apply, val_main_call2_cst_apply]; exact Ideal.ofBits_zero_f32

/-- The scatter's index column at row s is the segment id of s. -/
theorem v9_word (s : Fin 32768) : val_main_v9 (F := Ideal) seg (ix2 s (0 : Fin 1)) = seg (Shape.Idx.ofFin s) :=
  (val_main_v9_apply seg _).trans (congrArg seg (e_col s))
theorem v15_word (s : Fin 32768) : val_main_v15 (F := Ideal) seg (ix2 s (0 : Fin 1)) = seg (Shape.Idx.ofFin s) :=
  (val_main_v15_apply seg _).trans (congrArg seg (e_col s))
theorem v21_word (s : Fin 32768) : val_main_v21 (F := Ideal) seg (ix2 s (0 : Fin 1)) = seg (Shape.Idx.ofFin s) :=
  (val_main_v21_apply seg _).trans (congrArg seg (e_col s))

/-- The weights laid along the rows: at (s, b) the weight of s. -/
theorem v12_apply (s : Fin 32768) (b : Fin 2048) : val_main_v12 (F := Ideal) we (ix2 s b) = we (Shape.Idx.ofFin s) := by
  rw [val_main_v12_apply, e_bc]
  exact (val_main_v11_apply we _).trans (congrArg we (e_col s))

end Chain

/-! ## The three segment sums, the choice by aggregation type, the clip and the product -/

section Sums

variable (x : (⟨S2048x32768, .f32⟩ : BufTy).Contents (Elt Ideal)) (W : (⟨S1024x4096, .f32⟩ : BufTy).Contents (Elt Ideal))
  (we : (⟨S32768, .f32⟩ : BufTy).Contents (Elt Ideal)) (permw seg : (⟨S32768, .i32⟩ : BufTy).Contents (Elt Ideal))
  (agg : (⟨S4096, .i32⟩ : BufTy).Contents (Elt Ideal)) (p : Fin 32768 → Fin 32768)

/-- The first scatter at (g, b) is the sum of row b over the columns of group g. -/
theorem v10_apply (hp : ∀ s, permw (Shape.Idx.ofFin s) = BitVec.ofNat 32 (p s).val) (g : Fin 4096) (b : Fin 2048) :
    val_main_v10 (F := Ideal) x permw seg (ix2 g b)
      = Spec.sumG (fun b j => x (ix2 b (p j))) (fun j => seg (Shape.Idx.ofFin j)) b g := by
  unfold val_main_v10
  rw [scatterAdd_apply, v8_zero, zero_add]
  unfold Spec.sumG
  refine Finset.sum_congr rfl fun s _ => ?_
  rw [v7_apply x permw p hp, v9_word]

/-- The second is the weighted sum. -/
theorem v16_apply (hp : ∀ s, permw (Shape.Idx.ofFin s) = BitVec.ofNat 32 (p s).val) (g : Fin 4096) (b : Fin 2048) :
    val_main_v16 (F := Ideal) x we permw seg (ix2 g b)
      = Spec.wsumG (fun b j => x (ix2 b (p j))) (fun j => seg (Shape.Idx.ofFin j)) (fun j => we (Shape.Idx.ofFin j)) b g := by
  unfold val_main_v16
  rw [scatterAdd_apply, v14_zero, zero_add]
  unfold Spec.wsumG
  refine Finset.sum_congr rfl fun s _ => ?_
  rw [val_main_v13_apply, v7_apply x permw p hp, v12_apply, v15_word]
  rfl

/-- The third counts the non-zero entries. -/
theorem v22_apply (hp : ∀ s, permw (Shape.Idx.ofFin s) = BitVec.ofNat 32 (p s).val) (g : Fin 4096) (b : Fin 2048) :
    val_main_v22 (F := Ideal) x permw seg (ix2 g b)
      = Spec.nnzG (fun b j => x (ix2 b (p j))) (fun j => seg (Shape.Idx.ofFin j)) b g := by
  unfold val_main_v22
  rw [scatterAdd_apply, v20_zero, zero_add]
  unfold Spec.nnzG
  refine Finset.sum_congr rfl fun s _ => ?_
  rw [val_main_v19_apply, val_main_v18_apply, v7_apply x permw p hp, v17_zero, v21_word]
  rw [une_zero]

/-- "The count is positive", as a number. -/
theorem v25_apply (hp : ∀ s, permw (Shape.Idx.ofFin s) = BitVec.ofNat 32 (p s).val) (g : Fin 4096) (b : Fin 2048) :
    val_main_v25 (F := Ideal) x permw seg (ix2 g b)
      = if 0 < Spec.nnzG (fun b j => x (ix2 b (p j))) (fun j => seg (Shape.Idx.ofFin j)) b g then 1 else 0 := by
  rw [val_main_v25_apply, val_main_v24_apply, v22_apply x permw seg p hp, v23_zero]
  exact ogt_zero _

/-- The two conditions, laid along the rows: "the group's type is 0" and "the group's type is 1". -/
theorem call1_apply (g : Fin 4096) (b : Fin 2048) :
    val_main_call1_v0 (F := Ideal) agg (ix2 g b) = IntOp.cmpi .eq (agg (Shape.Idx.ofFin g)) 0#32 := by
  have e : idx_main_call1_v0 (ix2 g b) = ix2 g (0 : Fin 1) := e_bcg g b
  rw [val_main_call1_v0_apply, e, val_main_v28_apply, val_main_v27_apply, val_main_c_5_apply]
  exact congrArg (IntOp.cmpi .eq · 0#32) ((val_main_v26_apply agg _).trans (congrArg agg (e_colg g)))

theorem call0_apply (g : Fin 4096) (b : Fin 2048) :
    val_main_call0_v0 (F := Ideal) agg (ix2 g b) = IntOp.cmpi .eq (agg (Shape.Idx.ofFin g)) 1#32 := by
  rw [val_main_call0_v0_apply, e_bcg, val_main_v30_apply, val_main_v29_apply, val_main_c_6_apply]
  exact congrArg (IntOp.cmpi .eq · 1#32) ((val_main_v26_apply agg _).trans (congrArg agg (e_colg g)))

/-- The nested select at (g, b) is the group's value by its aggregation type. -/
theorem v32_apply (hp : ∀ s, permw (Shape.Idx.ofFin s) = BitVec.ofNat 32 (p s).val) (g : Fin 4096) (b : Fin 2048) :
    val_main_v32 (F := Ideal) x we permw seg agg (ix2 g b)
      = Spec.yG (fun b j => x (ix2 b (p j))) (fun j => seg (Shape.Idx.ofFin j)) (fun j => we (Shape.Idx.ofFin j))
          (fun g => agg (Shape.Idx.ofFin g)) b g := by
  rw [val_main_v32_apply, val_main_v31_apply, call1_apply, call0_apply, v10_apply x permw seg p hp,
    v25_apply x permw seg p hp, v16_apply x we permw seg p hp, select_cmpi_eq, select_cmpi_eq]
  rfl

/-- Transposed back and clipped at zero: the clipped group value at (b, g). -/
theorem v34_apply (hp : ∀ s, permw (Shape.Idx.ofFin s) = BitVec.ofNat 32 (p s).val) (b : Fin 2048) (g : Fin 4096) :
    val_main_v34 (F := Ideal) x we permw seg agg (ix2 b g)
      = Spec.reluY (fun b j => x (ix2 b (p j))) (fun j => seg (Shape.Idx.ofFin j)) (fun j => we (Shape.Idx.ofFin j))
          (fun g => agg (Shape.Idx.ofFin g)) b g := by
  rw [val_main_v34_apply, val_main_v33_apply, e_tr', v32_apply x we permw seg agg p hp, call2_v0_zero]
  rfl

/-- THE REFERENCE'S RESULT AT AN ELEMENT: for argument contents x, W, we, permw, seg, agg, with the permutation table
    permw holding the word of p s at s, the last stage at (b, e) is the specification over the permuted columns. -/
theorem ref_apply (hp : ∀ s, permw (Shape.Idx.ofFin s) = BitVec.ofNat 32 (p s).val) (b : Fin 2048) (e : Fin 1024) :
    val_main_v35 (F := Ideal) x W we permw seg agg (ix2 b e)
      = Spec.out (fun b j => x (ix2 b (p j))) (fun j => seg (Shape.Idx.ofFin j)) (fun j => we (Shape.Idx.ofFin j))
          (fun g => agg (Shape.Idx.ofFin g)) (fun e g => W (ix2 e g)) b e := by
  rw [val_main_v35_apply]
  unfold Spec.out
  refine Finset.sum_congr rfl fun g _ => ?_
  rw [e_l, e_r, v34_apply x we permw seg agg p hp]

end Sums

end Cert.ReferenceIdeal.RefV

end
-- ==== Proof.Bridge.lean ====
/-
  The two programs compute one function. The kernel's result array, read at (b, e), is the specification's `out` with
  the columns in place and the group ids and weights read through the sorting permutation σ of `perm`; the
  reference's is `out` with the columns read through `perm` and the ids and weights in place. Under the precondition
  `perm` sorts to the identity table, so perm ∘ σ = id, σ is a bijection of the columns, and the change of summation
  variable j = σ c turns one into the other.
-/
import proofs.«416405_j7060926234901_1_alg».proof.Proof.Spec
import proofs.«416405_j7060926234901_1_alg».proof.Proof.Frames
import proofs.«416405_j7060926234901_1_alg».proof.Proof.R1Value
import proofs.«416405_j7060926234901_1_alg».proof.Proof.R0Value
import proofs.«416405_j7060926234901_1_alg».proof.Proof.R0Array
import proofs.«416405_j7060926234901_1_alg».proof.Proof.HostVals
import proofs.«416405_j7060926234901_1_alg».proof.Proof.PreFacts
import proofs.«416405_j7060926234901_1_alg».proof.Proof.RefVal

noncomputable section

namespace Cert.Proof.Bridge

open Idealize.ShloMosaic Idealize.ShloMosaic.TcCoe Idealize.ShloMosaic.ValueIdx Idealize.SL.Sem
open Cert.KernelIdeal Cert.KernelIdeal.Gen

/-- The array region 0 leaves, at (b, g): the clipped group value of the region's entry contents (the block at a
    write-back point, and the blocks tiling the array). -/
theorem arrAt0_apply (V : (c : Dev nD) → (b : Ref sig .tc) → Buf (Elt Ideal) ((c : Thread nD τ).loc b)) (c : Dev nD)
    (b : Fin 2048) (g : Fin 4096) :
    ((R0.dat0 (F := Ideal) V c).arrAt 4 cfg0.N : S2048x4096.Idx → EReal) (ix2 b g)
      = Spec.reluY (fun b j => (V c main_arg0 : S2048x32768.Idx → EReal) (ix2 b j)) (fun j => (V c main_v3 : S1x32768.Idx → BitVec 32) (ix2 0 j))
          (fun j => (V c main_v4 : S1x32768.Idx → EReal) (ix2 0 j)) (fun g => (V c main_v5 : S1x4096.Idx → BitVec 32) (ix2 0 g)) b g :=
  R0A.arrAt0_of_blocks V c _ (fun t ht r q => R0V.outAt0_apply V c t ht r q) b g

variable (m : (ℓ : Loc nD τ sig) → Buf (Elt Ideal) ℓ)

/-- The six arguments' launch contents on core `c`, and the sorting permutation of the `perm` words. -/
abbrev aX (c : Dev nD) : S2048x32768.Idx → EReal := m ((c.tc : Thread nD τ).loc main_arg0)
abbrev aW (c : Dev nD) : S1024x4096.Idx → EReal := m ((c.tc : Thread nD τ).loc main_arg1)
abbrev aWe (c : Dev nD) : S32768.Idx → EReal := m ((c.tc : Thread nD τ).loc main_arg2)
abbrev aPerm (c : Dev nD) : S32768.Idx → BitVec 32 := m ((c.tc : Thread nD τ).loc main_arg3)
abbrev aSeg (c : Dev nD) : S32768.Idx → BitVec 32 := m ((c.tc : Thread nD τ).loc main_arg4)
abbrev aAgg (c : Dev nD) : S4096.Idx → BitVec 32 := m ((c.tc : Thread nD τ).loc main_arg5)
abbrev sg (c : Dev nD) : Fin 32768 → Fin 32768 := Spec.sigma (aPerm m c)
/-- What region 0 leaves (the clipped group values), the transposed weights region 1 finds, and the result. -/
abbrev vY (c : Dev nD) : S2048x4096.Idx → EReal := Gen.V6 m (Run.outs m) c main_v6
abbrev vWT (c : Dev nD) : S4096x1024.Idx → EReal := Gen.V6 m (Run.outs m) c main_v8
abbrev vOut (c : Dev nD) : S2048x1024.Idx → EReal := Gen.V7 m (Run.outs m) c main_v9

/-- The clipped group value depends on its four inputs only. -/
theorem reluY_congr {x x' : Fin 2048 → Fin 32768 → EReal} {grp grp' : Fin 32768 → BitVec 32} {wt wt' : Fin 32768 → EReal}
    {agg agg' : Fin 4096 → BitVec 32} (hx : x = x') (hg : grp = grp') (hw : wt = wt') (ha : agg = agg') (b : Fin 2048) (g : Fin 4096) :
    Spec.reluY x grp wt agg b g = Spec.reluY x' grp' wt' agg' b g := by
  subst hx hg hw ha; rfl

/-- The kernel's result at (b, e): region 1's product of what region 0 left with the transposed weights, region 0's
    array the clipped group values of the columns in place with ids and weights read at σ. -/
theorem kernel_value (c : Dev nD) (b : Fin 2048) (e : Fin 1024) :
    vOut m c (ix2 b e)
      = Spec.out (fun b j => aX m c (ix2 b j)) (fun j => aSeg m c (Shape.Idx.ofFin (sg m c j)))
          (fun j => aWe m c (Shape.Idx.ofFin (sg m c j))) (fun g => aAgg m c (Shape.Idx.ofFin g))
          (fun e g => aW m c (ix2 e g)) b e := by
  have h1 : vOut m c (ix2 b e) = ∑ g : Fin 4096, vY m c (ix2 b g) * vWT m c (ix2 g e) :=
    (congrFun (Run.V7_v9 m c) (ix2 b e)).trans (R1V.arrAt1_apply (fun c b => Gen.V6 m (Run.outs m) c b) c b e)
  refine h1.trans ?_
  unfold Spec.out
  refine Finset.sum_congr rfl fun g _ => ?_
  have h2 : vY m c (ix2 b g)
      = Spec.reluY (fun b j => aX m c (ix2 b j)) (fun j => aSeg m c (Shape.Idx.ofFin (sg m c j)))
          (fun j => aWe m c (Shape.Idx.ofFin (sg m c j))) (fun g => aAgg m c (Shape.Idx.ofFin g)) b g :=
    (congrFun (Run.V6_v6 m c) (ix2 b g)).trans ((arrAt0_apply (fun c b => Gen.V4 m c b) c b g).trans
      (reluY_congr (funext fun b' => funext fun j => congrFun (HostV.V4_arg0 m c) (ix2 b' j))
        (funext fun j => HostV.V4_v3_apply m c j) (funext fun j => HostV.V4_v4_apply m c j)
        (funext fun g' => HostV.V4_v5_apply m c g') b g))
  have h3 : vWT m c (ix2 g e) = aW m c (ix2 e g) :=
    HostV.V6_v8_apply m (Run.outs m) c g e
  rw [h2, h3]

/-- THE JOIN, over a variable bijection σ of the columns with `permw` at position σ k the word k: the reference's
    result at (b, e) is `out` with the columns in place and the ids and weights read at σ. The inverse of σ is `permw`
    read as positions, so the reference's own form (columns read through `permw`) is the change of variable of this one. -/
theorem ref_value (x : S2048x32768.Idx → EReal) (W : S1024x4096.Idx → EReal) (we : S32768.Idx → EReal)
    (permw seg : S32768.Idx → BitVec 32) (agg : S4096.Idx → BitVec 32)
    (σ : Fin 32768 → Fin 32768) (hσ : Function.Bijective σ)
    (hperm : ∀ k : Fin 32768, permw (Shape.Idx.ofFin (σ k)) = BitVec.ofNat 32 k.val) (b : Fin 2048) (e : Fin 1024) :
    Cert.ReferenceIdeal.ReadP.val_main_v35 (F := Ideal) x W we permw seg agg (ix2 b e)
      = Spec.out (fun b j => x (ix2 b j)) (fun j => seg (Shape.Idx.ofFin (σ j))) (fun j => we (Shape.Idx.ofFin (σ j)))
          (fun g => agg (Shape.Idx.ofFin g)) (fun e g => W (ix2 e g)) b e := by
  have hp : ∀ s, permw (Shape.Idx.ofFin s) = BitVec.ofNat 32 ((Equiv.ofBijective σ hσ).symm s).val := by
    intro s
    have h := hperm ((Equiv.ofBijective σ hσ).symm s)
    have hs : σ ((Equiv.ofBijective σ hσ).symm s) = s := (Equiv.ofBijective σ hσ).apply_symm_apply s
    rwa [hs] at h
  rw [Cert.ReferenceIdeal.RefV.ref_apply x W we permw seg agg (fun s => (Equiv.ofBijective σ hσ).symm s) hp b e]
  exact (Spec.out_reindex (fun b j => x (ix2 b j)) (fun g => agg (Shape.Idx.ofFin g)) (fun e g => W (ix2 e g))
    σ (fun s => (Equiv.ofBijective σ hσ).symm s) hσ (fun c' => (Equiv.ofBijective σ hσ).symm_apply_apply c')
    (fun j => seg (Shape.Idx.ofFin j)) (fun j => we (Shape.Idx.ofFin j)) b e).symm

/-- The reference's result array is the kernel's: index by index both are `Spec.out` with the columns in place and
    the ids and weights read at the sorting permutation of `perm`, which the precondition makes `perm`'s inverse. -/
theorem result_eq (hpre : Cert.Pre_KernelIdeal m) (c : Dev nD) :
    Cert.ReferenceIdeal.ReadP.val_main_v35 (F := Ideal) (aX m c) (aW m c) (aWe m c) (aPerm m c) (aSeg m c) (aAgg m c)
      = Gen.V7 m (Run.outs m) c main_v9 := by
  funext i
  obtain ⟨b, e, rfl⟩ : ∃ (b : Fin 2048) (e : Fin 1024), i = ix2 b e := ⟨i 0, i 1, eq_ix2 i⟩
  exact (ref_value (aX m c) (aW m c) (aWe m c) (aPerm m c) (aSeg m c) (aAgg m c) (sg m c)
    (Spec.sigma_bijective (aPerm m c)) (PreF.perm_sigma m hpre c) b e).trans (kernel_value m c b e).symm

/-- From memories agreeing on the arguments both idealized programs end, the kernel's result array at what its two
    regions compute and the reference's at its composed term, and these are one array. -/
theorem algebraic : Cert.algebraic_KernelIdeal_ReferenceIdeal := by
  intro m ρ m' ρ' hpre hagree
  refine ⟨fun c => Gen.V7 m (Run.outs m) c main_v9, Run.run_val m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2.1, (hagree c).2.2.2.2.1, (hagree c).2.2.2.2.2]
  exact (Cert.ReferenceIdeal.ReadP.val_main_v35_eq _ _ _ _ _ _).trans (result_eq m hpre c)

end Cert.Proof.Bridge

end
-- ==== Proof.lean ====
/-
  The certificate of a ragged group embedding.

  Input: a matrix x of 2048 rows and 32768 columns, a permutation `perm` of the columns, for every permuted position a
  group id (`segment_ids`) and a weight (`w_elem`), for every one of 4096 groups an aggregation type, and a weight matrix
  W (1024 × 4096). The reference gathers the columns x[:, perm], reduces every row over each group three ways (the
  sum, the weighted sum, the count of non-zero entries), picks one by the group's type (the sum; whether the count is
  positive; the weighted sum), clips at zero and multiplies by the transpose of W.

  The kernel never permutes x. It sorts `perm` carrying the identity table along, which yields the inverse
  permutation σ, reads the group id and the weight of column c at position σ c, and reduces the columns IN PLACE: a
  first grid of (row tile, group tile, column tile) accumulates the three reductions of a 512 × 1024 block of x
  against the tile's 0/1 group-membership matrix in three scratch accumulators, reset at the first column tile and
  turned into the clipped group values at the last; a second grid multiplies each block of 512 rows by Wᵀ.

  Over the extended reals the two are one function as soon as `perm` is a permutation of 0 … 32767 — the
  precondition says that `perm` sorts to the identity table —: then perm (σ c) = c, σ is a bijection of the columns,
  and each reduction of the reference, a sum over positions j of a term in x[·, perm j] and the id and weight at j,
  becomes the kernel's sum over columns c by the change of variable j = σ c (`Cert.Spec.out_reindex`). Sums of
  products with a 0/1 factor need no finiteness: addition of extended reals is commutative and associative, and
  0 · v = 0 for every v.

  The three frames: each kernel program runs its seven items (four host stretches, the first region, one host
  stretch, the second region) to the end with the arguments untouched — the first region's invariant carries the three
  accumulators at named contents from one grid point to the next —, and the reference is a straight line of host
  operations. The idealization rewrote nothing, so the kernel's idealized text is its own text read at the extended reals.
-/
import proofs.«416405_j7060926234901_1_alg».proof.Defs
import proofs.«416405_j7060926234901_1_alg».proof.Proof.Gen.Kernel
import proofs.«416405_j7060926234901_1_alg».proof.Proof.Gen.KernelIdeal
import proofs.«416405_j7060926234901_1_alg».proof.Proof.Gen.ReferenceIdeal
import proofs.«416405_j7060926234901_1_alg».proof.Proof.Gen.Pre_finite_inputs
import proofs.«416405_j7060926234901_1_alg».proof.Proof.WFrames
import proofs.«416405_j7060926234901_1_alg».proof.Proof.Frames
import proofs.«416405_j7060926234901_1_alg».proof.Proof.RefRun
import proofs.«416405_j7060926234901_1_alg».proof.Proof.Bridge
import Idealize.ShloMosaic.Adequacy
import Idealize.ShloMosaic.Init

noncomputable section

namespace Cert.Proof

open Idealize.ShloMosaic Idealize.SL.Sem

/-- The word-level kernel program runs to the end and leaves its arguments as launched. -/
theorem frame_kernel : Cert.frame_Kernel := fun m ρ _ => Cert.Kernel.Run.frame m ρ

/-- So does its idealization. -/
theorem frame_kernelIdeal : Cert.frame_KernelIdeal := fun m ρ _ => Cert.KernelIdeal.Run.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Proof.Bridge.algebraic⟩

end Cert.Proof

end
